-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v20_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_v100) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x300000 : Shape := ⟨2, ![2, 300000]⟩
abbrev S50000x128 : Shape := ⟨2, ![50000, 128]⟩
abbrev S300000x128 : Shape := ⟨2, ![300000, 128]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S300000x128 : S_.BroadcastsInDim S300000x128 (![] : Fin 0 → Fin S300000x128.rank)
  reducesTo_S300000x128_S_d0_1 : S300000x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S2x300000 : S_.BroadcastsInDim S2x300000 (![] : Fin 0 → Fin S2x300000.rank)
  reducesTo_S2x300000_S_d0_1 : S2x300000.ReducesTo [0, 1] S_

variable [Facts]

def fn_part5 {F : FTy → Type} [FloatOps F] (main_arg0 : IVec S2x300000 32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_c_34 : IVec S_ 32 := constantI S_ 32 0#32
  let main_v89 : IVec S2x300000 32 := broadcastInDim S2x300000 ![] bcast_S_S2x300000 main_c_34
  let main_v90 : IVec S2x300000 1 := cmpi .sge main_arg0 main_v89
  let main_c_35 : IVec S_ 32 := constantI S_ 32 50000#32
  let main_v91 : IVec S2x300000 32 := broadcastInDim S2x300000 ![] bcast_S_S2x300000 main_c_35
  let main_v92 : IVec S2x300000 1 := cmpi .slt main_arg0 main_v91
  let main_v93 : IVec S2x300000 1 := andi main_v90 main_v92
  let main_c_36 : IVec S_ 1 := constantI S_ 1 1#1
  let main_v94 : IVec S_ 1 := (fun x v => Host.reduce IntOp.andi x v reducesTo_S2x300000_S_d0_1 h_S_) main_v93 main_c_36
  let main_v95 : IVec S_ 1 := andi main_v88 main_v94
  main_v95

def fn_part4 {F : FTy → Type} [FloatOps F] (main_arg0 : IVec S2x300000 32) (main_arg15 : FVec F S128x128 .f32) (main_arg16 : FVec F S128 .f32) (main_arg17 : FVec F S128 .f32) (main_arg18 : FVec F S128 .f32) (main_v63 : IVec S_ 1) (main_v67 : IVec S_ 1) : IVec S_ 1 :=
  let main_v68 : IVec S_ 1 := andi main_v63 main_v67
  let main_v69 : FVec F S128x128 .f32 := Host.absf main_arg15
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_arg0 main_v83 main_v84 main_cst_32

def fn_part3 {F : FTy → Type} [FloatOps F] (main_arg0 : IVec S2x300000 32) (main_arg12 : FVec F S128 .f32) (main_arg13 : FVec F S128x128 .f32) (main_arg14 : FVec F S128 .f32) (main_arg15 : FVec F S128x128 .f32) (main_arg16 : FVec F S128 .f32) (main_arg17 : FVec F S128 .f32) (main_arg18 : FVec F S128 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg0 main_arg15 main_arg16 main_arg17 main_arg18 main_v63 main_v67

def fn_part2 {F : FTy → Type} [FloatOps F] (main_arg0 : IVec S2x300000 32) (main_arg8 : FVec F S128 .f32) (main_arg9 : FVec F S128 .f32) (main_arg10 : FVec F S128 .f32) (main_arg11 : FVec F S256x128 .f32) (main_arg12 : FVec F S128 .f32) (main_arg13 : FVec F S128x128 .f32) (main_arg14 : FVec F S128 .f32) (main_arg15 : FVec F S128x128 .f32) (main_arg16 : FVec F S128 .f32) (main_arg17 : FVec F S128 .f32) (main_arg18 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S256x128 .f32 := Host.absf main_arg11
  let main_cst_18 : FVec F S_ .f32 := constant S_ .f32 0x7F800000#32
  let main_v50 : FVec F S256x128 .f32 := broadcastInDim S256x128 ![] bcast_S_S256x128 main_cst_18
  fn_part3 (F := F) main_arg0 main_arg12 main_arg13 main_arg14 main_arg15 main_arg16 main_arg17 main_arg18 main_v48 main_v49 main_v50

def fn_part1 {F : FTy → Type} [FloatOps F] (main_arg0 : IVec S2x300000 32) (main_arg5 : FVec F S128x128 .f32) (main_arg6 : FVec F S128 .f32) (main_arg7 : FVec F S128x128 .f32) (main_arg8 : FVec F S128 .f32) (main_arg9 : FVec F S128 .f32) (main_arg10 : FVec F S128 .f32) (main_arg11 : FVec F S256x128 .f32) (main_arg12 : FVec F S128 .f32) (main_arg13 : FVec F S128x128 .f32) (main_arg14 : FVec F S128 .f32) (main_arg15 : FVec F S128x128 .f32) (main_arg16 : FVec F S128 .f32) (main_arg17 : FVec F S128 .f32) (main_arg18 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg0 main_arg8 main_arg9 main_arg10 main_arg11 main_arg12 main_arg13 main_arg14 main_arg15 main_arg16 main_arg17 main_arg18 main_v33

def fn {F : FTy → Type} [FloatOps F] (main_arg0 : IVec S2x300000 32) (main_arg1 : FVec F S50000x128 .f32) (main_arg2 : FVec F S300000x128 .f32) (main_arg3 : FVec F S384x128 .f32) (main_arg4 : FVec F S128 .f32) (main_arg5 : FVec F S128x128 .f32) (main_arg6 : FVec F S128 .f32) (main_arg7 : FVec F S128x128 .f32) (main_arg8 : FVec F S128 .f32) (main_arg9 : FVec F S128 .f32) (main_arg10 : FVec F S128 .f32) (main_arg11 : FVec F S256x128 .f32) (main_arg12 : FVec F S128 .f32) (main_arg13 : FVec F S128x128 .f32) (main_arg14 : FVec F S128 .f32) (main_arg15 : FVec F S128x128 .f32) (main_arg16 : FVec F S128 .f32) (main_arg17 : FVec F S128 .f32) (main_arg18 : FVec F S128 .f32) : IVec S_ 1 :=
  let main_v0 : FVec F S50000x128 .f32 := Host.absf main_arg1
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S300000x128 .f32 := Host.absf main_arg2
  let main_cst_0 : FVec F S_ .f32 := constant S_ .f32 0x7F800000#32
  let main_v5 : FVec F S300000x128 .f32 := broadcastInDim S300000x128 ![] bcast_S_S300000x128 main_cst_0
  let main_v6 : IVec S300000x128 1 := cmpf .olt main_v4 main_v5
  let main_c_1 : IVec S_ 1 := constantI S_ 1 1#1
  let main_v7 : IVec S_ 1 := (fun x v => Host.reduce IntOp.andi x v reducesTo_S300000x128_S_d0_1 h_S_) main_v6 main_c_1
  let main_v8 : IVec S_ 1 := andi main_v3 main_v7
  let main_v9 : FVec F S384x128 .f32 := Host.absf main_arg3
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg0 main_arg5 main_arg6 main_arg7 main_arg8 main_arg9 main_arg10 main_arg11 main_arg12 main_arg13 main_arg14 main_arg15 main_arg16 main_arg17 main_arg18 main_v13 main_v16
-- ==== Kernel.lean ====
abbrev S2x300000 : Shape := ⟨2, ![2, 300000]⟩
abbrev S50000x128 : Shape := ⟨2, ![50000, 128]⟩
abbrev S300000x128 : Shape := ⟨2, ![300000, 128]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S1x300000 : Shape := ⟨2, ![1, 300000]⟩
abbrev S300000 : Shape := ⟨1, ![300000]⟩
abbrev S_ : Shape := ⟨0, ![]⟩
abbrev S300000x1 : Shape := ⟨2, ![300000, 1]⟩
abbrev S3000x128 : Shape := ⟨2, ![3000, 128]⟩
abbrev S3000x384 : Shape := ⟨2, ![3000, 384]⟩
abbrev S1x128 : Shape := ⟨2, ![1, 128]⟩
abbrev S3000 : Shape := ⟨1, ![3000]⟩
abbrev S3000x1 : Shape := ⟨2, ![3000, 1]⟩
abbrev S5000x128 : Shape := ⟨2, ![5000, 128]⟩
abbrev S5000x256 : Shape := ⟨2, ![5000, 256]⟩
abbrev S5000 : Shape := ⟨1, ![5000]⟩
abbrev S5000x1 : Shape := ⟨2, ![5000, 1]⟩

abbrev nBuf : Space → Nat
  | .hbm => 64
  | .vmem => 32
  | .smem => 0
  | _ => 0

abbrev bufTy : (tb : Table) → Fin (tcTables nBuf tb) → BufTy
  | .hbm, ⟨0, _⟩ => ⟨S2x300000, .i32⟩
  | .hbm, ⟨1, _⟩ => ⟨S50000x128, .f32⟩
  | .hbm, ⟨2, _⟩ => ⟨S300000x128, .f32⟩
  | .hbm, ⟨3, _⟩ => ⟨S384x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S256x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S1x300000, .i32⟩
  | .hbm, ⟨20, _⟩ => ⟨S300000, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S300000, .i32⟩
  | .hbm, ⟨25, _⟩ => ⟨S300000, .i32⟩
  | .hbm, ⟨26, _⟩ => ⟨S_, .i32⟩
  | .hbm, ⟨27, _⟩ => ⟨S300000, .i32⟩
  | .hbm, ⟨28, _⟩ => ⟨S300000, .i32⟩
  | .hbm, ⟨29, _⟩ => ⟨S1x300000, .i32⟩
  | .hbm, ⟨30, _⟩ => ⟨S300000, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S300000, .i32⟩
  | .hbm, ⟨35, _⟩ => ⟨S300000, .i32⟩
  | .hbm, ⟨36, _⟩ => ⟨S_, .i32⟩
  | .hbm, ⟨37, _⟩ => ⟨S300000, .i32⟩
  | .hbm, ⟨38, _⟩ => ⟨S300000, .i32⟩
  | .hbm, ⟨39, _⟩ => ⟨S_, .i32⟩
  | .hbm, ⟨40, _⟩ => ⟨S300000, .i32⟩
  | .hbm, ⟨41, _⟩ => ⟨S300000, .i1⟩
  | .hbm, ⟨42, _⟩ => ⟨S_, .i32⟩
  | .hbm, ⟨43, _⟩ => ⟨S300000, .i32⟩
  | .hbm, ⟨44, _⟩ => ⟨S300000, .i32⟩
  | .hbm, ⟨45, _⟩ => ⟨S300000, .i32⟩
  | .hbm, ⟨46, _⟩ => ⟨S300000x1, .i32⟩
  | .hbm, ⟨47, _⟩ => ⟨S300000x128, .f32⟩
  | .hbm, ⟨48, _⟩ => ⟨S_, .i32⟩
  | .hbm, ⟨49, _⟩ => ⟨S300000, .i32⟩
  | .hbm, ⟨50, _⟩ => ⟨S300000, .i1⟩
  | .hbm, ⟨51, _⟩ => ⟨S_, .i32⟩
  | .hbm, ⟨52, _⟩ => ⟨S300000, .i32⟩
  | .hbm, ⟨53, _⟩ => ⟨S300000, .i32⟩
  | .hbm, ⟨54, _⟩ => ⟨S300000, .i32⟩
  | .hbm, ⟨55, _⟩ => ⟨S300000x1, .i32⟩
  | .hbm, ⟨56, _⟩ => ⟨S300000x128, .f32⟩
  | .hbm, ⟨57, _⟩ => ⟨S300000x128, .f32⟩
  | .hbm, ⟨58, _⟩ => ⟨S300000x128, .f32⟩
  | .hbm, ⟨59, _⟩ => ⟨S_, .f32⟩
  | .hbm, ⟨60, _⟩ => ⟨S50000x128, .f32⟩
  | .hbm, ⟨61, _⟩ => ⟨S300000x1, .i32⟩
  | .hbm, ⟨62, _⟩ => ⟨S50000x128, .f32⟩
  | .hbm, ⟨63, _⟩ => ⟨S50000x128, .f32⟩
  | .local _ .vmem, ⟨0, _⟩ => ⟨S3000x128, .f32⟩
  | .local _ .vmem, ⟨1, _⟩ => ⟨S3000x128, .f32⟩
  | .local _ .vmem, ⟨2, _⟩ => ⟨S3000x128, .f32⟩
  | .local _ .vmem, ⟨3, _⟩ => ⟨S3000x128, .f32⟩
  | .local _ .vmem, ⟨4, _⟩ => ⟨S3000x128, .f32⟩
  | .local _ .vmem, ⟨5, _⟩ => ⟨S3000x128, .f32⟩
  | .local _ .vmem, ⟨6, _⟩ => ⟨S384x128, .f32⟩
  | .local _ .vmem, ⟨7, _⟩ => ⟨S128, .f32⟩
  | .local _ .vmem, ⟨8, _⟩ => ⟨S128x128, .f32⟩
  | .local _ .vmem, ⟨9, _⟩ => ⟨S128, .f32⟩
  | .local _ .vmem, ⟨10, _⟩ => ⟨S128x128, .f32⟩
  | .local _ .vmem, ⟨11, _⟩ => ⟨S128, .f32⟩
  | .local _ .vmem, ⟨12, _⟩ => ⟨S128, .f32⟩
  | .local _ .vmem, ⟨13, _⟩ => ⟨S128, .f32⟩
  | .local _ .vmem, ⟨14, _⟩ => ⟨S3000x128, .f32⟩
  | .local _ .vmem, ⟨15, _⟩ => ⟨S3000x128, .f32⟩
  | .local _ .vmem, ⟨16, _⟩ => ⟨S3000x128, .f32⟩
  | .local _ .vmem, ⟨17, _⟩ => ⟨S3000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S256x128, .f32⟩
  | .local _ .vmem, ⟨23, _⟩ => ⟨S128, .f32⟩
  | .local _ .vmem, ⟨24, _⟩ => ⟨S128x128, .f32⟩
  | .local _ .vmem, ⟨25, _⟩ => ⟨S128, .f32⟩
  | .local _ .vmem, ⟨26, _⟩ => ⟨S128x128, .f32⟩
  | .local _ .vmem, ⟨27, _⟩ => ⟨S128, .f32⟩
  | .local _ .vmem, ⟨28, _⟩ => ⟨S128, .f32⟩
  | .local _ .vmem, ⟨29, _⟩ => ⟨S128, .f32⟩
  | .local _ .vmem, ⟨30, _⟩ => ⟨S5000x128, .f32⟩
  | .local _ .vmem, ⟨31, _⟩ => ⟨S5000x128, .f32⟩
  | _, _ => ⟨S2x300000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_c : Ref sig .tc := ⟨.hbm, 21, rfl⟩
abbrev main_c_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_c_1 : Ref sig .tc := ⟨.hbm, 31, rfl⟩
abbrev main_c_2 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v5 : Ref sig .tc := ⟨.hbm, 38, rfl⟩
abbrev main_c_3 : Ref sig .tc := ⟨.hbm, 39, rfl⟩
abbrev main_v6 : Ref sig .tc := ⟨.hbm, 40, rfl⟩
abbrev main_v7 : Ref sig .tc := ⟨.hbm, 41, rfl⟩
abbrev main_c_4 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_c_5 : Ref sig .tc := ⟨.hbm, 48, rfl⟩
abbrev main_v13 : Ref sig .tc := ⟨.hbm, 49, rfl⟩
abbrev main_v14 : Ref sig .tc := ⟨.hbm, 50, rfl⟩
abbrev main_c_6 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20_0 : Ref sig .tc := ⟨.hbm, 57, rfl⟩
abbrev main_v20_1 : Ref sig .tc := ⟨.hbm, 58, rfl⟩
abbrev main_cst : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg9_0 : Ref sig .tc := ⟨.vmem, 29, rfl⟩
abbrev cc1_stg10_0 : Ref sig .tc := ⟨.vmem, 30, rfl⟩
abbrev cc1_stg10_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem3_0 : DmaSem sig := 23
abbrev cc1_sem4_0 : DmaSem sig := 24
abbrev cc1_sem5_0 : DmaSem sig := 25
abbrev cc1_sem6_0 : DmaSem sig := 26
abbrev cc1_sem7_0 : DmaSem sig := 27
abbrev cc1_sem8_0 : DmaSem sig := 28
abbrev cc1_sem9_0 : DmaSem sig := 29
abbrev cc1_sem10_0 : DmaSem sig := 30
abbrev cc1_sem10_1 : DmaSem sig := 31

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S3000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S3000x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S5000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  slices_S2x300000_S1x300000_0_0 : S2x300000.Slices ![0, 0] S1x300000
  shapeCasts_S1x300000_S300000 : S1x300000.ShapeCasts S300000
  bcast_S_S300000 : S_.BroadcastsInDim S300000 (![] : Fin 0 → Fin S300000.rank)
  slices_S2x300000_S1x300000_1_0 : S2x300000.Slices ![1, 0] S1x300000
  bcast_S300000_S300000x1_0 : S300000.BroadcastsInDim S300000x1 (![0] : Fin 1 → Fin S300000x1.rank)
  inb_S3000x128_S3000x128_0_0 : ∀ a, (![0, 0] : Fin 2 → Nat) a + S3000x128.size a ≤ S3000x128.size a
  h_S3000x128 : 0 < S3000x128.numel
  shapeCasts_S3000x128_S3000x128 : S3000x128.ShapeCasts S3000x128
  concatenates_S3000x128_S3000x128_S3000x128_S3000x384_d1 : Shape.Concatenates [S3000x128, S3000x128, S3000x128] S3000x384 1
  bitsLt_bf16_f32 : FTy.bits .bf16 < FTy.bits .f32
  inb_S384x128_S384x128_0_0 : ∀ a, (![0, 0] : Fin 2 → Nat) a + S384x128.size a ≤ S384x128.size a
  h_S384x128 : 0 < S384x128.numel
  inb_S128_S128_0 : ∀ a, (![0] : Fin 1 → Nat) a + S128.size a ≤ S128.size a
  h_S128 : 0 < S128.numel
  shapeCasts_S128_S1x128 : S128.ShapeCasts S1x128
  broadcasts_S1x128_S3000x128 : S1x128.Broadcasts S3000x128
  inb_S128x128_S128x128_0_0 : ∀ a, (![0, 0] : Fin 2 → Nat) a + S128x128.size a ≤ S128x128.size a
  h_S128x128 : 0 < S128x128.numel
  reduces_S3000x128_S3000 : S3000x128.Reduces [1] S3000
  shapeCasts_S3000_S3000x1 : S3000.ShapeCasts S3000x1
  broadcasts_S3000x1_S3000x128 : S3000x1.Broadcasts S3000x128
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  concatenates_S5000x128_S5000x128_S5000x256_d1 : Shape.Concatenates [S5000x128, S5000x128] S5000x256 1
  inb_S256x128_S256x128_0_0 : ∀ a, (![0, 0] : Fin 2 → Nat) a + S256x128.size a ≤ S256x128.size a
  h_S256x128 : 0 < S256x128.numel
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  gather_S50000x128_S300000x1_S300000x128_1_0_n_n_0_1_1128_wf : GatherDims.WF S50000x128 S300000x1 S300000x128 [1] [0] [] [0] [] 1 ![1, 128]
  dot_S3000x384_S384x128_S3000x128_1_0_0_1_n_n_wf : DotDims.WF S3000x384 S384x128 S3000x128 [1] [0] [0] [1] [] []
  dot_S3000x128_S128x128_S3000x128_1_0_0_1_n_n_wf : DotDims.WF S3000x128 S128x128 S3000x128 [1] [0] [0] [1] [] []
  scatter_S50000x128_S300000x1_S300000x128_1_0_0_1_wf : ScatterDims.WF S50000x128 S300000x1 S300000x128 [1] [0] [0] 1
  dot_S5000x256_S256x128_S5000x128_1_0_0_1_n_n_wf : DotDims.WF S5000x256 S256x128 S5000x128 [1] [0] [0] [1] [] []
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3000x128.size a ≤ S300000x128.size a
  hwx0_0 : ∀ i : grid0.Coords, EltTy.bits .f32 = 32 ∨ (Rect.block (s := S300000x128) S3000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3000x128.size a ≤ S300000x128.size a
  hwx0_1 : ∀ i : grid0.Coords, EltTy.bits .f32 = 32 ∨ (Rect.block (s := S300000x128) S3000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3000x128.size a ≤ S300000x128.size a
  hwx0_2 : ∀ i : grid0.Coords, EltTy.bits .f32 = 32 ∨ (Rect.block (s := S300000x128) S3000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x128.size a ≤ S384x128.size a
  hwx0_3 : ∀ i : grid0.Coords, EltTy.bits .f32 = 32 ∨ (Rect.block (s := S384x128) S384x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S3000x128.size a ≤ S300000x128.size a
  hwx0_11 : ∀ i : grid0.Coords, EltTy.bits .f32 = 32 ∨ (Rect.block (s := S300000x128) S3000x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S3000x128.size a ≤ S300000x128.size a
  hwx0_12 : ∀ i : grid0.Coords, EltTy.bits .f32 = 32 ∨ (Rect.block (s := S300000x128) S3000x128.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128.size a ≤ S128.size a
  hwx1_9 : ∀ i : grid1.Coords, EltTy.bits .f32 = 32 ∨ (Rect.block (s := S128) S128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x128.size a ≤ S50000x128.size a
  hwx1_10 : ∀ i : grid1.Coords, EltTy.bits .f32 = 32 ∨ (Rect.block (s := S50000x128) S5000x128.size (cc1_transform_10 i) (hinb1_10 i)).WholeWords (EltTy.packing .f32)

variable [Facts₀]

def gather_S50000x128_S300000x1_S300000x128_1_0_n_n_0_1_1128 : GatherDims S50000x128 S300000x1 S300000x128 where
  offsetDims := [1]
  collapsedSliceDims := [0]
  operandBatchingDims := []
  startIndicesBatchingDims := []
  startIndexMap := [0]
  indexVectorDim := 1
  sliceSizes := ![1, 128]
  wf := gather_S50000x128_S300000x1_S300000x128_1_0_n_n_0_1_1128_wf
def dot_S3000x384_S384x128_S3000x128_1_0_0_1_n_n : DotDims S3000x384 S384x128 S3000x128 where
  lhsContracting := [1]
  rhsContracting := [0]
  lhsNonContracting := [0]
  rhsNonContracting := [1]
  lhsBatch := []
  rhsBatch := []
  wf := dot_S3000x384_S384x128_S3000x128_1_0_0_1_n_n_wf
def dot_S3000x128_S128x128_S3000x128_1_0_0_1_n_n : DotDims S3000x128 S128x128 S3000x128 where
  lhsContracting := [1]
  rhsContracting := [0]
  lhsNonContracting := [0]
  rhsNonContracting := [1]
  lhsBatch := []
  rhsBatch := []
  wf := dot_S3000x128_S128x128_S3000x128_1_0_0_1_n_n_wf
def scatter_S50000x128_S300000x1_S300000x128_1_0_0_1 : ScatterDims S50000x128 S300000x1 S300000x128 where
  updateWindowDims := [1]
  insertedWindowDims := [0]
  scatterDimsToOperandDims := [0]
  indexVectorDim := 1
  wf := scatter_S50000x128_S300000x1_S300000x128_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v12) S3000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S3000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S384x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v20_0) S3000x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v20_1) S3000x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_arg1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg11) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg12) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg13) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg14) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg15) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg16) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg17) S128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg18) S128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v24) S5000x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S2x300000 : Shape := ⟨2, ![2, 300000]⟩
abbrev S50000x128 : Shape := ⟨2, ![50000, 128]⟩
abbrev S300000x128 : Shape := ⟨2, ![300000, 128]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S1x300000 : Shape := ⟨2, ![1, 300000]⟩
abbrev S300000 : Shape := ⟨1, ![300000]⟩
abbrev S_ : Shape := ⟨0, ![]⟩
abbrev S300000x1 : Shape := ⟨2, ![300000, 1]⟩
abbrev S300000x384 : Shape := ⟨2, ![300000, 384]⟩
abbrev S1x128 : Shape := ⟨2, ![1, 128]⟩
abbrev S50000x256 : Shape := ⟨2, ![50000, 256]⟩
abbrev S50000 : Shape := ⟨1, ![50000]⟩
abbrev S50000x1 : Shape := ⟨2, ![50000, 1]⟩

abbrev nBuf : Space → Nat
  | .hbm => 143
  | .vmem => 0
  | .smem => 0
  | _ => 0

abbrev hbmTy0_0 (i : Nat) : BufTy := match i % 128 with
  | 0 => ⟨S2x300000, .i32⟩
  | 1 => ⟨S50000x128, .f32⟩
  | 2 => ⟨S300000x128, .f32⟩
  | 3 => ⟨S384x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128, .f32⟩
  | 10 => ⟨S128, .f32⟩
  | 11 => ⟨S256x128, .f32⟩
  | 12 => ⟨S128, .f32⟩
  | 13 => ⟨S128x128, .f32⟩
  | 14 => ⟨S128, .f32⟩
  | 15 => ⟨S128x128, .f32⟩
  | 16 => ⟨S128, .f32⟩
  | 17 => ⟨S128, .f32⟩
  | 18 => ⟨S128, .f32⟩
  | 19 => ⟨S1x300000, .i32⟩
  | 20 => ⟨S300000, .i32⟩
  | 21 => ⟨S1x300000, .i32⟩
  | 22 => ⟨S300000, .i32⟩
  | 23 => ⟨S_, .i32⟩
  | 24 => ⟨S300000, .i32⟩
  | 25 => ⟨S300000, .i1⟩
  | 26 => ⟨S_, .i32⟩
  | 27 => ⟨S300000, .i32⟩
  | 28 => ⟨S300000, .i32⟩
  | 29 => ⟨S300000, .i32⟩
  | 30 => ⟨S300000x1, .i32⟩
  | 31 => ⟨S300000x128, .f32⟩
  | 32 => ⟨S_, .i32⟩
  | 33 => ⟨S300000, .i32⟩
  | 34 => ⟨S300000, .i1⟩
  | 35 => ⟨S_, .i32⟩
  | 36 => ⟨S300000, .i32⟩
  | 37 => ⟨S300000, .i32⟩
  | 38 => ⟨S300000, .i32⟩
  | 39 => ⟨S300000x1, .i32⟩
  | 40 => ⟨S300000x128, .f32⟩
  | 41 => ⟨S300000x384, .f32⟩
  | 42 => ⟨S300000x128, .f32⟩
  | 43 => ⟨S1x128, .f32⟩
  | 44 => ⟨S300000x128, .f32⟩
  | 45 => ⟨S300000x128, .f32⟩
  | 46 => ⟨S_, .f32⟩
  | 47 => ⟨S300000x128, .f32⟩
  | 48 => ⟨S300000x128, .f32⟩
  | 49 => ⟨S300000x128, .f32⟩
  | 50 => ⟨S1x128, .f32⟩
  | 51 => ⟨S300000x128, .f32⟩
  | 52 => ⟨S300000x128, .f32⟩
  | 53 => ⟨S_, .f32⟩
  | 54 => ⟨S300000x128, .f32⟩
  | 55 => ⟨S300000x128, .f32⟩
  | 56 => ⟨S300000x128, .f32⟩
  | 57 => ⟨S1x128, .f32⟩
  | 58 => ⟨S300000x128, .f32⟩
  | 59 => ⟨S300000x128, .f32⟩
  | 60 => ⟨S_, .f32⟩
  | 61 => ⟨S300000, .f32⟩
  | 62 => ⟨S300000x1, .f32⟩
  | 63 => ⟨S_, .f32⟩
  | 64 => ⟨S300000x1, .f32⟩
  | 65 => ⟨S300000x1, .f32⟩
  | 66 => ⟨S300000x128, .f32⟩
  | 67 => ⟨S300000x128, .f32⟩
  | 68 => ⟨S300000x128, .f32⟩
  | 69 => ⟨S_, .f32⟩
  | 70 => ⟨S300000, .f32⟩
  | 71 => ⟨S300000x1, .f32⟩
  | 72 => ⟨S_, .f32⟩
  | 73 => ⟨S300000x1, .f32⟩
  | 74 => ⟨S300000x1, .f32⟩
  | 75 => ⟨S300000x128, .f32⟩
  | 76 => ⟨S300000x128, .f32⟩
  | 77 => ⟨S_, .f32⟩
  | 78 => ⟨S300000x1, .f32⟩
  | 79 => ⟨S300000x1, .f32⟩
  | 80 => ⟨S300000x1, .f32⟩
  | 81 => ⟨S300000x128, .f32⟩
  | 82 => ⟨S300000x128, .f32⟩
  | 83 => ⟨S1x128, .f32⟩
  | 84 => ⟨S300000x128, .f32⟩
  | 85 => ⟨S300000x128, .f32⟩
  | 86 => ⟨S1x128, .f32⟩
  | 87 => ⟨S300000x128, .f32⟩
  | 88 => ⟨S300000x128, .f32⟩
  | 89 => ⟨S_, .f32⟩
  | 90 => ⟨S50000x128, .f32⟩
  | 91 => ⟨S300000x1, .i32⟩
  | 92 => ⟨S50000x128, .f32⟩
  | 93 => ⟨S50000x256, .f32⟩
  | 94 => ⟨S50000x128, .f32⟩
  | 95 => ⟨S1x128, .f32⟩
  | 96 => ⟨S50000x128, .f32⟩
  | 97 => ⟨S50000x128, .f32⟩
  | 98 => ⟨S_, .f32⟩
  | 99 => ⟨S50000x128, .f32⟩
  | 100 => ⟨S50000x128, .f32⟩
  | 101 => ⟨S50000x128, .f32⟩
  | 102 => ⟨S1x128, .f32⟩
  | 103 => ⟨S50000x128, .f32⟩
  | 104 => ⟨S50000x128, .f32⟩
  | 105 => ⟨S_, .f32⟩
  | 106 => ⟨S50000x128, .f32⟩
  | 107 => ⟨S50000x128, .f32⟩
  | 108 => ⟨S50000x128, .f32⟩
  | 109 => ⟨S1x128, .f32⟩
  | 110 => ⟨S50000x128, .f32⟩
  | 111 => ⟨S50000x128, .f32⟩
  | 112 => ⟨S_, .f32⟩
  | 113 => ⟨S50000, .f32⟩
  | 114 => ⟨S50000x1, .f32⟩
  | 115 => ⟨S_, .f32⟩
  | 116 => ⟨S50000x1, .f32⟩
  | 117 => ⟨S50000x1, .f32⟩
  | 118 => ⟨S50000x128, .f32⟩
  | 119 => ⟨S50000x128, .f32⟩
  | 120 => ⟨S50000x128, .f32⟩
  | 121 => ⟨S_, .f32⟩
  | 122 => ⟨S50000, .f32⟩
  | 123 => ⟨S50000x1, .f32⟩
  | 124 => ⟨S_, .f32⟩
  | 125 => ⟨S50000x1, .f32⟩
  | 126 => ⟨S50000x1, .f32⟩
  | 127 => ⟨S50000x128, .f32⟩
  | _ => ⟨S2x300000, .i32⟩

abbrev hbmTy0_1 (i : Nat) : BufTy := match i % 128 with
  | 0 => ⟨S50000x128, .f32⟩
  | 1 => ⟨S_, .f32⟩
  | 2 => ⟨S50000x1, .f32⟩
  | 3 => ⟨S50000x1, .f32⟩
  | 4 => ⟨S50000x1, .f32⟩
  | 5 => ⟨S50000x128, .f32⟩
  | 6 => ⟨S50000x128, .f32⟩
  | 7 => ⟨S1x128, .f32⟩
  | 8 => ⟨S50000x128, .f32⟩
  | 9 => ⟨S50000x128, .f32⟩
  | 10 => ⟨S1x128, .f32⟩
  | 11 => ⟨S50000x128, .f32⟩
  | 12 => ⟨S50000x128, .f32⟩
  | 13 => ⟨S50000x128, .f32⟩
  | 14 => ⟨S300000x128, .f32⟩
  | _ => ⟨S2x300000, .i32⟩

abbrev hbmTy (i : Nat) : BufTy := match i / 128 with
  | 0 => hbmTy0_0 i
  | 1 => hbmTy0_1 i
  | _ => ⟨S2x300000, .i32⟩

abbrev bufTy : (tb : Table) → Fin (tcTables nBuf tb) → BufTy
  | .hbm, ⟨i, _⟩ => hbmTy i
  | _, _ => ⟨S2x300000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_c_1 : Ref sig .tc := ⟨.hbm, 32, rfl⟩
abbrev main_v11 : Ref sig .tc := ⟨.hbm, 33, rfl⟩
abbrev main_v12 : Ref sig .tc := ⟨.hbm, 34, rfl⟩
abbrev main_c_2 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_call0_cst : Ref sig .tc := ⟨.hbm, 46, rfl⟩
abbrev main_call0_v0 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_call1_cst : Ref sig .tc := ⟨.hbm, 53, rfl⟩
abbrev main_call1_v0 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst : Ref sig .tc := ⟨.hbm, 60, rfl⟩
abbrev main_v33 : Ref sig .tc := ⟨.hbm, 61, rfl⟩
abbrev main_v34 : Ref sig .tc := ⟨.hbm, 62, rfl⟩
abbrev main_cst_3 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_4 : Ref sig .tc := ⟨.hbm, 69, rfl⟩
abbrev main_v40 : Ref sig .tc := ⟨.hbm, 70, rfl⟩
abbrev main_v41 : Ref sig .tc := ⟨.hbm, 71, rfl⟩
abbrev main_cst_5 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_6 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_7 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_call2_cst : Ref sig .tc := ⟨.hbm, 98, rfl⟩
abbrev main_call2_v0 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_call3_cst : Ref sig .tc := ⟨.hbm, 105, rfl⟩
abbrev main_call3_v0 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_8 : Ref sig .tc := ⟨.hbm, 112, rfl⟩
abbrev main_v75 : Ref sig .tc := ⟨.hbm, 113, rfl⟩
abbrev main_v76 : Ref sig .tc := ⟨.hbm, 114, rfl⟩
abbrev main_cst_9 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_10 : Ref sig .tc := ⟨.hbm, 121, rfl⟩
abbrev main_v82 : Ref sig .tc := ⟨.hbm, 122, rfl⟩
abbrev main_v83 : Ref sig .tc := ⟨.hbm, 123, rfl⟩
abbrev main_cst_11 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_cst_12 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩

abbrev nD : Nat := 1
abbrev τ : Topo := Topo.v7x

variable {F : FTy → Type} [FloatOps F]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S_S300000 : S_.BroadcastsInDim S300000 (![] : Fin 0 → Fin S300000.rank)
  bcast_S300000_S300000x1_0 : S300000.BroadcastsInDim S300000x1 (![0] : Fin 1 → Fin S300000x1.rank)
  concatenates_S300000x128_S300000x128_S300000x128_S300000x384_d1 : Shape.Concatenates [S300000x128, S300000x128, S300000x128] S300000x384 1
  bcast_S128_S1x128_1 : S128.BroadcastsInDim S1x128 (![1] : Fin 1 → Fin S1x128.rank)
  bcast_S1x128_S300000x128_0_1 : S1x128.BroadcastsInDim S300000x128 (![0, 1] : Fin 2 → Fin S300000x128.rank)
  bcast_S_S300000x128 : S_.BroadcastsInDim S300000x128 (![] : Fin 0 → Fin S300000x128.rank)
  reducesTo_S300000x128_S300000_d1 : S300000x128.ReducesTo [1] S300000
  h_S_ : 0 < S_.numel
  bcast_S_S300000x1 : S_.BroadcastsInDim S300000x1 (![] : Fin 0 → Fin S300000x1.rank)
  bcast_S300000x1_S300000x128_0_1 : S300000x1.BroadcastsInDim S300000x128 (![0, 1] : Fin 2 → Fin S300000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  reducesTo_S50000x128_S50000_d1 : S50000x128.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  gather_S50000x128_S300000x1_S300000x128_1_0_n_n_0_1_1128_wf : GatherDims.WF S50000x128 S300000x1 S300000x128 [1] [0] [] [0] [] 1 ![1, 128]
  dot_S300000x384_S384x128_S300000x128_1_0_0_1_n_n_wf : DotDims.WF S300000x384 S384x128 S300000x128 [1] [0] [0] [1] [] []
  dot_S300000x128_S128x128_S300000x128_1_0_0_1_n_n_wf : DotDims.WF S300000x128 S128x128 S300000x128 [1] [0] [0] [1] [] []
  scatter_S50000x128_S300000x1_S300000x128_1_0_0_1_wf : ScatterDims.WF S50000x128 S300000x1 S300000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x128_S300000x1_S300000x128_1_0_n_n_0_1_1128 : GatherDims S50000x128 S300000x1 S300000x128 where
  offsetDims := [1]
  collapsedSliceDims := [0]
  operandBatchingDims := []
  startIndicesBatchingDims := []
  startIndexMap := [0]
  indexVectorDim := 1
  sliceSizes := ![1, 128]
  wf := gather_S50000x128_S300000x1_S300000x128_1_0_n_n_0_1_1128_wf
def dot_S300000x384_S384x128_S300000x128_1_0_0_1_n_n : DotDims S300000x384 S384x128 S300000x128 where
  lhsContracting := [1]
  rhsContracting := [0]
  lhsNonContracting := [0]
  rhsNonContracting := [1]
  lhsBatch := []
  rhsBatch := []
  wf := dot_S300000x384_S384x128_S300000x128_1_0_0_1_n_n_wf
def dot_S300000x128_S128x128_S300000x128_1_0_0_1_n_n : DotDims S300000x128 S128x128 S300000x128 where
  lhsContracting := [1]
  rhsContracting := [0]
  lhsNonContracting := [0]
  rhsNonContracting := [1]
  lhsBatch := []
  rhsBatch := []
  wf := dot_S300000x128_S128x128_S300000x128_1_0_0_1_n_n_wf
def scatter_S50000x128_S300000x1_S300000x128_1_0_0_1 : ScatterDims S50000x128 S300000x1 S300000x128 where
  updateWindowDims := [1]
  insertedWindowDims := [0]
  scatterDimsToOperandDims := [0]
  indexVectorDim := 1
  wf := scatter_S50000x128_S300000x1_S300000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Pre.lean ====
/-
  The index range, read out of the precondition.

  The precondition's last conjunct says every entry of the edge index array is a row number of the
  node array: at least 0 and below 50000 as a signed word.  It is the outermost conjunct of the
  printed predicate, a conjunction over all entries of "at least 0" and "below 50000".
-/
import proofs.«408019_j31533649887539_3_alg».proof.Pre_finite_inputs
import Idealize.ShloMosaic.Lib.ReduceAll
import Idealize.ShloMosaic.Lib.ValueIdx

noncomputable section

namespace Cert.PreRead

open Idealize.ShloMosaic Idealize.ShloMosaic.ValueIdx Cert.Pre_finite_inputs

/-- A shape of rank 0 has one index. -/
instance subsingleton_S_ : Subsingleton S_.Idx := ⟨fun a b => funext fun d => d.elim0⟩

variable [Cert.Pre_finite_inputs.Facts]

/-- Where the precondition holds, every entry of the edge index array is in [0, 50000) as a signed word. -/
theorem idx_in_range {F : FTy → Type} [FloatOps F] (a0 : IVec S2x300000 32) (a1 : FVec F S50000x128 .f32) (a2 : FVec F S300000x128 .f32)
    (a3 : FVec F S384x128 .f32) (a4 : FVec F S128 .f32) (a5 : FVec F S128x128 .f32) (a6 : FVec F S128 .f32) (a7 : FVec F S128x128 .f32)
    (a8 a9 a10 : FVec F S128 .f32) (a11 : FVec F S256x128 .f32) (a12 : FVec F S128 .f32) (a13 : FVec F S128x128 .f32)
    (a14 : FVec F S128 .f32) (a15 : FVec F S128x128 .f32) (a16 a17 a18 : FVec F S128 .f32)
    (h : fn (F := F) a0 a1 a2 a3 a4 a5 a6 a7 a8 a9 a10 a11 a12 a13 a14 a15 a16 a17 a18 = fun _ => 1#1) (j : S2x300000.Idx) :
    0 ≤ (a0 j).toInt ∧ (a0 j).toInt < 50000 := by
  have h0 := congrFun h ix0
  dsimp only [fn, fn_part1, fn_part2, fn_part3, fn_part4, fn_part5] at h0
  obtain ⟨-, h1⟩ := IntOp.andi_eq_one.1 h0
  have h2 := Host.reduce_andi_all _ _ _ _ _ h1 j
  obtain ⟨hge, hlt⟩ := IntOp.andi_eq_one.1 h2
  have hge' := IntOp.cmpi_sge.1 hge
  have hlt' := IntOp.cmpi_slt.1 hlt
  simp only [broadcastInDim, constantI] at hge' hlt'
  have z0 : (0#32 : BitVec 32).toInt = 0 := by decide
  have z1 : (50000#32 : BitVec 32).toInt = 50000 := by decide
  constructor <;> omega

end Cert.PreRead

end
-- ==== Proof.KHostRaw.lean ====
/-
  What the kernel's host operations leave in the buffers each region reads.

  Before the edge region the program slices the sender and receiver rows out of the edge index
  array, clamps each to [0, 49999], wraps negative words once and gathers the node rows at them;
  the edge features and the layers' weights are the arguments themselves.  Between the two
  regions it sums the edge region's first output into the node rows named by the clamped receiver
  indices, starting from zeros; the node features and the node layers' weights are again the
  arguments themselves.
-/
import proofs.«408019_j31533649887539_3_alg».proof.Proof.Gen.KernelIdeal.Frame

set_option maxRecDepth 16384

noncomputable section

namespace Cert.KernelIdeal.HostRaw

open Idealize.ShloMosaic Idealize.ShloMosaic.TcCoe Idealize.SL.Sem Idealize.ShloMosaic.StableHlo
open Cert.KernelIdeal Cert.KernelIdeal.Gen

variable {F : FTy → Type} [FloatOps F]

/-- A vector of row numbers clamped to [0, 49999], as the kernel's program spells it. -/
abbrev clampK (x : IVec S300000 32) : IVec S300000 32 :=
  minsi (broadcastInDim S300000 ![] bcast_S_S300000 (constantI S_ 32 49999#32))
    (maxsi (broadcastInDim S300000 ![] bcast_S_S300000 (constantI S_ 32 0#32)) x)

/-- Negative row numbers wrapped once, as the kernel's program spells it. -/
abbrev wrapK (x : IVec S300000 32) : IVec S300000 32 :=
  select (cmpi .slt x (broadcastInDim S300000 ![] bcast_S_S300000 (constantI S_ 32 0#32)))
    (addi x (broadcastInDim S300000 ![] bcast_S_S300000 (constantI S_ 32 50000#32))) x

/-- The sender row of the edge index array as a vector. -/
abbrev sendK (a0 : IVec S2x300000 32) : IVec S300000 32 :=
  shapeCast S300000 (extractStridedSlice S1x300000 ![0, 0] a0 slices_S2x300000_S1x300000_0_0) shapeCasts_S1x300000_S300000

/-- The receiver row of the edge index array as a vector. -/
abbrev recvK (a0 : IVec S2x300000 32) : IVec S300000 32 :=
  shapeCast S300000 (extractStridedSlice S1x300000 ![1, 0] a0 slices_S2x300000_S1x300000_1_0) shapeCasts_S1x300000_S300000

variable (m : (ℓ : Loc nD τ sig) → Buf (Elt F) ℓ) (ρ : Dev nD → PrngReg)

/-! ## The edge region's entry -/

set_option maxHeartbeats 4000000 in
/-- The gathered sender rows the edge region reads. -/
theorem V5_sent (c : Dev nD) :
    V5 m ρ c main_v12 = Host.gather gather_S50000x128_S300000x1_S300000x128_1_0_n_n_0_1_1128 (m ((c : Thread nD τ).loc main_arg1))
      (broadcastInDim S300000x1 ![0] bcast_S300000_S300000x1_0 (wrapK (clampK (sendK (m ((c : Thread nD τ).loc main_arg0)))))) := by
  show StableHlo.after hostOps0_4 (StableHlo.after hostOps0_3 (StableHlo.after hostOps0_2 (StableHlo.after hostOps0_1 (StableHlo.after hostOps0 (W0 m ρ c))))) (Proc.devRef .tc main_v12) = _
  simp only [hostOps0_4, hostOps0_3, hostOps0_2, hostOps0_1, hostOps0]
  after_results_simp
  simp only [TRef.ofBuf, TRef.toBuf, cast_eq, id]
  rfl

set_option maxHeartbeats 4000000 in
/-- The gathered receiver rows the edge region reads. -/
theorem V5_recv (c : Dev nD) :
    V5 m ρ c main_v19 = Host.gather gather_S50000x128_S300000x1_S300000x128_1_0_n_n_0_1_1128 (m ((c : Thread nD τ).loc main_arg1))
      (broadcastInDim S300000x1 ![0] bcast_S300000_S300000x1_0 (wrapK (clampK (recvK (m ((c : Thread nD τ).loc main_arg0)))))) := by
  show StableHlo.after hostOps0_4 (StableHlo.after hostOps0_3 (StableHlo.after hostOps0_2 (StableHlo.after hostOps0_1 (StableHlo.after hostOps0 (W0 m ρ c))))) (Proc.devRef .tc main_v19) = _
  simp only [hostOps0_4, hostOps0_3, hostOps0_2, hostOps0_1, hostOps0]
  after_results_simp
  simp only [TRef.ofBuf, TRef.toBuf, cast_eq, id]
  rfl

set_option maxHeartbeats 4000000 in
/-- The clamped receiver indices, which no later operation before the node region rewrites. -/
theorem W5_recvIdx (c : Dev nD) :
    W5 m ρ c (Proc.devRef .tc main_v5) = clampK (recvK (m ((c : Thread nD τ).loc main_arg0))) := by
  show StableHlo.after hostOps0_4 (StableHlo.after hostOps0_3 (StableHlo.after hostOps0_2 (StableHlo.after hostOps0_1 (StableHlo.after hostOps0 (W0 m ρ c))))) (Proc.devRef .tc main_v5) = _
  simp only [hostOps0_4, hostOps0_3, hostOps0_2, hostOps0_1, hostOps0]
  after_results_simp
  simp only [TRef.ofBuf, TRef.toBuf, cast_eq, id]
  rfl

set_option maxHeartbeats 4000000 in
/-- No host operation before the edge region writes argument 2. -/
theorem W5_arg2 (c : Dev nD) : W5 m ρ c (Proc.devRef .tc main_arg2) = m ((c : Thread nD τ).loc main_arg2) := by
  show StableHlo.after hostOps0_4 (StableHlo.after hostOps0_3 (StableHlo.after hostOps0_2 (StableHlo.after hostOps0_1 (StableHlo.after hostOps0 (W0 m ρ c))))) (Proc.devRef .tc main_arg2) = _
  simp only [hostOps0_4, hostOps0_3, hostOps0_2, hostOps0_1, hostOps0]
  after_results_simp

set_option maxHeartbeats 4000000 in
/-- No host operation before the edge region writes argument 3. -/
theorem W5_arg3 (c : Dev nD) : W5 m ρ c (Proc.devRef .tc main_arg3) = m ((c : Thread nD τ).loc main_arg3) := by
  show StableHlo.after hostOps0_4 (StableHlo.after hostOps0_3 (StableHlo.after hostOps0_2 (StableHlo.after hostOps0_1 (StableHlo.after hostOps0 (W0 m ρ c))))) (Proc.devRef .tc main_arg3) = _
  simp only [hostOps0_4, hostOps0_3, hostOps0_2, hostOps0_1, hostOps0]
  after_results_simp

set_option maxHeartbeats 4000000 in
/-- No host operation before the edge region writes argument 4. -/
theorem W5_arg4 (c : Dev nD) : W5 m ρ c (Proc.devRef .tc main_arg4) = m ((c : Thread nD τ).loc main_arg4) := by
  show StableHlo.after hostOps0_4 (StableHlo.after hostOps0_3 (StableHlo.after hostOps0_2 (StableHlo.after hostOps0_1 (StableHlo.after hostOps0 (W0 m ρ c))))) (Proc.devRef .tc main_arg4) = _
  simp only [hostOps0_4, hostOps0_3, hostOps0_2, hostOps0_1, hostOps0]
  after_results_simp

set_option maxHeartbeats 4000000 in
/-- No host operation before the edge region writes argument 5. -/
theorem W5_arg5 (c : Dev nD) : W5 m ρ c (Proc.devRef .tc main_arg5) = m ((c : Thread nD τ).loc main_arg5) := by
  show StableHlo.after hostOps0_4 (StableHlo.after hostOps0_3 (StableHlo.after hostOps0_2 (StableHlo.after hostOps0_1 (StableHlo.after hostOps0 (W0 m ρ c))))) (Proc.devRef .tc main_arg5) = _
  simp only [hostOps0_4, hostOps0_3, hostOps0_2, hostOps0_1, hostOps0]
  after_results_simp

set_option maxHeartbeats 4000000 in
/-- No host operation before the edge region writes argument 6. -/
theorem W5_arg6 (c : Dev nD) : W5 m ρ c (Proc.devRef .tc main_arg6) = m ((c : Thread nD τ).loc main_arg6) := by
  show StableHlo.after hostOps0_4 (StableHlo.after hostOps0_3 (StableHlo.after hostOps0_2 (StableHlo.after hostOps0_1 (StableHlo.after hostOps0 (W0 m ρ c))))) (Proc.devRef .tc main_arg6) = _
  simp only [hostOps0_4, hostOps0_3, hostOps0_2, hostOps0_1, hostOps0]
  after_results_simp

set_option maxHeartbeats 4000000 in
/-- No host operation before the edge region writes argument 7. -/
theorem W5_arg7 (c : Dev nD) : W5 m ρ c (Proc.devRef .tc main_arg7) = m ((c : Thread nD τ).loc main_arg7) := by
  show StableHlo.after hostOps0_4 (StableHlo.after hostOps0_3 (StableHlo.after hostOps0_2 (StableHlo.after hostOps0_1 (StableHlo.after hostOps0 (W0 m ρ c))))) (Proc.devRef .tc main_arg7) = _
  simp only [hostOps0_4, hostOps0_3, hostOps0_2, hostOps0_1, hostOps0]
  after_results_simp

set_option maxHeartbeats 4000000 in
/-- No host operation before the edge region writes argument 8. -/
theorem W5_arg8 (c : Dev nD) : W5 m ρ c (Proc.devRef .tc main_arg8) = m ((c : Thread nD τ).loc main_arg8) := by
  show StableHlo.after hostOps0_4 (StableHlo.after hostOps0_3 (StableHlo.after hostOps0_2 (StableHlo.after hostOps0_1 (StableHlo.after hostOps0 (W0 m ρ c))))) (Proc.devRef .tc main_arg8) = _
  simp only [hostOps0_4, hostOps0_3, hostOps0_2, hostOps0_1, hostOps0]
  after_results_simp

set_option maxHeartbeats 4000000 in
/-- No host operation before the edge region writes argument 9. -/
theorem W5_arg9 (c : Dev nD) : W5 m ρ c (Proc.devRef .tc main_arg9) = m ((c : Thread nD τ).loc main_arg9) := by
  show StableHlo.after hostOps0_4 (StableHlo.after hostOps0_3 (StableHlo.after hostOps0_2 (StableHlo.after hostOps0_1 (StableHlo.after hostOps0 (W0 m ρ c))))) (Proc.devRef .tc main_arg9) = _
  simp only [hostOps0_4, hostOps0_3, hostOps0_2, hostOps0_1, hostOps0]
  after_results_simp

set_option maxHeartbeats 4000000 in
/-- No host operation before the edge region writes argument 10. -/
theorem W5_arg10 (c : Dev nD) : W5 m ρ c (Proc.devRef .tc main_arg10) = m ((c : Thread nD τ).loc main_arg10) := by
  show StableHlo.after hostOps0_4 (StableHlo.after hostOps0_3 (StableHlo.after hostOps0_2 (StableHlo.after hostOps0_1 (StableHlo.after hostOps0 (W0 m ρ c))))) (Proc.devRef .tc main_arg10) = _
  simp only [hostOps0_4, hostOps0_3, hostOps0_2, hostOps0_1, hostOps0]
  after_results_simp

set_option maxHeartbeats 4000000 in
/-- No host operation before the edge region writes argument 1. -/
theorem W5_arg1 (c : Dev nD) : W5 m ρ c (Proc.devRef .tc main_arg1) = m ((c : Thread nD τ).loc main_arg1) := by
  show StableHlo.after hostOps0_4 (StableHlo.after hostOps0_3 (StableHlo.after hostOps0_2 (StableHlo.after hostOps0_1 (StableHlo.after hostOps0 (W0 m ρ c))))) (Proc.devRef .tc main_arg1) = _
  simp only [hostOps0_4, hostOps0_3, hostOps0_2, hostOps0_1, hostOps0]
  after_results_simp

set_option maxHeartbeats 4000000 in
/-- No host operation before the edge region writes argument 11. -/
theorem W5_arg11 (c : Dev nD) : W5 m ρ c (Proc.devRef .tc main_arg11) = m ((c : Thread nD τ).loc main_arg11) := by
  show StableHlo.after hostOps0_4 (StableHlo.after hostOps0_3 (StableHlo.after hostOps0_2 (StableHlo.after hostOps0_1 (StableHlo.after hostOps0 (W0 m ρ c))))) (Proc.devRef .tc main_arg11) = _
  simp only [hostOps0_4, hostOps0_3, hostOps0_2, hostOps0_1, hostOps0]
  after_results_simp

set_option maxHeartbeats 4000000 in
/-- No host operation before the edge region writes argument 12. -/
theorem W5_arg12 (c : Dev nD) : W5 m ρ c (Proc.devRef .tc main_arg12) = m ((c : Thread nD τ).loc main_arg12) := by
  show StableHlo.after hostOps0_4 (StableHlo.after hostOps0_3 (StableHlo.after hostOps0_2 (StableHlo.after hostOps0_1 (StableHlo.after hostOps0 (W0 m ρ c))))) (Proc.devRef .tc main_arg12) = _
  simp only [hostOps0_4, hostOps0_3, hostOps0_2, hostOps0_1, hostOps0]
  after_results_simp

set_option maxHeartbeats 4000000 in
/-- No host operation before the edge region writes argument 13. -/
theorem W5_arg13 (c : Dev nD) : W5 m ρ c (Proc.devRef .tc main_arg13) = m ((c : Thread nD τ).loc main_arg13) := by
  show StableHlo.after hostOps0_4 (StableHlo.after hostOps0_3 (StableHlo.after hostOps0_2 (StableHlo.after hostOps0_1 (StableHlo.after hostOps0 (W0 m ρ c))))) (Proc.devRef .tc main_arg13) = _
  simp only [hostOps0_4, hostOps0_3, hostOps0_2, hostOps0_1, hostOps0]
  after_results_simp

set_option maxHeartbeats 4000000 in
/-- No host operation before the edge region writes argument 14. -/
theorem W5_arg14 (c : Dev nD) : W5 m ρ c (Proc.devRef .tc main_arg14) = m ((c : Thread nD τ).loc main_arg14) := by
  show StableHlo.after hostOps0_4 (StableHlo.after hostOps0_3 (StableHlo.after hostOps0_2 (StableHlo.after hostOps0_1 (StableHlo.after hostOps0 (W0 m ρ c))))) (Proc.devRef .tc main_arg14) = _
  simp only [hostOps0_4, hostOps0_3, hostOps0_2, hostOps0_1, hostOps0]
  after_results_simp

set_option maxHeartbeats 4000000 in
/-- No host operation before the edge region writes argument 15. -/
theorem W5_arg15 (c : Dev nD) : W5 m ρ c (Proc.devRef .tc main_arg15) = m ((c : Thread nD τ).loc main_arg15) := by
  show StableHlo.after hostOps0_4 (StableHlo.after hostOps0_3 (StableHlo.after hostOps0_2 (StableHlo.after hostOps0_1 (StableHlo.after hostOps0 (W0 m ρ c))))) (Proc.devRef .tc main_arg15) = _
  simp only [hostOps0_4, hostOps0_3, hostOps0_2, hostOps0_1, hostOps0]
  after_results_simp

set_option maxHeartbeats 4000000 in
/-- No host operation before the edge region writes argument 16. -/
theorem W5_arg16 (c : Dev nD) : W5 m ρ c (Proc.devRef .tc main_arg16) = m ((c : Thread nD τ).loc main_arg16) := by
  show StableHlo.after hostOps0_4 (StableHlo.after hostOps0_3 (StableHlo.after hostOps0_2 (StableHlo.after hostOps0_1 (StableHlo.after hostOps0 (W0 m ρ c))))) (Proc.devRef .tc main_arg16) = _
  simp only [hostOps0_4, hostOps0_3, hostOps0_2, hostOps0_1, hostOps0]
  after_results_simp

set_option maxHeartbeats 4000000 in
/-- No host operation before the edge region writes argument 17. -/
theorem W5_arg17 (c : Dev nD) : W5 m ρ c (Proc.devRef .tc main_arg17) = m ((c : Thread nD τ).loc main_arg17) := by
  show StableHlo.after hostOps0_4 (StableHlo.after hostOps0_3 (StableHlo.after hostOps0_2 (StableHlo.after hostOps0_1 (StableHlo.after hostOps0 (W0 m ρ c))))) (Proc.devRef .tc main_arg17) = _
  simp only [hostOps0_4, hostOps0_3, hostOps0_2, hostOps0_1, hostOps0]
  after_results_simp

set_option maxHeartbeats 4000000 in
/-- No host operation before the edge region writes argument 18. -/
theorem W5_arg18 (c : Dev nD) : W5 m ρ c (Proc.devRef .tc main_arg18) = m ((c : Thread nD τ).loc main_arg18) := by
  show StableHlo.after hostOps0_4 (StableHlo.after hostOps0_3 (StableHlo.after hostOps0_2 (StableHlo.after hostOps0_1 (StableHlo.after hostOps0 (W0 m ρ c))))) (Proc.devRef .tc main_arg18) = _
  simp only [hostOps0_4, hostOps0_3, hostOps0_2, hostOps0_1, hostOps0]
  after_results_simp

/-! ## The node region's entry -/

/-- The node features the node region reads are the argument. -/
theorem V7_arg1 (c : Dev nD) : V7 m ρ c main_arg1 = m ((c : Thread nD τ).loc main_arg1) := by
  show StableHlo.after hostOps1 (W6 m ρ c) (Proc.devRef .tc main_arg1) = _
  simp only [hostOps1]
  after_results_simp
  exact (W6_of_ne m ρ c main_arg1 (by decide)).trans (W5_arg1 m ρ c)

/-- The node layers' argument 11 as the node region reads it. -/
theorem V7_arg11 (c : Dev nD) : V7 m ρ c main_arg11 = m ((c : Thread nD τ).loc main_arg11) := by
  show StableHlo.after hostOps1 (W6 m ρ c) (Proc.devRef .tc main_arg11) = _
  simp only [hostOps1]
  after_results_simp
  exact (W6_of_ne m ρ c main_arg11 (by decide)).trans (W5_arg11 m ρ c)

/-- The node layers' argument 12 as the node region reads it. -/
theorem V7_arg12 (c : Dev nD) : V7 m ρ c main_arg12 = m ((c : Thread nD τ).loc main_arg12) := by
  show StableHlo.after hostOps1 (W6 m ρ c) (Proc.devRef .tc main_arg12) = _
  simp only [hostOps1]
  after_results_simp
  exact (W6_of_ne m ρ c main_arg12 (by decide)).trans (W5_arg12 m ρ c)

/-- The node layers' argument 13 as the node region reads it. -/
theorem V7_arg13 (c : Dev nD) : V7 m ρ c main_arg13 = m ((c : Thread nD τ).loc main_arg13) := by
  show StableHlo.after hostOps1 (W6 m ρ c) (Proc.devRef .tc main_arg13) = _
  simp only [hostOps1]
  after_results_simp
  exact (W6_of_ne m ρ c main_arg13 (by decide)).trans (W5_arg13 m ρ c)

/-- The node layers' argument 14 as the node region reads it. -/
theorem V7_arg14 (c : Dev nD) : V7 m ρ c main_arg14 = m ((c : Thread nD τ).loc main_arg14) := by
  show StableHlo.after hostOps1 (W6 m ρ c) (Proc.devRef .tc main_arg14) = _
  simp only [hostOps1]
  after_results_simp
  exact (W6_of_ne m ρ c main_arg14 (by decide)).trans (W5_arg14 m ρ c)

/-- The node layers' argument 15 as the node region reads it. -/
theorem V7_arg15 (c : Dev nD) : V7 m ρ c main_arg15 = m ((c : Thread nD τ).loc main_arg15) := by
  show StableHlo.after hostOps1 (W6 m ρ c) (Proc.devRef .tc main_arg15) = _
  simp only [hostOps1]
  after_results_simp
  exact (W6_of_ne m ρ c main_arg15 (by decide)).trans (W5_arg15 m ρ c)

/-- The node layers' argument 16 as the node region reads it. -/
theorem V7_arg16 (c : Dev nD) : V7 m ρ c main_arg16 = m ((c : Thread nD τ).loc main_arg16) := by
  show StableHlo.after hostOps1 (W6 m ρ c) (Proc.devRef .tc main_arg16) = _
  simp only [hostOps1]
  after_results_simp
  exact (W6_of_ne m ρ c main_arg16 (by decide)).trans (W5_arg16 m ρ c)

/-- The node layers' argument 17 as the node region reads it. -/
theorem V7_arg17 (c : Dev nD) : V7 m ρ c main_arg17 = m ((c : Thread nD τ).loc main_arg17) := by
  show StableHlo.after hostOps1 (W6 m ρ c) (Proc.devRef .tc main_arg17) = _
  simp only [hostOps1]
  after_results_simp
  exact (W6_of_ne m ρ c main_arg17 (by decide)).trans (W5_arg17 m ρ c)

/-- The node layers' argument 18 as the node region reads it. -/
theorem V7_arg18 (c : Dev nD) : V7 m ρ c main_arg18 = m ((c : Thread nD τ).loc main_arg18) := by
  show StableHlo.after hostOps1 (W6 m ρ c) (Proc.devRef .tc main_arg18) = _
  simp only [hostOps1]
  after_results_simp
  exact (W6_of_ne m ρ c main_arg18 (by decide)).trans (W5_arg18 m ρ c)

/-- The summed incoming edges the node region reads: the edge region's first output summed into the rows named by the
    clamped receiver indices, from zeros. -/
theorem V7_agg (c : Dev nD) :
    V7 m ρ c main_v23 = Host.scatterAdd scatter_S50000x128_S300000x1_S300000x128_1_0_0_1
      (broadcastInDim S50000x128 ![] bcast_S_S50000x128 (constant S_ .f32 0x00000000#32))
      (broadcastInDim S300000x1 ![0] bcast_S300000_S300000x1_0 (clampK (recvK (m ((c : Thread nD τ).loc main_arg0)))))
      (W6 m ρ c (Proc.devRef .tc main_v20_0)) := by
  show StableHlo.after hostOps1 (W6 m ρ c) (Proc.devRef .tc main_v23) = _
  simp only [hostOps1]
  after_results_simp
  rw [W6_of_ne m ρ c main_v5 (by decide), W5_recvIdx m ρ c]

/-- The edge region's second output is still in place when the program returns. -/
theorem W8_final (c : Dev nD) : W8 m ρ c (Proc.devRef .tc main_v20_1) = W6 m ρ c (Proc.devRef .tc main_v20_1) := by
  rw [W8_of_ne m ρ c main_v20_1 (by decide)]
  show StableHlo.after hostOps1 (W6 m ρ c) (Proc.devRef .tc main_v20_1) = _
  simp only [hostOps1]
  after_results_simp

end Cert.KernelIdeal.HostRaw

end
-- ==== Proof.Spec.lean ====
/-
  The mathematics both programs compute, stated once over the extended reals.

  A message-passing block updates every edge from its two end nodes and every node from the sum of
  the edges arriving at it. Both updates apply the same function to one row of features at a time:
  three affine layers, the first two followed by a rectifier, then a normalisation of the 128
  lanes to mean zero and unit variance with a learned scale and shift.  An edge's input row is its
  sender's features, its receiver's features and its own, side by side (384 lanes); a node's is its
  own features beside the sum over its incoming edges (256 lanes).  The edge result is returned
  with the old edge features added, the node result with the old node features added.

  Everything is a function of ONE row, so the same definition reads a block of rows of an array and
  the whole array: the functions below take the number of rows as a parameter.  The two float
  literals the programs share (128 and the variance's guard) stay as the bit patterns both print.
-/
import Idealize.ShloMosaic.PureOps.Ideal
import Idealize.ShloMosaic.Lib.ValueIdx
import Idealize.ShloMosaic.Lib.Pipeline.Value

noncomputable section

open scoped BigOperators

namespace Cert.Spec

open Idealize.ShloMosaic Idealize.ShloMosaic.ValueIdx

/-- The lane count as the programs divide by it: the pattern of the float 128. -/
abbrev lanes : EReal := Ideal.ofBits .f32 0x43000000#32
/-- The guard added to the variance before the reciprocal square root: the pattern both programs print. -/
abbrev guard : EReal := Ideal.ofBits .f32 0x3727C5AC#32

/-! ## One row -/

/-- An affine layer into 128 lanes: lane `c` is the row against column `c` of the weights, plus the bias. -/
def lin {κ : Type} [Fintype κ] (x : κ → EReal) (W : κ → Fin 128 → EReal) (b : Fin 128 → EReal) : Fin 128 → EReal :=
  fun c => (∑ k, x k * W k c) + b c

/-- The rectifier, lane by lane. -/
def relu (h : Fin 128 → EReal) : Fin 128 → EReal := fun c => max (h c) 0

/-- Three affine layers with a rectifier after the first two. -/
def mlp3 {κ : Type} [Fintype κ] (x : κ → EReal) (W0 : κ → Fin 128 → EReal) (b0 : Fin 128 → EReal)
    (W1 : Fin 128 → Fin 128 → EReal) (b1 : Fin 128 → EReal) (W2 : Fin 128 → Fin 128 → EReal) (b2 : Fin 128 → EReal) :
    Fin 128 → EReal :=
  lin (relu (lin (relu (lin x W0 b0)) W1 b1)) W2 b2

/-- The mean of a row's 128 lanes. -/
def mean (h : Fin 128 → EReal) : EReal := Ideal.div (∑ c, h c) lanes

/-- The mean of the squared deviations from the mean. -/
def var (h : Fin 128 → EReal) : EReal := Ideal.div (∑ c, (h c - mean h) * (h c - mean h)) lanes

/-- Normalise a row to mean zero and unit variance, then scale by `g` and shift by `β`. -/
def lnorm (h g β : Fin 128 → EReal) : Fin 128 → EReal :=
  fun c => (h c - mean h) * Ideal.rsqrt (var h + guard) * g c + β c

/-- The whole row function: the three layers, then the normalisation. -/
def rowOut {κ : Type} [Fintype κ] (x : κ → EReal) (W0 : κ → Fin 128 → EReal) (b0 : Fin 128 → EReal)
    (W1 : Fin 128 → Fin 128 → EReal) (b1 : Fin 128 → EReal) (W2 : Fin 128 → Fin 128 → EReal) (b2 : Fin 128 → EReal)
    (g β : Fin 128 → EReal) : Fin 128 → EReal :=
  lnorm (mlp3 x W0 b0 W1 b1 W2 b2) g β

/-! ## Rows joined side by side -/

/-- Three rows of 128 lanes side by side. -/
def cat3 (a b c : Fin 128 → EReal) : Fin 384 → EReal := fun k =>
  if h : k.val < 128 then a ⟨k.val, h⟩
  else if h2 : k.val < 256 then b ⟨k.val - 128, by omega⟩
  else c ⟨k.val - 256, by have := k.isLt; omega⟩

/-- Two rows of 128 lanes side by side. -/
def cat2 (a b : Fin 128 → EReal) : Fin 256 → EReal := fun k =>
  if h : k.val < 128 then a ⟨k.val, h⟩ else b ⟨k.val - 128, by have := k.isLt; omega⟩

/-! ## Arrays read by rows, columns and lanes -/

/-- Row `r` of an array of `n` rows and `w` lanes. -/
abbrev row {n w : Nat} (A : (⟨2, ![n, w]⟩ : Shape).Idx → EReal) (r : Fin n) : Fin w → EReal := fun q => A (ix2 r q)
/-- A weight array as a function of its input lane and its output lane. -/
abbrev mat {K : Nat} (W : (⟨2, ![K, 128]⟩ : Shape).Idx → EReal) : Fin K → Fin 128 → EReal := fun k c => W (ix2 k c)
/-- A bias, scale or shift as a function of the lane. -/
abbrev vec (b : (⟨1, ![128]⟩ : Shape).Idx → EReal) : Fin 128 → EReal := fun c => b (ix1 c)

/-! ## The three results, as functions of whole arrays of `n` rows -/

/-- The updated edge features before the residual: row `i 0` of sender, receiver and edge features side by side,
    through the row function, at lane `i 1`. -/
def edgeNew {n : Nat} (S R E : (⟨2, ![n, 128]⟩ : Shape).Idx → EReal) (W0 : (⟨2, ![384, 128]⟩ : Shape).Idx → EReal)
    (b0 : (⟨1, ![128]⟩ : Shape).Idx → EReal) (W1 : (⟨2, ![128, 128]⟩ : Shape).Idx → EReal) (b1 : (⟨1, ![128]⟩ : Shape).Idx → EReal)
    (W2 : (⟨2, ![128, 128]⟩ : Shape).Idx → EReal) (b2 g β : (⟨1, ![128]⟩ : Shape).Idx → EReal) :
    (⟨2, ![n, 128]⟩ : Shape).Idx → EReal :=
  fun i => rowOut (cat3 (row S (i 0)) (row R (i 0)) (row E (i 0))) (mat W0) (vec b0) (mat W1) (vec b1) (mat W2) (vec b2)
    (vec g) (vec β) (i 1)

/-- The returned edge features: the update plus the old edge features. -/
def edgeFinal {n : Nat} (S R E : (⟨2, ![n, 128]⟩ : Shape).Idx → EReal) (W0 : (⟨2, ![384, 128]⟩ : Shape).Idx → EReal)
    (b0 : (⟨1, ![128]⟩ : Shape).Idx → EReal) (W1 : (⟨2, ![128, 128]⟩ : Shape).Idx → EReal) (b1 : (⟨1, ![128]⟩ : Shape).Idx → EReal)
    (W2 : (⟨2, ![128, 128]⟩ : Shape).Idx → EReal) (b2 g β : (⟨1, ![128]⟩ : Shape).Idx → EReal) :
    (⟨2, ![n, 128]⟩ : Shape).Idx → EReal :=
  fun i => edgeNew S R E W0 b0 W1 b1 W2 b2 g β i + E i

/-- The returned node features: row `i 0` of the node features beside the summed incoming edges, through the row
    function, at lane `i 1`, plus the old node features. -/
def nodeOut {n : Nat} (X A : (⟨2, ![n, 128]⟩ : Shape).Idx → EReal) (W0 : (⟨2, ![256, 128]⟩ : Shape).Idx → EReal)
    (b0 : (⟨1, ![128]⟩ : Shape).Idx → EReal) (W1 : (⟨2, ![128, 128]⟩ : Shape).Idx → EReal) (b1 : (⟨1, ![128]⟩ : Shape).Idx → EReal)
    (W2 : (⟨2, ![128, 128]⟩ : Shape).Idx → EReal) (b2 g β : (⟨1, ![128]⟩ : Shape).Idx → EReal) :
    (⟨2, ![n, 128]⟩ : Shape).Idx → EReal :=
  fun i => rowOut (cat2 (row X (i 0)) (row A (i 0))) (mat W0) (vec b0) (mat W1) (vec b1) (mat W2) (vec b2)
    (vec g) (vec β) (i 1) + X i

/-! ## Arrays joined along the lanes, read at a row and a lane -/

/-- Three arrays of `n` rows and 128 lanes joined along the lanes, read at `(r, k)`: the three rows side by side at
    lane `k` — the piece whose 128 lanes hold `k`, at `k` less the lanes before it. -/
theorem concat3_apply {n : ℕ} (x0 x1 x2 : (⟨2, ![n, 128]⟩ : Shape).Idx → EReal)
    (h : Shape.Concatenates [(⟨2, ![n, 128]⟩ : Shape), ⟨2, ![n, 128]⟩, ⟨2, ![n, 128]⟩] ⟨2, ![n, 384]⟩ 1) (r : Fin n) (k : Fin 384) :
    concatenate ⟨2, ![n, 384]⟩ 1 [⟨⟨2, ![n, 128]⟩, x0⟩, ⟨⟨2, ![n, 128]⟩, x1⟩, ⟨⟨2, ![n, 128]⟩, x2⟩] h (ix2 r k)
      = cat3 (row x0 r) (row x1 r) (row x2 r) k := by
  have hoff : ∀ (q : Fin 128) (b : Fin (⟨2, ![n, 128]⟩ : Shape).rank), b.cast (rfl : (2 : ℕ) = 2) ≠ (1 : Fin 2) →
      ((ix2 r q : (⟨2, ![n, 128]⟩ : Shape).Idx) b).val = ((ix2 r k : (⟨2, ![n, 384]⟩ : Shape).Idx) (b.cast rfl)).val := by
    intro q b hb
    match b with
    | ⟨0, _⟩ => rfl
    | ⟨1, _⟩ => exact absurd rfl hb
  unfold cat3
  by_cases h1 : k.val < 128
  · rw [dif_pos h1]
    exact concatenate_apply_piece 1 [⟨(⟨2, ![n, 128]⟩ : Shape), x0⟩, ⟨(⟨2, ![n, 128]⟩ : Shape), x1⟩, ⟨(⟨2, ![n, 128]⟩ : Shape), x2⟩] h (ix2 r k) 0 (by show (0 : ℕ) < 3; omega) _ x0 rfl rfl 0 rfl (ix2 r ⟨k.val, h1⟩) (hoff _)
      (by show 0 + k.val = k.val; omega)
  · rw [dif_neg h1]
    by_cases h2 : k.val < 256
    · rw [dif_pos h2]
      exact concatenate_apply_piece 1 [⟨(⟨2, ![n, 128]⟩ : Shape), x0⟩, ⟨(⟨2, ![n, 128]⟩ : Shape), x1⟩, ⟨(⟨2, ![n, 128]⟩ : Shape), x2⟩] h (ix2 r k) 1 (by show (1 : ℕ) < 3; omega) _ x1 rfl rfl 128 rfl (ix2 r ⟨k.val - 128, by omega⟩) (hoff _)
        (by show 128 + (k.val - 128) = k.val; omega)
    · rw [dif_neg h2]
      have hk := k.isLt
      exact concatenate_apply_piece 1 [⟨(⟨2, ![n, 128]⟩ : Shape), x0⟩, ⟨(⟨2, ![n, 128]⟩ : Shape), x1⟩, ⟨(⟨2, ![n, 128]⟩ : Shape), x2⟩] h (ix2 r k) 2 (by show (2 : ℕ) < 3; omega) _ x2 rfl rfl 256 rfl (ix2 r ⟨k.val - 256, by omega⟩) (hoff _)
        (by show 256 + (k.val - 256) = k.val; omega)

/-- Two arrays of `n` rows and 128 lanes joined along the lanes, read at `(r, k)`: the two rows side by side at lane `k`. -/
theorem concat2_apply {n : ℕ} (x0 x1 : (⟨2, ![n, 128]⟩ : Shape).Idx → EReal)
    (h : Shape.Concatenates [(⟨2, ![n, 128]⟩ : Shape), ⟨2, ![n, 128]⟩] ⟨2, ![n, 256]⟩ 1) (r : Fin n) (k : Fin 256) :
    concatenate ⟨2, ![n, 256]⟩ 1 [⟨⟨2, ![n, 128]⟩, x0⟩, ⟨⟨2, ![n, 128]⟩, x1⟩] h (ix2 r k)
      = cat2 (row x0 r) (row x1 r) k := by
  have hoff : ∀ (q : Fin 128) (b : Fin (⟨2, ![n, 128]⟩ : Shape).rank), b.cast (rfl : (2 : ℕ) = 2) ≠ (1 : Fin 2) →
      ((ix2 r q : (⟨2, ![n, 128]⟩ : Shape).Idx) b).val = ((ix2 r k : (⟨2, ![n, 256]⟩ : Shape).Idx) (b.cast rfl)).val := by
    intro q b hb
    match b with
    | ⟨0, _⟩ => rfl
    | ⟨1, _⟩ => exact absurd rfl hb
  unfold cat2
  by_cases h1 : k.val < 128
  · rw [dif_pos h1]
    exact concatenate_apply_piece 1 [⟨(⟨2, ![n, 128]⟩ : Shape), x0⟩, ⟨(⟨2, ![n, 128]⟩ : Shape), x1⟩] h (ix2 r k) 0 (by show (0 : ℕ) < 2; omega) _ x0 rfl rfl 0 rfl (ix2 r ⟨k.val, h1⟩) (hoff _)
      (by show 0 + k.val = k.val; omega)
  · rw [dif_neg h1]
    have hk := k.isLt
    exact concatenate_apply_piece 1 [⟨(⟨2, ![n, 128]⟩ : Shape), x0⟩, ⟨(⟨2, ![n, 128]⟩ : Shape), x1⟩] h (ix2 r k) 1 (by show (1 : ℕ) < 2; omega) _ x1 rfl rfl 128 rfl (ix2 r ⟨k.val - 128, by omega⟩) (hoff _)
      (by show 128 + (k.val - 128) = k.val; omega)

/-! ## A block of rows computes what the whole array computes on those rows -/

/-- The edge update at a row depends on the three input arrays through that row alone. -/
theorem edgeNew_congr {n n' : Nat} (S R E : (⟨2, ![n, 128]⟩ : Shape).Idx → EReal) (S' R' E' : (⟨2, ![n', 128]⟩ : Shape).Idx → EReal)
    (W0 : (⟨2, ![384, 128]⟩ : Shape).Idx → EReal) (b0 : (⟨1, ![128]⟩ : Shape).Idx → EReal)
    (W1 : (⟨2, ![128, 128]⟩ : Shape).Idx → EReal) (b1 : (⟨1, ![128]⟩ : Shape).Idx → EReal)
    (W2 : (⟨2, ![128, 128]⟩ : Shape).Idx → EReal) (b2 g β : (⟨1, ![128]⟩ : Shape).Idx → EReal)
    (r : Fin n) (r' : Fin n') (c : Fin 128)
    (hS : row S r = row S' r') (hR : row R r = row R' r') (hE : row E r = row E' r') :
    edgeNew S R E W0 b0 W1 b1 W2 b2 g β (ix2 r c) = edgeNew S' R' E' W0 b0 W1 b1 W2 b2 g β (ix2 r' c) := by
  show rowOut (cat3 (row S r) (row R r) (row E r)) _ _ _ _ _ _ _ _ c = rowOut (cat3 (row S' r') (row R' r') (row E' r')) _ _ _ _ _ _ _ _ c
  rw [hS, hR, hE]

/-- The returned edge features at a row likewise. -/
theorem edgeFinal_congr {n n' : Nat} (S R E : (⟨2, ![n, 128]⟩ : Shape).Idx → EReal) (S' R' E' : (⟨2, ![n', 128]⟩ : Shape).Idx → EReal)
    (W0 : (⟨2, ![384, 128]⟩ : Shape).Idx → EReal) (b0 : (⟨1, ![128]⟩ : Shape).Idx → EReal)
    (W1 : (⟨2, ![128, 128]⟩ : Shape).Idx → EReal) (b1 : (⟨1, ![128]⟩ : Shape).Idx → EReal)
    (W2 : (⟨2, ![128, 128]⟩ : Shape).Idx → EReal) (b2 g β : (⟨1, ![128]⟩ : Shape).Idx → EReal)
    (r : Fin n) (r' : Fin n') (c : Fin 128)
    (hS : row S r = row S' r') (hR : row R r = row R' r') (hE : row E r = row E' r') :
    edgeFinal S R E W0 b0 W1 b1 W2 b2 g β (ix2 r c) = edgeFinal S' R' E' W0 b0 W1 b1 W2 b2 g β (ix2 r' c) := by
  show edgeNew S R E W0 b0 W1 b1 W2 b2 g β (ix2 r c) + E (ix2 r c) = edgeNew S' R' E' W0 b0 W1 b1 W2 b2 g β (ix2 r' c) + E' (ix2 r' c)
  rw [edgeNew_congr S R E S' R' E' W0 b0 W1 b1 W2 b2 g β r r' c hS hR hE]
  exact congrArg (_ + ·) (congrFun hE c)

/-- The returned node features at a row depend on the two input arrays through that row alone. -/
theorem nodeOut_congr {n n' : Nat} (X A : (⟨2, ![n, 128]⟩ : Shape).Idx → EReal) (X' A' : (⟨2, ![n', 128]⟩ : Shape).Idx → EReal)
    (W0 : (⟨2, ![256, 128]⟩ : Shape).Idx → EReal) (b0 : (⟨1, ![128]⟩ : Shape).Idx → EReal)
    (W1 : (⟨2, ![128, 128]⟩ : Shape).Idx → EReal) (b1 : (⟨1, ![128]⟩ : Shape).Idx → EReal)
    (W2 : (⟨2, ![128, 128]⟩ : Shape).Idx → EReal) (b2 g β : (⟨1, ![128]⟩ : Shape).Idx → EReal)
    (r : Fin n) (r' : Fin n') (c : Fin 128)
    (hX : row X r = row X' r') (hA : row A r = row A' r') :
    nodeOut X A W0 b0 W1 b1 W2 b2 g β (ix2 r c) = nodeOut X' A' W0 b0 W1 b1 W2 b2 g β (ix2 r' c) := by
  show rowOut (cat2 (row X r) (row A r)) _ _ _ _ _ _ _ _ c + X (ix2 r c) = rowOut (cat2 (row X' r') (row A' r')) _ _ _ _ _ _ _ _ c + X' (ix2 r' c)
  rw [hX, hA]
  exact congrArg (_ + ·) (congrFun hX c)

end Cert.Spec

end
-- ==== Proof.LibRows.lean ====
/-
  Row-wise array operations read at a row and a lane, at the extended reals.

  A kernel that works on a block of rows at once spells its per-row arithmetic with whole-array
  operations: a vector of one number per row is turned into a column and spread over the lanes,
  a sum over the lanes leaves one number per row, and a product with a weight array contracts
  the lanes.  Each lemma here reads one of these at the index (row, lane), for any sizes:

  * `shapeCast_a_a1_apply`   — a vector as a one-lane column: entry (i, 0) is entry i;
  * `broadcastTo_a1_ab_apply` — a one-lane column spread over the lanes: entry (p, c) is entry (p, 0);
  * `multiReduction_add_lanes` — the sum over the lanes: row r gives the sum over k of entry (r, k);
  * `matmul_plain_apply`      — an [M, K] array times a [K, N] array into zeros: entry (r, c) is the sum
                                 over k of (r, k) times (k, c), with no rounding and no order left in it.
-/
import Idealize.ShloMosaic.Lib.ValueLayout
import Idealize.ShloMosaic.PureOps.Ideal.Laws

noncomputable section

open scoped BigOperators

namespace Cert.LibRows

open Idealize.ShloMosaic Idealize.ShloMosaic.ValueIdx

variable {α : Type}

/-! ## One number per row, as a column and over the lanes -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` array broadcast to `[a, b]` reads, at `(p, c)`, the operand's one lane at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The sum over the lanes -/

/-- The index a lane reduction reads: the row with the lane put back. -/
theorem lift_lanes {a b : ℕ} (h : (⟨2, ![a, b]⟩ : Shape).Reduces [1] ⟨1, ![a]⟩) (r : Fin a) (k : Fin b) :
    h.lift (ix1 r) k = ix2 r k := by
  funext ax
  match ax with
  | ⟨0, _⟩ => exact Fin.ext rfl
  | ⟨1, _⟩ => exact Fin.ext rfl

/-- A float sum over the lanes of an `[a, b]` array, read at row `r`: the sum over `k` of the entry `(r, k)`. -/
theorem multiReduction_add_lanes {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_lanes h r k)

/-! ## A product that contracts the lanes -/

/-- The left operand's index of the product, row axis: the result's row. -/
theorem plain_lhs_0 {M K N : ℕ} (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl
/-- The left operand's index of the product, lane axis: the contracted index. -/
theorem plain_lhs_1 {M K N : ℕ} (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q
/-- The right operand's index of the product, row axis: the contracted index. -/
theorem plain_rhs_0 {M K N : ℕ} (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q
/-- The right operand's index of the product, lane axis: the result's lane. -/
theorem plain_rhs_1 {M K N : ℕ} (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- An `[M, K]` array times a `[K, N]` array accumulated into zeros, read at `(r, c)`: the sum over `k` of the left
    operand at `(r, k)` times the right operand at `(k, c)`. -/
theorem matmul_plain_apply {M K N : ℕ} {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant ⟨2, ![M, N]⟩ .f32 0x00000000#32) (ix2 r c)
      = ∑ k : Fin K, lhs (ix2 r k) * rhs (ix2 k c) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact plain_lhs_0 _ _
      | ⟨1, _⟩ => exact (plain_lhs_1 _ _).trans hk)
  have er : (DotDims.plain M K N).rhsIdx (ix2 r c) ((contrEquiv1 (DotDims.plain M K N) K rfl rfl).symm k) = ix2 k c :=
    funext fun a => Fin.ext (by
      match a with
      | ⟨0, _⟩ => exact (plain_rhs_0 _ _).trans hk
      | ⟨1, _⟩ => exact plain_rhs_1 _ _)
  rw [el, er]

end Cert.LibRows

end
-- ==== Proof.KEdgePay.lean ====
/-
  What the edge region's body stores, as the row function of its loaded blocks.

  The body loads a block of 3000 rows of sender, receiver and edge features and the layers'
  weights, joins the three feature blocks side by side, and runs the three layers and the
  normalisation on every row at once.  Read at one row and one lane, every whole-block operation
  is the row function's operation on that row: a product against the weights is the sum over the
  input lanes, a lane reduction is the sum over the 128 lanes, and a change of float format is the
  identity on the extended reals.
-/
import proofs.«408019_j31533649887539_3_alg».proof.Proof.Gen.KernelIdeal.Skeleton
import proofs.«408019_j31533649887539_3_alg».proof.Proof.Spec
import proofs.«408019_j31533649887539_3_alg».proof.Proof.LibRows

noncomputable section

open scoped BigOperators

namespace Cert.KernelIdeal.EdgePay

open Idealize.ShloMosaic Idealize.ShloMosaic.ValueIdx Cert.KernelIdeal Cert.KernelIdeal.Gen

/-! ## Whole-block operations read at one row and one lane, for any number of rows -/

/-- A bias, scale or shift spread over the rows reads, at `(r, c)`, its lane `c`. -/
theorem bias_apply {n : ℕ} (b : (⟨1, ![128]⟩ : Shape).Idx → EReal)
    (h1 : (⟨1, ![128]⟩ : Shape).ShapeCasts ⟨2, ![1, 128]⟩) (h2 : (⟨2, ![1, 128]⟩ : Shape).Broadcasts ⟨2, ![n, 128]⟩)
    (r : Fin n) (c : Fin 128) :
    broadcastTo ⟨2, ![n, 128]⟩ (shapeCast ⟨2, ![1, 128]⟩ b h1) h2 (ix2 r c) = Cert.Spec.vec b c :=
  (broadcastTo_1b_ab_apply _ h2 r c).trans (shapeCast_a_1a_apply b h1 0 c)

/-- A product against the weights plus the spread bias reads, at `(r, c)`, the affine layer of row `r` at lane `c`:
    the change of float format is the identity and the product is the sum over the input lanes. -/
theorem layer_apply {n K : ℕ} (D : DotDims ⟨2, ![n, K]⟩ ⟨2, ![K, 128]⟩ ⟨2, ![n, 128]⟩) (hD : D = DotDims.plain n K 128)
    (X : FVec Ideal ⟨2, ![n, K]⟩ .f32) (W : FVec Ideal ⟨2, ![K, 128]⟩ .f32) (b : FVec Ideal ⟨1, ![128]⟩ .f32)
    (hb : FTy.bits .bf16 < FTy.bits .f32)
    (h1 : (⟨1, ![128]⟩ : Shape).ShapeCasts ⟨2, ![1, 128]⟩) (h2 : (⟨2, ![1, 128]⟩ : Shape).Broadcasts ⟨2, ![n, 128]⟩)
    (x : Fin K → EReal) (r : Fin n) (hx : ∀ k, X (ix2 r k) = x k) (c : Fin 128) :
    addf (matmul D none (truncf .bf16 X hb) (truncf .bf16 W hb) (constant ⟨2, ![n, 128]⟩ .f32 0x00000000#32))
        (broadcastTo ⟨2, ![n, 128]⟩ (shapeCast ⟨2, ![1, 128]⟩ b h1) h2) (ix2 r c)
      = Cert.Spec.lin x (Cert.Spec.mat W) (Cert.Spec.vec b) c := by
  subst hD
  show matmul (DotDims.plain n K 128) none (truncf .bf16 X hb) (truncf .bf16 W hb) (constant ⟨2, ![n, 128]⟩ .f32 0x00000000#32) (ix2 r c)
      + broadcastTo ⟨2, ![n, 128]⟩ (shapeCast ⟨2, ![1, 128]⟩ b h1) h2 (ix2 r c) = (∑ k, x k * W (ix2 k c)) + b (ix1 c)
  rw [Cert.LibRows.matmul_plain_apply, bias_apply]
  exact congrArg (· + b (ix1 c)) (Finset.sum_congr rfl fun k _ => congrArg (· * W (ix2 k c)) (hx k))

/-- The rectifier against the spread zero reads, at `(r, c)`, the larger of the entry and zero. -/
theorem relu_apply {n : ℕ} (H : FVec Ideal ⟨2, ![n, 128]⟩ .f32) (h : Fin 128 → EReal) (r : Fin n)
    (hH : ∀ c, H (ix2 r c) = h c) (c : Fin 128) :
    maximumf H (broadcast ⟨2, ![n, 128]⟩ (Scalar.ofBits .f32 0x00000000#32)) (ix2 r c) = Cert.Spec.relu h c := by
  show max (H (ix2 r c)) (Ideal.ofBits .f32 0x00000000#32) = max (h c) 0
  rw [Ideal.ofBits_zero_f32, hH c]

/-! ## The edge body's values at one row and one lane -/

/-- The three layers of the loaded blocks read, at `(r, c)`, the three layers of row `r` of the three feature blocks
    side by side, at lane `c`. -/
theorem pay3_apply (x0 x1 x2 : Vec Ideal S3000x128 .f32) (x3 : Vec Ideal S384x128 .f32) (x4 : Vec Ideal S128 .f32)
    (x5 : Vec Ideal S128x128 .f32) (x6 : Vec Ideal S128 .f32) (x7 : Vec Ideal S128x128 .f32) (x8 : Vec Ideal S128 .f32)
    (r : Fin 3000) (c : Fin 128) :
    k0_pay3 (F := Ideal) x0 x1 x2 x3 x4 x5 x6 x7 x8 (ix2 r c)
      = Cert.Spec.mlp3 (Cert.Spec.cat3 (Cert.Spec.row x0 r) (Cert.Spec.row x1 r) (Cert.Spec.row x2 r))
          (Cert.Spec.mat x3) (Cert.Spec.vec x4) (Cert.Spec.mat x5) (Cert.Spec.vec x6) (Cert.Spec.mat x7) (Cert.Spec.vec x8) c := by
  unfold k0_pay3 Cert.Spec.mlp3
  refine layer_apply dot_S3000x128_S128x128_S3000x128_1_0_0_1_n_n rfl _ _ _ _ _ _ _ r (fun k => ?_) c
  refine relu_apply _ _ r (fun k => ?_) k
  refine layer_apply dot_S3000x128_S128x128_S3000x128_1_0_0_1_n_n rfl _ _ _ _ _ _ _ r (fun k => ?_) k
  refine relu_apply _ _ r (fun k => ?_) k
  refine layer_apply dot_S3000x384_S384x128_S3000x128_1_0_0_1_n_n rfl _ _ _ _ _ _ _ r (fun k => ?_) k
  rw [shapeCast_self, shapeCast_self]
  exact Cert.Spec.concat3_apply x0 x1 x2 _ r k

/-- The lane sum of the three layers, kept as a column, reads at row `r` the sum of that row's 128 lanes. -/
theorem pay4_apply (x0 x1 x2 : Vec Ideal S3000x128 .f32) (x3 : Vec Ideal S384x128 .f32) (x4 : Vec Ideal S128 .f32)
    (x5 : Vec Ideal S128x128 .f32) (x6 : Vec Ideal S128 .f32) (x7 : Vec Ideal S128x128 .f32) (x8 : Vec Ideal S128 .f32)
    (r : Fin 3000) :
    k0_pay4 (F := Ideal) x0 x1 x2 x3 x4 x5 x6 x7 x8 (ix2 r (0 : Fin 1))
      = ∑ c, Cert.Spec.mlp3 (Cert.Spec.cat3 (Cert.Spec.row x0 r) (Cert.Spec.row x1 r) (Cert.Spec.row x2 r))
          (Cert.Spec.mat x3) (Cert.Spec.vec x4) (Cert.Spec.mat x5) (Cert.Spec.vec x6) (Cert.Spec.mat x7) (Cert.Spec.vec x8) c := by
  unfold k0_pay4
  refine (Cert.LibRows.shapeCast_a_a1_apply _ _ r 0).trans ?_
  refine (Cert.LibRows.multiReduction_add_lanes _ _ _ _ _ r).trans ?_
  exact Finset.sum_congr rfl fun c _ => pay3_apply x0 x1 x2 x3 x4 x5 x6 x7 x8 r c

/-- The normalisation of the body, read at `(r, c)`, over ANY three arrays that at row `r` hold a row `h`, the sum
    of its lanes and the lane count: the mean column spreads over the lanes, the lane sum of the squared deviations is
    the variance's numerator, and the reciprocal square root, the scale and the shift are applied lane by lane. -/
theorem pay1_apply (v33 : FVec Ideal S3000x128 .f32) (v35 v36 : FVec Ideal S3000x1 .f32) (g β : Vec Ideal S128 .f32)
    (h : Fin 128 → EReal) (r : Fin 3000) (h33 : ∀ c, v33 (ix2 r c) = h c)
    (h35 : v35 (ix2 r (0 : Fin 1)) = ∑ c, h c) (h36 : v36 (ix2 r (0 : Fin 1)) = Cert.Spec.lanes) (c : Fin 128) :
    k0_pay1 v33 v35 v36 g β (ix2 r c) = Cert.Spec.lnorm h (Cert.Spec.vec g) (Cert.Spec.vec β) c := by
  have hm : ∀ c', broadcastTo S3000x128 (divf v35 v36) broadcasts_S3000x1_S3000x128 (ix2 r c') = Cert.Spec.mean h := fun c' =>
    (Cert.LibRows.broadcastTo_a1_ab_apply _ _ r c').trans
      (show Ideal.div (v35 (ix2 r (0 : Fin 1))) (v36 (ix2 r (0 : Fin 1))) = Ideal.div (∑ c, h c) Cert.Spec.lanes by rw [h35, h36])
  have hd : ∀ c', v33 (ix2 r c') - broadcastTo S3000x128 (divf v35 v36) broadcasts_S3000x1_S3000x128 (ix2 r c')
      = h c' - Cert.Spec.mean h := fun c' => congrArg₂ (· - ·) (h33 c') (hm c')
  unfold k0_pay1
  simp only [addf_apply, mulf_apply, subf_apply, Cert.Spec.lnorm]
  refine congrArg₂ (· + ·) (congrArg₂ (· * ·) (congrArg₂ (· * ·) (hd c) ?_) (bias_apply g _ _ r c)) (bias_apply β _ _ r c)
  refine (Cert.LibRows.broadcastTo_a1_ab_apply _ _ r c).trans ?_
  refine congrArg Ideal.rsqrt (congrArg (· + Cert.Spec.guard) (congrArg (Ideal.div · Cert.Spec.lanes) ?_))
  refine (Cert.LibRows.shapeCast_a_a1_apply _ _ r 0).trans ?_
  refine (Cert.LibRows.multiReduction_add_lanes _ _ _ _ _ r).trans ?_
  exact Finset.sum_congr rfl fun k _ => congrArg₂ (· * ·) (hd k) (hd k)

/-- The value the body stores into the first output block is the edge update of the loaded blocks. -/
theorem new_eq (x0 x1 x2 : Vec Ideal S3000x128 .f32) (x3 : Vec Ideal S384x128 .f32) (x4 : Vec Ideal S128 .f32)
    (x5 : Vec Ideal S128x128 .f32) (x6 : Vec Ideal S128 .f32) (x7 : Vec Ideal S128x128 .f32) (x8 x9 x10 : Vec Ideal S128 .f32) :
    k0_pay1 (F := Ideal) (k0_pay3 x0 x1 x2 x3 x4 x5 x6 x7 x8) (k0_pay4 x0 x1 x2 x3 x4 x5 x6 x7 x8) (k0_pay5 (F := Ideal)) x9 x10
      = Cert.Spec.edgeNew (n := 3000) x0 x1 x2 x3 x4 x5 x6 x7 x8 x9 x10 := by
  funext i
  obtain ⟨r, c, rfl⟩ : ∃ (r : Fin 3000) (c : Fin 128), i = ix2 r c := ⟨i 0, i 1, eq_ix2 i⟩
  exact pay1_apply _ _ _ x9 x10 _ r (pay3_apply x0 x1 x2 x3 x4 x5 x6 x7 x8 r) (pay4_apply x0 x1 x2 x3 x4 x5 x6 x7 x8 r) rfl c

/-- The value it stores into the second output block adds the loaded edge features. -/
theorem final_eq (x0 x1 x2 : Vec Ideal S3000x128 .f32) (x3 : Vec Ideal S384x128 .f32) (x4 : Vec Ideal S128 .f32)
    (x5 : Vec Ideal S128x128 .f32) (x6 : Vec Ideal S128 .f32) (x7 : Vec Ideal S128x128 .f32) (x8 x9 x10 : Vec Ideal S128 .f32) :
    k0_pay2 (F := Ideal) (k0_pay3 x0 x1 x2 x3 x4 x5 x6 x7 x8) (k0_pay4 x0 x1 x2 x3 x4 x5 x6 x7 x8) (k0_pay5 (F := Ideal)) x9 x10 x2
      = Cert.Spec.edgeFinal (n := 3000) x0 x1 x2 x3 x4 x5 x6 x7 x8 x9 x10 := by
  funext i
  show k0_pay1 (F := Ideal) (k0_pay3 x0 x1 x2 x3 x4 x5 x6 x7 x8) (k0_pay4 x0 x1 x2 x3 x4 x5 x6 x7 x8) (k0_pay5 (F := Ideal)) x9 x10 i + x2 i = _
  rw [new_eq]
  rfl

end Cert.KernelIdeal.EdgePay

end
-- ==== Proof.KEdgeArr.lean ====
/-
  The edge region's two output arrays, from what each grid point writes back.

  The region walks the 300000 edges in 100 blocks of 3000 rows.  At point `t` every feature window
  is at rows 3000·t … 3000·t + 2999 of its array and every weight window is its whole array, so
  the block the body stores is the row function on those rows; the 100 blocks tile the array, so
  after the last write-back the array is the row function of the whole input arrays.
-/
import proofs.«408019_j31533649887539_3_alg».proof.Proof.Gen.KernelIdeal.Frame
import proofs.«408019_j31533649887539_3_alg».proof.Proof.KEdgePay

set_option maxRecDepth 16384

noncomputable section

namespace Cert.KernelIdeal.EdgeArr

open Idealize.ShloMosaic Idealize.ShloMosaic.TcCoe Idealize.ShloMosaic.ValueIdx Idealize.SL.Sem
open Idealize.ShloMosaic.Pipeline (Dat Cfg Window)
open Cert.KernelIdeal Cert.KernelIdeal.Gen

-- the TensorCore's buffer contents when the region is entered
variable (V : (c : Dev nD) → (b : Ref sig .tc) → Buf (Elt Ideal) ((c : Thread nD τ).loc b))

/-- The region's eleven input arrays as it finds them, each at its literal type. -/
abbrev aS (c : Dev nD) : Vec Ideal S300000x128 .f32 := V c main_v12
abbrev aR (c : Dev nD) : Vec Ideal S300000x128 .f32 := V c main_v19
abbrev aE (c : Dev nD) : Vec Ideal S300000x128 .f32 := V c main_arg2
abbrev aW0 (c : Dev nD) : Vec Ideal S384x128 .f32 := V c main_arg3
abbrev aB0 (c : Dev nD) : Vec Ideal S128 .f32 := V c main_arg4
abbrev aW1 (c : Dev nD) : Vec Ideal S128x128 .f32 := V c main_arg5
abbrev aB1 (c : Dev nD) : Vec Ideal S128 .f32 := V c main_arg6
abbrev aW2 (c : Dev nD) : Vec Ideal S128x128 .f32 := V c main_arg7
abbrev aB2 (c : Dev nD) : Vec Ideal S128 .f32 := V c main_arg8
abbrev aG (c : Dev nD) : Vec Ideal S128 .f32 := V c main_arg9
abbrev aBeta (c : Dev nD) : Vec Ideal S128 .f32 := V c main_arg10

/-! ## The zero offsets and the block indices -/

/-- The zero offsets of a whole-block access on two axes, as the constant function. -/
theorem zero2 : (![0, 0] : Fin 2 → Nat) = fun _ => 0 := funext fun a => by fin_cases a <;> rfl

/-- The zero offset of a whole-block access on one axis, as the constant function. -/
theorem zero1 : (![0] : Fin 1 → Nat) = fun _ => 0 := funext fun a => by fin_cases a; rfl

/-- The grid has 100 points. -/
theorem point_lt (t : Fin cfg0.N) : t.val < 100 := lt_of_lt_of_eq t.isLt N_0

/-- The block indices, decided over the 100 points: a feature window's block index is the point on
    the rows and zero on the lanes; a weight window's is zero on every axis. -/
theorem block_index : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ win0_4.index t (0 : Fin 1) = 0
    ∧ (win0_5.index t (0 : Fin 2) = 0 ∧ win0_5.index t (1 : Fin 2) = 0)
    ∧ win0_6.index t (0 : Fin 1) = 0
    ∧ (win0_7.index t (0 : Fin 2) = 0 ∧ win0_7.index t (1 : Fin 2) = 0)
    ∧ win0_8.index t (0 : Fin 1) = 0
    ∧ win0_9.index t (0 : Fin 1) = 0
    ∧ win0_10.index t (0 : Fin 1) = 0
    ∧ (win0_11.index t (0 : Fin 2) = t.val ∧ win0_11.index t (1 : Fin 2) = 0)
    ∧ (win0_12.index t (0 : Fin 2) = t.val ∧ win0_12.index t (1 : Fin 2) = 0) :=
  (by decide +kernel : ∀ t : Fin grid0.N, _)

/-! ## The input windows' blocks, read off the arrays -/

/-- Row `p` of the sender block at point `t` is row `3000·t + p` of the sender array. -/
theorem row_blkS (c : Dev nD) (t : Fin cfg0.N) (p : Fin 3000) (r : Fin 300000) (hr : r.val = 3000 * t.val + p.val) :
    Cert.Spec.row (iblk0 (F := Ideal) V c 0 t : Vec Ideal S3000x128 .f32) p = Cert.Spec.row (aS V c) r := by
  funext q
  show V c main_v12 (((cfg0.win 0).blk t).view.emb (ix2 p q)) = V c main_v12 (ix2 r q)
  refine congrArg (V c main_v12) (funext fun a => Fin.ext ?_)
  obtain ⟨⟨e0, e1⟩, -⟩ := block_index t
  match a with
  | ⟨0, _⟩ => show win0_0.index t (0 : Fin 2) * 3000 + 1 * p.val = r.val; rw [e0, hr]; omega
  | ⟨1, _⟩ => show win0_0.index t (1 : Fin 2) * 128 + 1 * q.val = q.val; rw [e1]; omega

/-- Row `p` of the receiver block at point `t` is row `3000·t + p` of the receiver array. -/
theorem row_blkR (c : Dev nD) (t : Fin cfg0.N) (p : Fin 3000) (r : Fin 300000) (hr : r.val = 3000 * t.val + p.val) :
    Cert.Spec.row (iblk0 (F := Ideal) V c 1 t : Vec Ideal S3000x128 .f32) p = Cert.Spec.row (aR V c) r := by
  funext q
  show V c main_v19 (((cfg0.win 1).blk t).view.emb (ix2 p q)) = V c main_v19 (ix2 r q)
  refine congrArg (V c main_v19) (funext fun a => Fin.ext ?_)
  obtain ⟨-, ⟨e0, e1⟩, -⟩ := block_index t
  match a with
  | ⟨0, _⟩ => show win0_1.index t (0 : Fin 2) * 3000 + 1 * p.val = r.val; rw [e0, hr]; omega
  | ⟨1, _⟩ => show win0_1.index t (1 : Fin 2) * 128 + 1 * q.val = q.val; rw [e1]; omega

/-- Row `p` of the edge-feature block at point `t` is row `3000·t + p` of the edge-feature array. -/
theorem row_blkE (c : Dev nD) (t : Fin cfg0.N) (p : Fin 3000) (r : Fin 300000) (hr : r.val = 3000 * t.val + p.val) :
    Cert.Spec.row (iblk0 (F := Ideal) V c 2 t : Vec Ideal S3000x128 .f32) p = Cert.Spec.row (aE V c) r := by
  funext q
  show V c main_arg2 (((cfg0.win 2).blk t).view.emb (ix2 p q)) = V c main_arg2 (ix2 r q)
  refine congrArg (V c main_arg2) (funext fun a => Fin.ext ?_)
  obtain ⟨-, -, ⟨e0, e1⟩, -⟩ := block_index t
  match a with
  | ⟨0, _⟩ => show win0_2.index t (0 : Fin 2) * 3000 + 1 * p.val = r.val; rw [e0, hr]; omega
  | ⟨1, _⟩ => show win0_2.index t (1 : Fin 2) * 128 + 1 * q.val = q.val; rw [e1]; omega

/-- The first layer's weight block is the whole weight array at every point. -/
theorem blkW0 (c : Dev nD) (t : Fin cfg0.N) : (iblk0 (F := Ideal) V c 3 t : Vec Ideal S384x128 .f32) = aW0 V c := by
  funext j
  show V c main_arg3 (((cfg0.win 3).blk t).view.emb j) = V c main_arg3 j
  refine congrArg (V c main_arg3) (funext fun a => Fin.ext ?_)
  obtain ⟨-, -, -, ⟨e0, e1⟩, -⟩ := block_index t
  match a with
  | ⟨0, _⟩ => show win0_3.index t (0 : Fin 2) * 384 + 1 * (j 0).val = (j 0).val; rw [e0]; omega
  | ⟨1, _⟩ => show win0_3.index t (1 : Fin 2) * 128 + 1 * (j 1).val = (j 1).val; rw [e1]; omega

/-- The first layer's bias block is the whole bias. -/
theorem blkB0 (c : Dev nD) (t : Fin cfg0.N) : (iblk0 (F := Ideal) V c 4 t : Vec Ideal S128 .f32) = aB0 V c := by
  funext j
  show V c main_arg4 (((cfg0.win 4).blk t).view.emb j) = V c main_arg4 j
  refine congrArg (V c main_arg4) (funext fun a => Fin.ext ?_)
  obtain ⟨-, -, -, -, e0, -⟩ := block_index t
  match a with
  | ⟨0, _⟩ => show win0_4.index t (0 : Fin 1) * 128 + 1 * (j 0).val = (j 0).val; rw [e0]; omega

/-- The second layer's weight block is the whole weight array. -/
theorem blkW1 (c : Dev nD) (t : Fin cfg0.N) : (iblk0 (F := Ideal) V c 5 t : Vec Ideal S128x128 .f32) = aW1 V c := by
  funext j
  show V c main_arg5 (((cfg0.win 5).blk t).view.emb j) = V c main_arg5 j
  refine congrArg (V c main_arg5) (funext fun a => Fin.ext ?_)
  obtain ⟨-, -, -, -, -, ⟨e0, e1⟩, -⟩ := block_index t
  match a with
  | ⟨0, _⟩ => show win0_5.index t (0 : Fin 2) * 128 + 1 * (j 0).val = (j 0).val; rw [e0]; omega
  | ⟨1, _⟩ => show win0_5.index t (1 : Fin 2) * 128 + 1 * (j 1).val = (j 1).val; rw [e1]; omega

/-- The second layer's bias block is the whole bias. -/
theorem blkB1 (c : Dev nD) (t : Fin cfg0.N) : (iblk0 (F := Ideal) V c 6 t : Vec Ideal S128 .f32) = aB1 V c := by
  funext j
  show V c main_arg6 (((cfg0.win 6).blk t).view.emb j) = V c main_arg6 j
  refine congrArg (V c main_arg6) (funext fun a => Fin.ext ?_)
  obtain ⟨-, -, -, -, -, -, e0, -⟩ := block_index t
  match a with
  | ⟨0, _⟩ => show win0_6.index t (0 : Fin 1) * 128 + 1 * (j 0).val = (j 0).val; rw [e0]; omega

/-- The third layer's weight block is the whole weight array. -/
theorem blkW2 (c : Dev nD) (t : Fin cfg0.N) : (iblk0 (F := Ideal) V c 7 t : Vec Ideal S128x128 .f32) = aW2 V c := by
  funext j
  show V c main_arg7 (((cfg0.win 7).blk t).view.emb j) = V c main_arg7 j
  refine congrArg (V c main_arg7) (funext fun a => Fin.ext ?_)
  obtain ⟨-, -, -, -, -, -, -, ⟨e0, e1⟩, -⟩ := block_index t
  match a with
  | ⟨0, _⟩ => show win0_7.index t (0 : Fin 2) * 128 + 1 * (j 0).val = (j 0).val; rw [e0]; omega
  | ⟨1, _⟩ => show win0_7.index t (1 : Fin 2) * 128 + 1 * (j 1).val = (j 1).val; rw [e1]; omega

/-- The third layer's bias block is the whole bias. -/
theorem blkB2 (c : Dev nD) (t : Fin cfg0.N) : (iblk0 (F := Ideal) V c 8 t : Vec Ideal S128 .f32) = aB2 V c := by
  funext j
  show V c main_arg8 (((cfg0.win 8).blk t).view.emb j) = V c main_arg8 j
  refine congrArg (V c main_arg8) (funext fun a => Fin.ext ?_)
  obtain ⟨-, -, -, -, -, -, -, -, e0, -⟩ := block_index t
  match a with
  | ⟨0, _⟩ => show win0_8.index t (0 : Fin 1) * 128 + 1 * (j 0).val = (j 0).val; rw [e0]; omega

/-- The normalisation's scale block is the whole scale. -/
theorem blkG (c : Dev nD) (t : Fin cfg0.N) : (iblk0 (F := Ideal) V c 9 t : Vec Ideal S128 .f32) = aG V c := by
  funext j
  show V c main_arg9 (((cfg0.win 9).blk t).view.emb j) = V c main_arg9 j
  refine congrArg (V c main_arg9) (funext fun a => Fin.ext ?_)
  obtain ⟨-, -, -, -, -, -, -, -, -, e0, -⟩ := block_index t
  match a with
  | ⟨0, _⟩ => show win0_9.index t (0 : Fin 1) * 128 + 1 * (j 0).val = (j 0).val; rw [e0]; omega

/-- The normalisation's shift block is the whole shift. -/
theorem blkBeta (c : Dev nD) (t : Fin cfg0.N) : (iblk0 (F := Ideal) V c 10 t : Vec Ideal S128 .f32) = aBeta V c := by
  funext j
  show V c main_arg10 (((cfg0.win 10).blk t).view.emb j) = V c main_arg10 j
  refine congrArg (V c main_arg10) (funext fun a => Fin.ext ?_)
  obtain ⟨-, -, -, -, -, -, -, -, -, -, e0, -⟩ := block_index t
  match a with
  | ⟨0, _⟩ => show win0_10.index t (0 : Fin 1) * 128 + 1 * (j 0).val = (j 0).val; rw [e0]; omega

/-! ## What a point writes back -/

/-- Where an element of the output block at point `t` sits in the output array: row `3000·t + p`, the same lane. -/
theorem emb_new (t : Fin cfg0.N) (p : Fin 3000) (q : Fin 128) (r : Fin 300000) (hr : r.val = 3000 * t.val + p.val) :
    ((cfg0.win 11).blk t).view.emb (ix2 p q) = (ix2 r q : S300000x128.Idx) := by
  funext a
  apply Fin.ext
  obtain ⟨-, -, -, -, -, -, -, -, -, -, -, ⟨e0, e1⟩, -⟩ := block_index t
  match a with
  | ⟨0, _⟩ => show win0_11.index t (0 : Fin 2) * 3000 + 1 * p.val = r.val; rw [e0, hr]; omega
  | ⟨1, _⟩ => show win0_11.index t (1 : Fin 2) * 128 + 1 * q.val = q.val; rw [e1]; omega

/-- What point `t` writes back to the first output array is block `t` of the edge update of the whole input arrays. -/
theorem flushed_new (c : Dev nD) (t : Fin cfg0.N) :
    (dat0 (F := Ideal) V c).flushed 11 t = ((cfg0.win 11).blk t).view.read (Elt Ideal)
      (Cert.Spec.edgeNew (n := 300000) (aS V c) (aR V c) (aE V c) (aW0 V c) (aB0 V c) (aW1 V c) (aB1 V c) (aW2 V c) (aB2 V c) (aG V c) (aBeta V c)) := by
  show (cfg0.win 11).cut (grid0.coords t) ((dat0 V c).after 11 t) = _
  rw [after0_11]
  unfold out0_11
  rw [View.canon_unit_zero zero2]
  simp only [View.ld_unit_zero (S := S3000x128) zero2, View.ld_unit_zero (S := S384x128) zero2, View.ld_unit_zero (S := S128x128) zero2, View.ld_unit_zero (S := S128) zero1]
  rw [EdgePay.new_eq]
  rw [blkW0 V c t, blkB0 V c t, blkW1 V c t, blkB1 V c t, blkW2 V c t, blkB2 V c t, blkG V c t, blkBeta V c t]
  funext j
  obtain ⟨p, q, rfl⟩ : ∃ (p : Fin 3000) (q : Fin 128), j = ix2 p q := ⟨j 0, j 1, eq_ix2 j⟩
  have hp : 3000 * t.val + p.val < 300000 := by have := point_lt t; have := p.isLt; omega
  show Cert.Spec.edgeNew (n := 3000) (iblk0 (F := Ideal) V c 0 t) (iblk0 (F := Ideal) V c 1 t) (iblk0 (F := Ideal) V c 2 t) (aW0 V c) (aB0 V c) (aW1 V c) (aB1 V c) (aW2 V c) (aB2 V c) (aG V c) (aBeta V c) (ix2 p q)
    = Cert.Spec.edgeNew (n := 300000) (aS V c) (aR V c) (aE V c) (aW0 V c) (aB0 V c) (aW1 V c) (aB1 V c) (aW2 V c) (aB2 V c) (aG V c) (aBeta V c) (((cfg0.win 11).blk t).view.emb (ix2 p q))
  rw [emb_new t p q ⟨3000 * t.val + p.val, hp⟩ rfl]
  exact Cert.Spec.edgeNew_congr _ _ _ (aS V c) (aR V c) (aE V c) (aW0 V c) (aB0 V c) (aW1 V c) (aB1 V c) (aW2 V c) (aB2 V c) (aG V c) (aBeta V c) p ⟨3000 * t.val + p.val, hp⟩ q
    (row_blkS V c t p _ rfl) (row_blkR V c t p _ rfl) (row_blkE V c t p _ rfl)

/-! ## The blocks tile the array -/

/-- An index of the first output array is in point `t`'s block iff each coordinate is in the block's range on its axis. -/
theorem mem_blk_new (t : Fin cfg0.N) (i : S300000x128.Idx) :
    i ∈ ((cfg0.win 11).blk t).view.set ↔ ∀ a : Fin 2, win0_11.index t a * S3000x128.size a ≤ (i a).val ∧ (i a).val < win0_11.index t a * S3000x128.size a + S3000x128.size a := by
  show i ∈ ((View.whole main_v20_0).slice (win0_11.rect t)).set ↔ _
  rw [View.set_slice_whole, Rect.mem_set_unit]
  exact Iff.rfl

/-- Every index of the first output array is in the block of the point its row falls in, and that point writes back. -/
theorem cover_new (i : S300000x128.Idx) :
    ∃ t : Fin cfg0.N, (cfg0.win 11).flush t = true ∧ i ∈ ((cfg0.win 11).blk t).view.set := by
  have hi0 : (i 0).val < 300000 := (i 0).isLt
  have hi1 : (i 1).val < 128 := (i 1).isLt
  have hN : cfg0.N = 100 := N_0
  refine ⟨⟨(i 0).val / 3000, by rw [hN]; omega⟩, flush0_11 _, ?_⟩
  rw [mem_blk_new]
  obtain ⟨-, -, -, -, -, -, -, -, -, -, -, ⟨e0, e1⟩, -⟩ := block_index ⟨(i 0).val / 3000, by rw [hN]; omega⟩
  intro a
  match a with
  | ⟨0, _⟩ =>
    show win0_11.index _ (0 : Fin 2) * 3000 ≤ (i 0).val ∧ (i 0).val < win0_11.index _ (0 : Fin 2) * 3000 + 3000
    rw [e0]; show (i 0).val / 3000 * 3000 ≤ (i 0).val ∧ (i 0).val < (i 0).val / 3000 * 3000 + 3000; omega
  | ⟨1, _⟩ =>
    show win0_11.index _ (1 : Fin 2) * 128 ≤ (i 1).val ∧ (i 1).val < win0_11.index _ (1 : Fin 2) * 128 + 128
    rw [e1]; omega

/-- After the region, the first output array is the edge update of the input arrays. -/
theorem new_arr (c : Dev nD) :
    (dat0 (F := Ideal) V c).arrAt 11 cfg0.N
      = Cert.Spec.edgeNew (n := 300000) (aS V c) (aR V c) (aE V c) (aW0 V c) (aB0 V c) (aW1 V c) (aB1 V c) (aW2 V c) (aB2 V c) (aG V c) (aBeta V c) :=
  (dat0 (F := Ideal) V c).arrAt_eq_of_cover 11 _ (fun t _ => flushed_new V c t) cover_new

/-! ## The second output array: the same blocks, with the edge features added back -/

/-- Where an element of the second output's block at point `t` sits in its array: row `3000·t + p`, the same lane. -/
theorem emb_final (t : Fin cfg0.N) (p : Fin 3000) (q : Fin 128) (r : Fin 300000) (hr : r.val = 3000 * t.val + p.val) :
    ((cfg0.win 12).blk t).view.emb (ix2 p q) = (ix2 r q : S300000x128.Idx) := by
  funext a
  apply Fin.ext
  obtain ⟨-, -, -, -, -, -, -, -, -, -, -, -, ⟨e0, e1⟩⟩ := block_index t
  match a with
  | ⟨0, _⟩ => show win0_12.index t (0 : Fin 2) * 3000 + 1 * p.val = r.val; rw [e0, hr]; omega
  | ⟨1, _⟩ => show win0_12.index t (1 : Fin 2) * 128 + 1 * q.val = q.val; rw [e1]; omega

/-- What point `t` writes back to the second output array is block `t` of the returned edge features of the whole input arrays. -/
theorem flushed_final (c : Dev nD) (t : Fin cfg0.N) :
    (dat0 (F := Ideal) V c).flushed 12 t = ((cfg0.win 12).blk t).view.read (Elt Ideal)
      (Cert.Spec.edgeFinal (n := 300000) (aS V c) (aR V c) (aE V c) (aW0 V c) (aB0 V c) (aW1 V c) (aB1 V c) (aW2 V c) (aB2 V c) (aG V c) (aBeta V c)) := by
  show (cfg0.win 12).cut (grid0.coords t) ((dat0 V c).after 12 t) = _
  rw [after0_12]
  unfold out0_12
  rw [View.canon_unit_zero zero2]
  simp only [View.ld_unit_zero (S := S3000x128) zero2, View.ld_unit_zero (S := S384x128) zero2, View.ld_unit_zero (S := S128x128) zero2, View.ld_unit_zero (S := S128) zero1]
  rw [EdgePay.final_eq]
  rw [blkW0 V c t, blkB0 V c t, blkW1 V c t, blkB1 V c t, blkW2 V c t, blkB2 V c t, blkG V c t, blkBeta V c t]
  funext j
  obtain ⟨p, q, rfl⟩ : ∃ (p : Fin 3000) (q : Fin 128), j = ix2 p q := ⟨j 0, j 1, eq_ix2 j⟩
  have hp : 3000 * t.val + p.val < 300000 := by have := point_lt t; have := p.isLt; omega
  show Cert.Spec.edgeFinal (n := 3000) (iblk0 (F := Ideal) V c 0 t) (iblk0 (F := Ideal) V c 1 t) (iblk0 (F := Ideal) V c 2 t) (aW0 V c) (aB0 V c) (aW1 V c) (aB1 V c) (aW2 V c) (aB2 V c) (aG V c) (aBeta V c) (ix2 p q)
    = Cert.Spec.edgeFinal (n := 300000) (aS V c) (aR V c) (aE V c) (aW0 V c) (aB0 V c) (aW1 V c) (aB1 V c) (aW2 V c) (aB2 V c) (aG V c) (aBeta V c) (((cfg0.win 12).blk t).view.emb (ix2 p q))
  rw [emb_final t p q ⟨3000 * t.val + p.val, hp⟩ rfl]
  exact Cert.Spec.edgeFinal_congr _ _ _ (aS V c) (aR V c) (aE V c) (aW0 V c) (aB0 V c) (aW1 V c) (aB1 V c) (aW2 V c) (aB2 V c) (aG V c) (aBeta V c) p ⟨3000 * t.val + p.val, hp⟩ q
    (row_blkS V c t p _ rfl) (row_blkR V c t p _ rfl) (row_blkE V c t p _ rfl)

/-- An index of the second output array is in point `t`'s block iff each coordinate is in the block's range on its axis. -/
theorem mem_blk_final (t : Fin cfg0.N) (i : S300000x128.Idx) :
    i ∈ ((cfg0.win 12).blk t).view.set ↔ ∀ a : Fin 2, win0_12.index t a * S3000x128.size a ≤ (i a).val ∧ (i a).val < win0_12.index t a * S3000x128.size a + S3000x128.size a := by
  show i ∈ ((View.whole main_v20_1).slice (win0_12.rect t)).set ↔ _
  rw [View.set_slice_whole, Rect.mem_set_unit]
  exact Iff.rfl

/-- Every index of the second output array is in the block of the point its row falls in, and that point writes back. -/
theorem cover_final (i : S300000x128.Idx) :
    ∃ t : Fin cfg0.N, (cfg0.win 12).flush t = true ∧ i ∈ ((cfg0.win 12).blk t).view.set := by
  have hi0 : (i 0).val < 300000 := (i 0).isLt
  have hi1 : (i 1).val < 128 := (i 1).isLt
  have hN : cfg0.N = 100 := N_0
  refine ⟨⟨(i 0).val / 3000, by rw [hN]; omega⟩, flush0_12 _, ?_⟩
  rw [mem_blk_final]
  obtain ⟨-, -, -, -, -, -, -, -, -, -, -, -, ⟨e0, e1⟩⟩ := block_index ⟨(i 0).val / 3000, by rw [hN]; omega⟩
  intro a
  match a with
  | ⟨0, _⟩ =>
    show win0_12.index _ (0 : Fin 2) * 3000 ≤ (i 0).val ∧ (i 0).val < win0_12.index _ (0 : Fin 2) * 3000 + 3000
    rw [e0]; show (i 0).val / 3000 * 3000 ≤ (i 0).val ∧ (i 0).val < (i 0).val / 3000 * 3000 + 3000; omega
  | ⟨1, _⟩ =>
    show win0_12.index _ (1 : Fin 2) * 128 ≤ (i 1).val ∧ (i 1).val < win0_12.index _ (1 : Fin 2) * 128 + 128
    rw [e1]; omega

/-- After the region, the second output array is the returned edge features of the input arrays. -/
theorem final_arr (c : Dev nD) :
    (dat0 (F := Ideal) V c).arrAt 12 cfg0.N
      = Cert.Spec.edgeFinal (n := 300000) (aS V c) (aR V c) (aE V c) (aW0 V c) (aB0 V c) (aW1 V c) (aB1 V c) (aW2 V c) (aB2 V c) (aG V c) (aBeta V c) :=
  (dat0 (F := Ideal) V c).arrAt_eq_of_cover 12 _ (fun t _ => flushed_final V c t) cover_final

end Cert.KernelIdeal.EdgeArr

end
-- ==== Proof.KNodePay.lean ====
/-
  What the node region's body stores, as the row function of its loaded blocks.

  The body loads a block of 5000 rows of node features and of the summed incoming edges and the
  layers' weights, joins the two feature blocks side by side, runs the three layers and the
  normalisation on every row at once, and adds the node features back.  Read at one row and one
  lane, every whole-block operation is the row function's operation on that row.
-/
import proofs.«408019_j31533649887539_3_alg».proof.Proof.Gen.KernelIdeal.Skeleton
import proofs.«408019_j31533649887539_3_alg».proof.Proof.Spec
import proofs.«408019_j31533649887539_3_alg».proof.Proof.LibRows

noncomputable section

open scoped BigOperators

namespace Cert.KernelIdeal.NodePay

open Idealize.ShloMosaic Idealize.ShloMosaic.ValueIdx Cert.KernelIdeal Cert.KernelIdeal.Gen

/-! ## Whole-block operations read at one row and one lane, for any number of rows -/

/-- A bias, scale or shift spread over the rows reads, at `(r, c)`, its lane `c`. -/
theorem bias_apply {n : ℕ} (b : (⟨1, ![128]⟩ : Shape).Idx → EReal)
    (h1 : (⟨1, ![128]⟩ : Shape).ShapeCasts ⟨2, ![1, 128]⟩) (h2 : (⟨2, ![1, 128]⟩ : Shape).Broadcasts ⟨2, ![n, 128]⟩)
    (r : Fin n) (c : Fin 128) :
    broadcastTo ⟨2, ![n, 128]⟩ (shapeCast ⟨2, ![1, 128]⟩ b h1) h2 (ix2 r c) = Cert.Spec.vec b c :=
  (broadcastTo_1b_ab_apply _ h2 r c).trans (shapeCast_a_1a_apply b h1 0 c)

/-- A product against the weights plus the spread bias reads, at `(r, c)`, the affine layer of row `r` at lane `c`:
    the change of float format is the identity and the product is the sum over the input lanes. -/
theorem layer_apply {n K : ℕ} (D : DotDims ⟨2, ![n, K]⟩ ⟨2, ![K, 128]⟩ ⟨2, ![n, 128]⟩) (hD : D = DotDims.plain n K 128)
    (X : FVec Ideal ⟨2, ![n, K]⟩ .f32) (W : FVec Ideal ⟨2, ![K, 128]⟩ .f32) (b : FVec Ideal ⟨1, ![128]⟩ .f32)
    (hb : FTy.bits .bf16 < FTy.bits .f32)
    (h1 : (⟨1, ![128]⟩ : Shape).ShapeCasts ⟨2, ![1, 128]⟩) (h2 : (⟨2, ![1, 128]⟩ : Shape).Broadcasts ⟨2, ![n, 128]⟩)
    (x : Fin K → EReal) (r : Fin n) (hx : ∀ k, X (ix2 r k) = x k) (c : Fin 128) :
    addf (matmul D none (truncf .bf16 X hb) (truncf .bf16 W hb) (constant ⟨2, ![n, 128]⟩ .f32 0x00000000#32))
        (broadcastTo ⟨2, ![n, 128]⟩ (shapeCast ⟨2, ![1, 128]⟩ b h1) h2) (ix2 r c)
      = Cert.Spec.lin x (Cert.Spec.mat W) (Cert.Spec.vec b) c := by
  subst hD
  show matmul (DotDims.plain n K 128) none (truncf .bf16 X hb) (truncf .bf16 W hb) (constant ⟨2, ![n, 128]⟩ .f32 0x00000000#32) (ix2 r c)
      + broadcastTo ⟨2, ![n, 128]⟩ (shapeCast ⟨2, ![1, 128]⟩ b h1) h2 (ix2 r c) = (∑ k, x k * W (ix2 k c)) + b (ix1 c)
  rw [Cert.LibRows.matmul_plain_apply, bias_apply]
  exact congrArg (· + b (ix1 c)) (Finset.sum_congr rfl fun k _ => congrArg (· * W (ix2 k c)) (hx k))

/-- The rectifier against the spread zero reads, at `(r, c)`, the larger of the entry and zero. -/
theorem relu_apply {n : ℕ} (H : FVec Ideal ⟨2, ![n, 128]⟩ .f32) (h : Fin 128 → EReal) (r : Fin n)
    (hH : ∀ c, H (ix2 r c) = h c) (c : Fin 128) :
    maximumf H (broadcast ⟨2, ![n, 128]⟩ (Scalar.ofBits .f32 0x00000000#32)) (ix2 r c) = Cert.Spec.relu h c := by
  show max (H (ix2 r c)) (Ideal.ofBits .f32 0x00000000#32) = max (h c) 0
  rw [Ideal.ofBits_zero_f32, hH c]

/-! ## The node body's values at one row and one lane -/

/-- The three layers of the loaded blocks read, at `(r, c)`, the three layers of row `r` of the two feature blocks
    side by side, at lane `c`. -/
theorem pay2_apply (x0 x1 : Vec Ideal S5000x128 .f32) (x2 : Vec Ideal S256x128 .f32) (x3 : Vec Ideal S128 .f32)
    (x4 : Vec Ideal S128x128 .f32) (x5 : Vec Ideal S128 .f32) (x6 : Vec Ideal S128x128 .f32) (x7 : Vec Ideal S128 .f32)
    (r : Fin 5000) (c : Fin 128) :
    k1_pay2 (F := Ideal) x0 x1 x2 x3 x4 x5 x6 x7 (ix2 r c)
      = Cert.Spec.mlp3 (Cert.Spec.cat2 (Cert.Spec.row x0 r) (Cert.Spec.row x1 r))
          (Cert.Spec.mat x2) (Cert.Spec.vec x3) (Cert.Spec.mat x4) (Cert.Spec.vec x5) (Cert.Spec.mat x6) (Cert.Spec.vec x7) c := by
  unfold k1_pay2 Cert.Spec.mlp3
  refine layer_apply dot_S5000x128_S128x128_S5000x128_1_0_0_1_n_n rfl _ _ _ _ _ _ _ r (fun k => ?_) c
  refine relu_apply _ _ r (fun k => ?_) k
  refine layer_apply dot_S5000x128_S128x128_S5000x128_1_0_0_1_n_n rfl _ _ _ _ _ _ _ r (fun k => ?_) k
  refine relu_apply _ _ r (fun k => ?_) k
  refine layer_apply dot_S5000x256_S256x128_S5000x128_1_0_0_1_n_n rfl _ _ _ _ _ _ _ r (fun k => ?_) k
  rw [shapeCast_self]
  exact Cert.Spec.concat2_apply x0 x1 _ r k

/-- The mean column reads, at row `r`, the mean of that row's 128 lanes of the three layers. -/
theorem pay3_apply (x0 x1 : Vec Ideal S5000x128 .f32) (x2 : Vec Ideal S256x128 .f32) (x3 : Vec Ideal S128 .f32)
    (x4 : Vec Ideal S128x128 .f32) (x5 : Vec Ideal S128 .f32) (x6 : Vec Ideal S128x128 .f32) (x7 : Vec Ideal S128 .f32)
    (r : Fin 5000) :
    k1_pay3 (F := Ideal) x0 x1 x2 x3 x4 x5 x6 x7 (ix2 r (0 : Fin 1))
      = Cert.Spec.mean (Cert.Spec.mlp3 (Cert.Spec.cat2 (Cert.Spec.row x0 r) (Cert.Spec.row x1 r))
          (Cert.Spec.mat x2) (Cert.Spec.vec x3) (Cert.Spec.mat x4) (Cert.Spec.vec x5) (Cert.Spec.mat x6) (Cert.Spec.vec x7)) := by
  unfold k1_pay3
  refine congrArg (Ideal.div · Cert.Spec.lanes) ?_
  refine (Cert.LibRows.shapeCast_a_a1_apply _ _ r 0).trans ?_
  refine (Cert.LibRows.multiReduction_add_lanes _ _ _ _ _ r).trans ?_
  exact Finset.sum_congr rfl fun c _ => pay2_apply x0 x1 x2 x3 x4 x5 x6 x7 r c

/-- The squared deviations read, at `(r, c)`, the square of lane `c` of row `r` less that row's mean. -/
theorem pay4_apply (x0 x1 : Vec Ideal S5000x128 .f32) (x2 : Vec Ideal S256x128 .f32) (x3 : Vec Ideal S128 .f32)
    (x4 : Vec Ideal S128x128 .f32) (x5 : Vec Ideal S128 .f32) (x6 : Vec Ideal S128x128 .f32) (x7 : Vec Ideal S128 .f32)
    (r : Fin 5000) (c : Fin 128) :
    k1_pay4 (F := Ideal) x0 x1 x2 x3 x4 x5 x6 x7 (ix2 r c)
      = (Cert.Spec.mlp3 (Cert.Spec.cat2 (Cert.Spec.row x0 r) (Cert.Spec.row x1 r))
            (Cert.Spec.mat x2) (Cert.Spec.vec x3) (Cert.Spec.mat x4) (Cert.Spec.vec x5) (Cert.Spec.mat x6) (Cert.Spec.vec x7) c
          - Cert.Spec.mean (Cert.Spec.mlp3 (Cert.Spec.cat2 (Cert.Spec.row x0 r) (Cert.Spec.row x1 r))
            (Cert.Spec.mat x2) (Cert.Spec.vec x3) (Cert.Spec.mat x4) (Cert.Spec.vec x5) (Cert.Spec.mat x6) (Cert.Spec.vec x7)))
        * (Cert.Spec.mlp3 (Cert.Spec.cat2 (Cert.Spec.row x0 r) (Cert.Spec.row x1 r))
            (Cert.Spec.mat x2) (Cert.Spec.vec x3) (Cert.Spec.mat x4) (Cert.Spec.vec x5) (Cert.Spec.mat x6) (Cert.Spec.vec x7) c
          - Cert.Spec.mean (Cert.Spec.mlp3 (Cert.Spec.cat2 (Cert.Spec.row x0 r) (Cert.Spec.row x1 r))
            (Cert.Spec.mat x2) (Cert.Spec.vec x3) (Cert.Spec.mat x4) (Cert.Spec.vec x5) (Cert.Spec.mat x6) (Cert.Spec.vec x7))) := by
  unfold k1_pay4
  have hd := congrArg₂ (· - ·) (pay2_apply x0 x1 x2 x3 x4 x5 x6 x7 r c)
    ((Cert.LibRows.broadcastTo_a1_ab_apply (k1_pay3 (F := Ideal) x0 x1 x2 x3 x4 x5 x6 x7) broadcasts_S5000x1_S5000x128 r c).trans
      (pay3_apply x0 x1 x2 x3 x4 x5 x6 x7 r))
  exact congrArg₂ (· * ·) hd hd

/-- The normalisation and the residual of the body, read at `(r, c)`, over ANY arrays that at row `r` hold a row `h`,
    its mean and its squared deviations: the lane sum of the squared deviations is the variance's numerator, the
    reciprocal square root, the scale and the shift are applied lane by lane, and the last array is added back. -/
theorem pay1_apply (v31 : FVec Ideal S5000x128 .f32) (v35 : FVec Ideal S5000x1 .f32) (v38 : FVec Ideal S5000x128 .f32)
    (g β : Vec Ideal S128 .f32) (v58 : Vec Ideal S5000x128 .f32)
    (h : Fin 128 → EReal) (r : Fin 5000) (h31 : ∀ c, v31 (ix2 r c) = h c)
    (h35 : v35 (ix2 r (0 : Fin 1)) = Cert.Spec.mean h)
    (h38 : ∀ c, v38 (ix2 r c) = (h c - Cert.Spec.mean h) * (h c - Cert.Spec.mean h)) (c : Fin 128) :
    k1_pay1 v31 v35 v38 g β v58 (ix2 r c) = Cert.Spec.lnorm h (Cert.Spec.vec g) (Cert.Spec.vec β) c + v58 (ix2 r c) := by
  unfold k1_pay1
  simp only [addf_apply, mulf_apply, subf_apply, Cert.Spec.lnorm]
  refine congrArg (· + v58 (ix2 r c)) (congrArg₂ (· + ·) (congrArg₂ (· * ·) (congrArg₂ (· * ·)
    (congrArg₂ (· - ·) (h31 c) ((Cert.LibRows.broadcastTo_a1_ab_apply _ _ r c).trans h35)) ?_) (bias_apply g _ _ r c)) (bias_apply β _ _ r c))
  refine (Cert.LibRows.broadcastTo_a1_ab_apply _ _ r c).trans ?_
  refine congrArg Ideal.rsqrt (congrArg (· + Cert.Spec.guard) (congrArg (Ideal.div · Cert.Spec.lanes) ?_))
  refine (Cert.LibRows.shapeCast_a_a1_apply _ _ r 0).trans ?_
  refine (Cert.LibRows.multiReduction_add_lanes _ _ _ _ _ r).trans ?_
  exact Finset.sum_congr rfl fun k _ => h38 k

/-- The value the body stores into the output block is the node result of the loaded blocks. -/
theorem out_eq (x0 x1 : Vec Ideal S5000x128 .f32) (x2 : Vec Ideal S256x128 .f32) (x3 : Vec Ideal S128 .f32)
    (x4 : Vec Ideal S128x128 .f32) (x5 : Vec Ideal S128 .f32) (x6 : Vec Ideal S128x128 .f32) (x7 x8 x9 : Vec Ideal S128 .f32) :
    k1_pay1 (F := Ideal) (k1_pay2 x0 x1 x2 x3 x4 x5 x6 x7) (k1_pay3 x0 x1 x2 x3 x4 x5 x6 x7) (k1_pay4 x0 x1 x2 x3 x4 x5 x6 x7) x8 x9 x0
      = Cert.Spec.nodeOut (n := 5000) x0 x1 x2 x3 x4 x5 x6 x7 x8 x9 := by
  funext i
  obtain ⟨r, c, rfl⟩ : ∃ (r : Fin 5000) (c : Fin 128), i = ix2 r c := ⟨i 0, i 1, eq_ix2 i⟩
  exact pay1_apply _ _ _ x8 x9 x0 _ r (pay2_apply x0 x1 x2 x3 x4 x5 x6 x7 r) (pay3_apply x0 x1 x2 x3 x4 x5 x6 x7 r)
    (pay4_apply x0 x1 x2 x3 x4 x5 x6 x7 r) c

end Cert.KernelIdeal.NodePay

end
-- ==== Proof.KNodeArr.lean ====
/-
  The node region's output array, from what each grid point writes back.

  The region walks the 50000 nodes in 10 blocks of 5000 rows.  At point `t` the two feature
  windows are at rows 5000·t … 5000·t + 4999 of their arrays and every weight window is its whole
  array, so the block the body stores is the row function on those rows plus the node features;
  the 10 blocks tile the array.
-/
import proofs.«408019_j31533649887539_3_alg».proof.Proof.Gen.KernelIdeal.Frame
import proofs.«408019_j31533649887539_3_alg».proof.Proof.KNodePay

set_option maxRecDepth 16384

noncomputable section

namespace Cert.KernelIdeal.NodeArr

open Idealize.ShloMosaic Idealize.ShloMosaic.TcCoe Idealize.ShloMosaic.ValueIdx Idealize.SL.Sem
open Idealize.ShloMosaic.Pipeline (Dat Cfg Window)
open Cert.KernelIdeal Cert.KernelIdeal.Gen

-- the TensorCore's buffer contents when the region is entered
variable (V : (c : Dev nD) → (b : Ref sig .tc) → Buf (Elt Ideal) ((c : Thread nD τ).loc b))

/-- The region's ten input arrays as it finds them, each at its literal type. -/
abbrev aX (c : Dev nD) : Vec Ideal S50000x128 .f32 := V c main_arg1
abbrev aA (c : Dev nD) : Vec Ideal S50000x128 .f32 := V c main_v23
abbrev aW0 (c : Dev nD) : Vec Ideal S256x128 .f32 := V c main_arg11
abbrev aB0 (c : Dev nD) : Vec Ideal S128 .f32 := V c main_arg12
abbrev aW1 (c : Dev nD) : Vec Ideal S128x128 .f32 := V c main_arg13
abbrev aB1 (c : Dev nD) : Vec Ideal S128 .f32 := V c main_arg14
abbrev aW2 (c : Dev nD) : Vec Ideal S128x128 .f32 := V c main_arg15
abbrev aB2 (c : Dev nD) : Vec Ideal S128 .f32 := V c main_arg16
abbrev aG (c : Dev nD) : Vec Ideal S128 .f32 := V c main_arg17
abbrev aBeta (c : Dev nD) : Vec Ideal S128 .f32 := V c main_arg18

/-! ## The zero offsets and the block indices -/

/-- The zero offsets of a whole-block access on two axes, as the constant function. -/
theorem zero2 : (![0, 0] : Fin 2 → Nat) = fun _ => 0 := funext fun a => by fin_cases a <;> rfl

/-- The zero offset of a whole-block access on one axis, as the constant function. -/
theorem zero1 : (![0] : Fin 1 → Nat) = fun _ => 0 := funext fun a => by fin_cases a; rfl

/-- The grid has 10 points. -/
theorem point_lt (t : Fin cfg1.N) : t.val < 10 := lt_of_lt_of_eq t.isLt N_1

/-- The block indices, decided over the 10 points: a feature window's block index is the point on
    the rows and zero on the lanes; a weight window's is zero on every axis. -/
theorem block_index : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ win1_3.index t (0 : Fin 1) = 0
    ∧ (win1_4.index t (0 : Fin 2) = 0 ∧ win1_4.index t (1 : Fin 2) = 0)
    ∧ win1_5.index t (0 : Fin 1) = 0
    ∧ (win1_6.index t (0 : Fin 2) = 0 ∧ win1_6.index t (1 : Fin 2) = 0)
    ∧ win1_7.index t (0 : Fin 1) = 0
    ∧ win1_8.index t (0 : Fin 1) = 0
    ∧ win1_9.index t (0 : Fin 1) = 0
    ∧ (win1_10.index t (0 : Fin 2) = t.val ∧ win1_10.index t (1 : Fin 2) = 0) :=
  (by decide +kernel : ∀ t : Fin grid1.N, _)

/-! ## The input windows' blocks, read off the arrays -/

/-- Row `p` of the node-feature block at point `t` is row `5000·t + p` of the node-feature array. -/
theorem row_blkX (c : Dev nD) (t : Fin cfg1.N) (p : Fin 5000) (r : Fin 50000) (hr : r.val = 5000 * t.val + p.val) :
    Cert.Spec.row (iblk1 (F := Ideal) V c 0 t : Vec Ideal S5000x128 .f32) p = Cert.Spec.row (aX V c) r := by
  funext q
  show V c main_arg1 (((cfg1.win 0).blk t).view.emb (ix2 p q)) = V c main_arg1 (ix2 r q)
  refine congrArg (V c main_arg1) (funext fun a => Fin.ext ?_)
  obtain ⟨⟨e0, e1⟩, -⟩ := block_index t
  match a with
  | ⟨0, _⟩ => show win1_0.index t (0 : Fin 2) * 5000 + 1 * p.val = r.val; rw [e0, hr]; omega
  | ⟨1, _⟩ => show win1_0.index t (1 : Fin 2) * 128 + 1 * q.val = q.val; rw [e1]; omega

/-- Row `p` of the summed-edges block at point `t` is row `5000·t + p` of the summed-edges array. -/
theorem row_blkA (c : Dev nD) (t : Fin cfg1.N) (p : Fin 5000) (r : Fin 50000) (hr : r.val = 5000 * t.val + p.val) :
    Cert.Spec.row (iblk1 (F := Ideal) V c 1 t : Vec Ideal S5000x128 .f32) p = Cert.Spec.row (aA V c) r := by
  funext q
  show V c main_v23 (((cfg1.win 1).blk t).view.emb (ix2 p q)) = V c main_v23 (ix2 r q)
  refine congrArg (V c main_v23) (funext fun a => Fin.ext ?_)
  obtain ⟨-, ⟨e0, e1⟩, -⟩ := block_index t
  match a with
  | ⟨0, _⟩ => show win1_1.index t (0 : Fin 2) * 5000 + 1 * p.val = r.val; rw [e0, hr]; omega
  | ⟨1, _⟩ => show win1_1.index t (1 : Fin 2) * 128 + 1 * q.val = q.val; rw [e1]; omega

/-- The first layer's weight block is the whole weight array at every point. -/
theorem blkW0 (c : Dev nD) (t : Fin cfg1.N) : (iblk1 (F := Ideal) V c 2 t : Vec Ideal S256x128 .f32) = aW0 V c := by
  funext j
  show V c main_arg11 (((cfg1.win 2).blk t).view.emb j) = V c main_arg11 j
  refine congrArg (V c main_arg11) (funext fun a => Fin.ext ?_)
  obtain ⟨-, -, ⟨e0, e1⟩, -⟩ := block_index t
  match a with
  | ⟨0, _⟩ => show win1_2.index t (0 : Fin 2) * 256 + 1 * (j 0).val = (j 0).val; rw [e0]; omega
  | ⟨1, _⟩ => show win1_2.index t (1 : Fin 2) * 128 + 1 * (j 1).val = (j 1).val; rw [e1]; omega

/-- The first layer's bias block is the whole bias. -/
theorem blkB0 (c : Dev nD) (t : Fin cfg1.N) : (iblk1 (F := Ideal) V c 3 t : Vec Ideal S128 .f32) = aB0 V c := by
  funext j
  show V c main_arg12 (((cfg1.win 3).blk t).view.emb j) = V c main_arg12 j
  refine congrArg (V c main_arg12) (funext fun a => Fin.ext ?_)
  obtain ⟨-, -, -, e0, -⟩ := block_index t
  match a with
  | ⟨0, _⟩ => show win1_3.index t (0 : Fin 1) * 128 + 1 * (j 0).val = (j 0).val; rw [e0]; omega

/-- The second layer's weight block is the whole weight array. -/
theorem blkW1 (c : Dev nD) (t : Fin cfg1.N) : (iblk1 (F := Ideal) V c 4 t : Vec Ideal S128x128 .f32) = aW1 V c := by
  funext j
  show V c main_arg13 (((cfg1.win 4).blk t).view.emb j) = V c main_arg13 j
  refine congrArg (V c main_arg13) (funext fun a => Fin.ext ?_)
  obtain ⟨-, -, -, -, ⟨e0, e1⟩, -⟩ := block_index t
  match a with
  | ⟨0, _⟩ => show win1_4.index t (0 : Fin 2) * 128 + 1 * (j 0).val = (j 0).val; rw [e0]; omega
  | ⟨1, _⟩ => show win1_4.index t (1 : Fin 2) * 128 + 1 * (j 1).val = (j 1).val; rw [e1]; omega

/-- The second layer's bias block is the whole bias. -/
theorem blkB1 (c : Dev nD) (t : Fin cfg1.N) : (iblk1 (F := Ideal) V c 5 t : Vec Ideal S128 .f32) = aB1 V c := by
  funext j
  show V c main_arg14 (((cfg1.win 5).blk t).view.emb j) = V c main_arg14 j
  refine congrArg (V c main_arg14) (funext fun a => Fin.ext ?_)
  obtain ⟨-, -, -, -, -, e0, -⟩ := block_index t
  match a with
  | ⟨0, _⟩ => show win1_5.index t (0 : Fin 1) * 128 + 1 * (j 0).val = (j 0).val; rw [e0]; omega

/-- The third layer's weight block is the whole weight array. -/
theorem blkW2 (c : Dev nD) (t : Fin cfg1.N) : (iblk1 (F := Ideal) V c 6 t : Vec Ideal S128x128 .f32) = aW2 V c := by
  funext j
  show V c main_arg15 (((cfg1.win 6).blk t).view.emb j) = V c main_arg15 j
  refine congrArg (V c main_arg15) (funext fun a => Fin.ext ?_)
  obtain ⟨-, -, -, -, -, -, ⟨e0, e1⟩, -⟩ := block_index t
  match a with
  | ⟨0, _⟩ => show win1_6.index t (0 : Fin 2) * 128 + 1 * (j 0).val = (j 0).val; rw [e0]; omega
  | ⟨1, _⟩ => show win1_6.index t (1 : Fin 2) * 128 + 1 * (j 1).val = (j 1).val; rw [e1]; omega

/-- The third layer's bias block is the whole bias. -/
theorem blkB2 (c : Dev nD) (t : Fin cfg1.N) : (iblk1 (F := Ideal) V c 7 t : Vec Ideal S128 .f32) = aB2 V c := by
  funext j
  show V c main_arg16 (((cfg1.win 7).blk t).view.emb j) = V c main_arg16 j
  refine congrArg (V c main_arg16) (funext fun a => Fin.ext ?_)
  obtain ⟨-, -, -, -, -, -, -, e0, -⟩ := block_index t
  match a with
  | ⟨0, _⟩ => show win1_7.index t (0 : Fin 1) * 128 + 1 * (j 0).val = (j 0).val; rw [e0]; omega

/-- The normalisation's scale block is the whole scale. -/
theorem blkG (c : Dev nD) (t : Fin cfg1.N) : (iblk1 (F := Ideal) V c 8 t : Vec Ideal S128 .f32) = aG V c := by
  funext j
  show V c main_arg17 (((cfg1.win 8).blk t).view.emb j) = V c main_arg17 j
  refine congrArg (V c main_arg17) (funext fun a => Fin.ext ?_)
  obtain ⟨-, -, -, -, -, -, -, -, e0, -⟩ := block_index t
  match a with
  | ⟨0, _⟩ => show win1_8.index t (0 : Fin 1) * 128 + 1 * (j 0).val = (j 0).val; rw [e0]; omega

/-- The normalisation's shift block is the whole shift. -/
theorem blkBeta (c : Dev nD) (t : Fin cfg1.N) : (iblk1 (F := Ideal) V c 9 t : Vec Ideal S128 .f32) = aBeta V c := by
  funext j
  show V c main_arg18 (((cfg1.win 9).blk t).view.emb j) = V c main_arg18 j
  refine congrArg (V c main_arg18) (funext fun a => Fin.ext ?_)
  obtain ⟨-, -, -, -, -, -, -, -, -, e0, -⟩ := block_index t
  match a with
  | ⟨0, _⟩ => show win1_9.index t (0 : Fin 1) * 128 + 1 * (j 0).val = (j 0).val; rw [e0]; omega

/-! ## What a point writes back -/

/-- Where an element of the output block at point `t` sits in the output array: row `5000·t + p`, the same lane. -/
theorem emb_out (t : Fin cfg1.N) (p : Fin 5000) (q : Fin 128) (r : Fin 50000) (hr : r.val = 5000 * t.val + p.val) :
    ((cfg1.win 10).blk t).view.emb (ix2 p q) = (ix2 r q : S50000x128.Idx) := by
  funext a
  apply Fin.ext
  obtain ⟨-, -, -, -, -, -, -, -, -, -, ⟨e0, e1⟩⟩ := block_index t
  match a with
  | ⟨0, _⟩ => show win1_10.index t (0 : Fin 2) * 5000 + 1 * p.val = r.val; rw [e0, hr]; omega
  | ⟨1, _⟩ => show win1_10.index t (1 : Fin 2) * 128 + 1 * q.val = q.val; rw [e1]; omega

/-- What point `t` writes back to the output array is block `t` of the returned node features of the whole input arrays. -/
theorem flushed_out (c : Dev nD) (t : Fin cfg1.N) :
    (dat1 (F := Ideal) V c).flushed 10 t = ((cfg1.win 10).blk t).view.read (Elt Ideal)
      (Cert.Spec.nodeOut (n := 50000) (aX V c) (aA V c) (aW0 V c) (aB0 V c) (aW1 V c) (aB1 V c) (aW2 V c) (aB2 V c) (aG V c) (aBeta V c)) := by
  show (cfg1.win 10).cut (grid1.coords t) ((dat1 V c).after 10 t) = _
  rw [after1_10]
  unfold out1_10
  rw [View.canon_unit_zero zero2]
  simp only [View.ld_unit_zero (S := S5000x128) zero2, View.ld_unit_zero (S := S256x128) zero2, View.ld_unit_zero (S := S128x128) zero2, View.ld_unit_zero (S := S128) zero1]
  rw [NodePay.out_eq]
  rw [blkW0 V c t, blkB0 V c t, blkW1 V c t, blkB1 V c t, blkW2 V c t, blkB2 V c t, blkG V c t, blkBeta V c t]
  funext j
  obtain ⟨p, q, rfl⟩ : ∃ (p : Fin 5000) (q : Fin 128), j = ix2 p q := ⟨j 0, j 1, eq_ix2 j⟩
  have hp : 5000 * t.val + p.val < 50000 := by have := point_lt t; have := p.isLt; omega
  show Cert.Spec.nodeOut (n := 5000) (iblk1 (F := Ideal) V c 0 t) (iblk1 (F := Ideal) V c 1 t) (aW0 V c) (aB0 V c) (aW1 V c) (aB1 V c) (aW2 V c) (aB2 V c) (aG V c) (aBeta V c) (ix2 p q)
    = Cert.Spec.nodeOut (n := 50000) (aX V c) (aA V c) (aW0 V c) (aB0 V c) (aW1 V c) (aB1 V c) (aW2 V c) (aB2 V c) (aG V c) (aBeta V c) (((cfg1.win 10).blk t).view.emb (ix2 p q))
  rw [emb_out t p q ⟨5000 * t.val + p.val, hp⟩ rfl]
  exact Cert.Spec.nodeOut_congr _ _ (aX V c) (aA V c) (aW0 V c) (aB0 V c) (aW1 V c) (aB1 V c) (aW2 V c) (aB2 V c) (aG V c) (aBeta V c) p ⟨5000 * t.val + p.val, hp⟩ q
    (row_blkX V c t p _ rfl) (row_blkA V c t p _ rfl)

/-! ## The blocks tile the array -/

/-- An index of the output array is in point `t`'s block iff each coordinate is in the block's range on its axis. -/
theorem mem_blk_out (t : Fin cfg1.N) (i : S50000x128.Idx) :
    i ∈ ((cfg1.win 10).blk t).view.set ↔ ∀ a : Fin 2, win1_10.index t a * S5000x128.size a ≤ (i a).val ∧ (i a).val < win1_10.index t a * S5000x128.size a + S5000x128.size a := by
  show i ∈ ((View.whole main_v24).slice (win1_10.rect t)).set ↔ _
  rw [View.set_slice_whole, Rect.mem_set_unit]
  exact Iff.rfl

/-- Every index of the output array is in the block of the point its row falls in, and that point writes back. -/
theorem cover_out (i : S50000x128.Idx) :
    ∃ t : Fin cfg1.N, (cfg1.win 10).flush t = true ∧ i ∈ ((cfg1.win 10).blk t).view.set := by
  have hi0 : (i 0).val < 50000 := (i 0).isLt
  have hi1 : (i 1).val < 128 := (i 1).isLt
  have hN : cfg1.N = 10 := N_1
  refine ⟨⟨(i 0).val / 5000, by rw [hN]; omega⟩, flush1_10 _, ?_⟩
  rw [mem_blk_out]
  obtain ⟨-, -, -, -, -, -, -, -, -, -, ⟨e0, e1⟩⟩ := block_index ⟨(i 0).val / 5000, by rw [hN]; omega⟩
  intro a
  match a with
  | ⟨0, _⟩ =>
    show win1_10.index _ (0 : Fin 2) * 5000 ≤ (i 0).val ∧ (i 0).val < win1_10.index _ (0 : Fin 2) * 5000 + 5000
    rw [e0]; show (i 0).val / 5000 * 5000 ≤ (i 0).val ∧ (i 0).val < (i 0).val / 5000 * 5000 + 5000; omega
  | ⟨1, _⟩ =>
    show win1_10.index _ (1 : Fin 2) * 128 ≤ (i 1).val ∧ (i 1).val < win1_10.index _ (1 : Fin 2) * 128 + 128
    rw [e1]; omega

/-- After the region, the output array is the returned node features of the input arrays. -/
theorem out_arr (c : Dev nD) :
    (dat1 (F := Ideal) V c).arrAt 10 cfg1.N
      = Cert.Spec.nodeOut (n := 50000) (aX V c) (aA V c) (aW0 V c) (aB0 V c) (aW1 V c) (aB1 V c) (aW2 V c) (aB2 V c) (aG V c) (aBeta V c) :=
  (dat1 (F := Ideal) V c).arrAt_eq_of_cover 10 _ (fun t _ => flushed_out V c t) cover_out

end Cert.KernelIdeal.NodeArr

end
-- ==== Proof.IdxArr.lean ====
/-
  The index arrays under the range precondition.

  On a signed word in [0, 50000) clamping to [0, 49999] changes nothing, and neither does the wrap
  of negative row numbers (add 50000 where the word is negative).
  The edge index array holds a sender row and a receiver row per edge.  Both programs slice the
  two rows out and reshape them to vectors of 300000 words; the reference then wraps negative
  words once (adds 50000 where a word is negative) before it gathers.  Where every word is a row
  number in [0, 50000), each entry of the two sliced vectors is such a word, so the wrap does
  nothing: the reference's gather indices are the sliced vectors themselves.
-/
import proofs.«408019_j31533649887539_3_alg».proof.Proof.Gen.ReferenceIdeal.Read

noncomputable section

namespace Cert.IdxArr

open Idealize.ShloMosaic Idealize.ShloMosaic.ValueIdx Cert.ReferenceIdeal Cert.ReferenceIdeal.Read

/-! ## One word -/

/-- Clamping an in-range row number to [0, 49999] leaves it as it is. -/
theorem clamp_id (x : BitVec 32) (h0 : 0 ≤ x.toInt) (h1 : x.toInt < 50000) :
    IntOp.minsi 49999#32 (IntOp.maxsi 0#32 x) = x := by
  have e1 : IntOp.maxsi 0#32 x = x := by
    unfold IntOp.maxsi
    rw [if_neg]
    rw [BitVec.slt_iff_toInt_lt]
    simp only [BitVec.toInt_zero]; omega
  rw [e1]
  unfold IntOp.minsi
  rw [if_neg]
  rw [BitVec.slt_iff_toInt_lt]
  have : (49999#32 : BitVec 32).toInt = 49999 := by decide
  omega

/-- The wrap of negative row numbers leaves a non-negative one as it is. -/
theorem wrap_id (x y : BitVec 32) (h0 : 0 ≤ x.toInt) :
    Scalar.select (IntOp.cmpi .slt x 0#32) y x = x := by
  have hc : IntOp.cmpi .slt x 0#32 ≠ 1#1 := by
    intro hc
    have := IntOp.cmpi_slt.1 hc
    simp only [BitVec.toInt_zero] at this; omega
  unfold Scalar.select
  exact if_neg hc

/-! ## The sliced vectors and the reference's wrap -/

variable (a0 : (⟨S2x300000, .i32⟩ : BufTy).Contents (Elt Ideal))

/-- Every entry of the sliced sender vector is an entry of the index array. -/
theorem send_range (hr : ∀ j : S2x300000.Idx, 0 ≤ (a0 j).toInt ∧ (a0 j).toInt < 50000) (k : S300000.Idx) :
    0 ≤ (val_main_v1 (F := Ideal) a0 k).toInt ∧ (val_main_v1 (F := Ideal) a0 k).toInt < 50000 := by
  rw [val_main_v1_apply, val_main_v0_apply]
  exact hr _

/-- Every entry of the sliced receiver vector is an entry of the index array. -/
theorem recv_range (hr : ∀ j : S2x300000.Idx, 0 ≤ (a0 j).toInt ∧ (a0 j).toInt < 50000) (k : S300000.Idx) :
    0 ≤ (val_main_v3 (F := Ideal) a0 k).toInt ∧ (val_main_v3 (F := Ideal) a0 k).toInt < 50000 := by
  rw [val_main_v3_apply, val_main_v2_apply]
  exact hr _

/-- The reference's wrapped sender indices are the sliced sender vector. -/
theorem ref_send (hr : ∀ j : S2x300000.Idx, 0 ≤ (a0 j).toInt ∧ (a0 j).toInt < 50000) :
    val_main_v8 (F := Ideal) a0 = val_main_v1 (F := Ideal) a0 := by
  funext k
  exact wrap_id _ _ (send_range a0 hr k).1

/-- The reference's wrapped receiver indices are the sliced receiver vector. -/
theorem ref_recv (hr : ∀ j : S2x300000.Idx, 0 ≤ (a0 j).toInt ∧ (a0 j).toInt < 50000) :
    val_main_v15 (F := Ideal) a0 = val_main_v3 (F := Ideal) a0 := by
  funext k
  exact wrap_id _ _ (recv_range a0 hr k).1

/-- The kernel's index arithmetic on a vector of in-range words: clamped to [0, 49999], then wrapped once, it is the
    vector itself (the constants are whatever arrays read 0, 49999 and 50000 at every entry). -/
theorem clamp_wrap {S : Shape} (x z z' hi w : IVec S 32) (hz : ∀ k, z k = 0#32) (hz' : ∀ k, z' k = 0#32) (hhi : ∀ k, hi k = 49999#32)
    (hx : ∀ k, 0 ≤ (x k).toInt ∧ (x k).toInt < 50000) :
    select (cmpi .slt (minsi hi (maxsi z x)) z') (addi (minsi hi (maxsi z x)) w) (minsi hi (maxsi z x)) = x := by
  funext k
  show Scalar.select (IntOp.cmpi .slt (IntOp.minsi (hi k) (IntOp.maxsi (z k) (x k))) (z' k)) _ (IntOp.minsi (hi k) (IntOp.maxsi (z k) (x k))) = x k
  rw [hz k, hz' k, hhi k, clamp_id (x k) (hx k).1 (hx k).2]
  exact wrap_id _ _ (hx k).1

/-- The clamp alone, on a vector of in-range words. -/
theorem clamp_arr {S : Shape} (x z hi : IVec S 32) (hz : ∀ k, z k = 0#32) (hhi : ∀ k, hi k = 49999#32)
    (hx : ∀ k, 0 ≤ (x k).toInt ∧ (x k).toInt < 50000) : minsi hi (maxsi z x) = x := by
  funext k
  show IntOp.minsi (hi k) (IntOp.maxsi (z k) (x k)) = x k
  rw [hz k, hhi k]
  exact clamp_id (x k) (hx k).1 (hx k).2

end Cert.IdxArr

end
-- ==== Proof.REdge.lean ====
/-
  The reference's edge update, stage by stage, is the row function of whole arrays.

  The reference gathers a sender row and a receiver row for every edge, joins them with the edge's
  own features, and applies the three layers and the normalisation to the 300000 rows at once.
  Read at one edge and one lane, each of its array operations is the row function's operation on
  that edge's row: a product with a weight array is the sum over the input lanes, a sum over the
  lanes starts from zero, and the broadcasts of a bias or of a per-row number read it back.
-/
import proofs.«408019_j31533649887539_3_alg».proof.Proof.Gen.ReferenceIdeal.Read
import proofs.«408019_j31533649887539_3_alg».proof.Proof.Spec

noncomputable section

open scoped BigOperators

namespace Cert.ReferenceIdeal.EdgeRead

open Idealize.ShloMosaic Idealize.ShloMosaic.ValueIdx Cert.ReferenceIdeal Cert.ReferenceIdeal.Read

section Stages

variable (a0 : (⟨S2x300000, .i32⟩ : BufTy).Contents (Elt Ideal)) (a1 : (⟨S50000x128, .f32⟩ : BufTy).Contents (Elt Ideal)) (a2 : (⟨S300000x128, .f32⟩ : BufTy).Contents (Elt Ideal))
  (a3 : (⟨S384x128, .f32⟩ : BufTy).Contents (Elt Ideal)) (a4 : (⟨S128, .f32⟩ : BufTy).Contents (Elt Ideal)) (a5 : (⟨S128x128, .f32⟩ : BufTy).Contents (Elt Ideal)) (a6 : (⟨S128, .f32⟩ : BufTy).Contents (Elt Ideal))
  (a7 : (⟨S128x128, .f32⟩ : BufTy).Contents (Elt Ideal)) (a8 a9 a10 : (⟨S128, .f32⟩ : BufTy).Contents (Elt Ideal))

/-- The input row of edge `r`: its sender's row, its receiver's row and its own, side by side. -/
abbrev xin (r : Fin 300000) : Fin 384 → EReal :=
  Cert.Spec.cat3 (Cert.Spec.row (val_main_v10 (F := Ideal) a0 a1) r) (Cert.Spec.row (val_main_v17 (F := Ideal) a0 a1) r) (Cert.Spec.row a2 r)

/-- The joined array at edge `r` and lane `k` is the input row at lane `k`. -/
theorem v18_at (r : Fin 300000) (k : Fin 384) :
    val_main_v18 (F := Ideal) a0 a1 a2 (ix2 r k) = xin a0 a1 a2 r k := by
  unfold val_main_v18 xin
  generalize val_main_v10 (F := Ideal) a0 a1 = S
  generalize val_main_v17 (F := Ideal) a0 a1 = R
  exact Cert.Spec.concat3_apply S R a2 _ r k

/-- The first layer with its rectifier, at edge `r` and lane `c`. -/
theorem v23_at (r : Fin 300000) (c : Fin 128) :
    val_main_v23 (F := Ideal) a0 a1 a2 a3 a4 (ix2 r c)
      = Cert.Spec.relu (Cert.Spec.lin (xin a0 a1 a2 r) (Cert.Spec.mat a3) (Cert.Spec.vec a4)) c := by
  rw [val_main_v23_apply, val_main_v22_apply, val_main_v19_apply, val_main_v21_apply, val_main_v20_apply,
    val_main_call0_v0_apply, val_main_call0_cst_apply]
  have e1 : ∀ k : Fin 384, lidx_main_v19 (ix2 r c) k = ix2 r k := fun k => funext fun a => by
    match a with | ⟨0, _⟩ => rfl | ⟨1, _⟩ => rfl
  have e2 : ∀ k : Fin 384, ridx_main_v19 (ix2 r c) k = ix2 k c := fun k => funext fun a => by
    match a with | ⟨0, _⟩ => rfl | ⟨1, _⟩ => rfl
  have e3 : idx_main_v20 (idx_main_v21 (ix2 r c)) = ix1 c := funext fun a => by
    match a with | ⟨0, _⟩ => rfl
  simp only [e1, e2, e3, v18_at]
  show max (_ + _) (Ideal.ofBits .f32 0x00000000#32) = _
  rw [Ideal.ofBits_zero_f32]
  rfl

/-- The second layer with its rectifier. -/
theorem v28_at (r : Fin 300000) (c : Fin 128) :
    val_main_v28 (F := Ideal) a0 a1 a2 a3 a4 a5 a6 (ix2 r c)
      = Cert.Spec.relu (Cert.Spec.lin (Cert.Spec.relu (Cert.Spec.lin (xin a0 a1 a2 r) (Cert.Spec.mat a3) (Cert.Spec.vec a4)))
          (Cert.Spec.mat a5) (Cert.Spec.vec a6)) c := by
  rw [val_main_v28_apply, val_main_v27_apply, val_main_v24_apply, val_main_v26_apply, val_main_v25_apply,
    val_main_call1_v0_apply, val_main_call1_cst_apply]
  have e1 : ∀ k : Fin 128, lidx_main_v24 (ix2 r c) k = ix2 r k := fun k => funext fun a => by
    match a with | ⟨0, _⟩ => rfl | ⟨1, _⟩ => rfl
  have e2 : ∀ k : Fin 128, ridx_main_v24 (ix2 r c) k = ix2 k c := fun k => funext fun a => by
    match a with | ⟨0, _⟩ => rfl | ⟨1, _⟩ => rfl
  have e3 : idx_main_v25 (idx_main_v26 (ix2 r c)) = ix1 c := funext fun a => by
    match a with | ⟨0, _⟩ => rfl
  simp only [e1, e2, e3, v23_at]
  show max (_ + _) (Ideal.ofBits .f32 0x00000000#32) = _
  rw [Ideal.ofBits_zero_f32]
  rfl

/-- The three layers: the row before normalisation. -/
theorem v32_at (r : Fin 300000) (c : Fin 128) :
    val_main_v32 (F := Ideal) a0 a1 a2 a3 a4 a5 a6 a7 a8 (ix2 r c)
      = Cert.Spec.mlp3 (xin a0 a1 a2 r) (Cert.Spec.mat a3) (Cert.Spec.vec a4) (Cert.Spec.mat a5) (Cert.Spec.vec a6)
          (Cert.Spec.mat a7) (Cert.Spec.vec a8) c := by
  rw [val_main_v32_apply, val_main_v29_apply, val_main_v31_apply, val_main_v30_apply]
  have e1 : ∀ k : Fin 128, lidx_main_v29 (ix2 r c) k = ix2 r k := fun k => funext fun a => by
    match a with | ⟨0, _⟩ => rfl | ⟨1, _⟩ => rfl
  have e2 : ∀ k : Fin 128, ridx_main_v29 (ix2 r c) k = ix2 k c := fun k => funext fun a => by
    match a with | ⟨0, _⟩ => rfl | ⟨1, _⟩ => rfl
  have e3 : idx_main_v30 (idx_main_v31 (ix2 r c)) = ix1 c := funext fun a => by
    match a with | ⟨0, _⟩ => rfl
  simp only [e1, e2, e3, v28_at]
  rfl

/-- The row of edge `r` before normalisation. -/
abbrev hrow (r : Fin 300000) : Fin 128 → EReal :=
  Cert.Spec.mlp3 (xin a0 a1 a2 r) (Cert.Spec.mat a3) (Cert.Spec.vec a4) (Cert.Spec.mat a5) (Cert.Spec.vec a6)
    (Cert.Spec.mat a7) (Cert.Spec.vec a8)

/-- The column of means: the sum over the lanes starts from zero and is divided by the lane count. -/
theorem v36_at (r : Fin 300000) (z : Fin 1) :
    val_main_v36 (F := Ideal) a0 a1 a2 a3 a4 a5 a6 a7 a8 (ix2 r z)
      = Cert.Spec.mean (hrow a0 a1 a2 a3 a4 a5 a6 a7 a8 r) := by
  rw [val_main_v36_apply, val_main_v34_apply, val_main_v33_apply, val_main_v35_apply, val_main_cst_3_apply,
    val_main_cst_apply]
  have e1 : ∀ k : Fin 128, idx_main_v33 (idx_main_v34 (ix2 r z)) k = ix2 r k := fun k => funext fun a => by
    match a with | ⟨0, _⟩ => rfl | ⟨1, _⟩ => rfl
  simp only [e1, v32_at]
  show Ideal.div (Ideal.ofBits .f32 0x00000000#32 + _) _ = _
  rw [Ideal.ofBits_zero_f32, zero_add]
  rfl

/-- A lane's deviation from its row's mean. -/
theorem v38_at (r : Fin 300000) (c : Fin 128) :
    val_main_v38 (F := Ideal) a0 a1 a2 a3 a4 a5 a6 a7 a8 (ix2 r c)
      = hrow a0 a1 a2 a3 a4 a5 a6 a7 a8 r c - Cert.Spec.mean (hrow a0 a1 a2 a3 a4 a5 a6 a7 a8 r) := by
  rw [val_main_v38_apply, val_main_v37_apply, v32_at]
  have e1 : idx_main_v37 (ix2 r c) = ix2 r (⟨0, Nat.one_pos⟩ : Fin 1) := funext fun a => by
    match a with | ⟨0, _⟩ => rfl | ⟨1, _⟩ => rfl
  rw [e1, v36_at]
  rfl

/-- The column of variances: the mean of the squared deviations. -/
theorem v43_at (r : Fin 300000) (z : Fin 1) :
    val_main_v43 (F := Ideal) a0 a1 a2 a3 a4 a5 a6 a7 a8 (ix2 r z)
      = Cert.Spec.var (hrow a0 a1 a2 a3 a4 a5 a6 a7 a8 r) := by
  rw [val_main_v43_apply, val_main_v41_apply, val_main_v40_apply, val_main_v42_apply, val_main_cst_5_apply,
    val_main_cst_4_apply]
  have e1 : ∀ k : Fin 128, idx_main_v40 (idx_main_v41 (ix2 r z)) k = ix2 r k := fun k => funext fun a => by
    match a with | ⟨0, _⟩ => rfl | ⟨1, _⟩ => rfl
  simp only [e1, val_main_v39_apply, v38_at]
  show Ideal.div (Ideal.ofBits .f32 0x00000000#32 + _) _ = _
  rw [Ideal.ofBits_zero_f32, zero_add]
  rfl

/-- The normalised, scaled and shifted row. -/
theorem v56_at (r : Fin 300000) (c : Fin 128) :
    val_main_v56 (F := Ideal) a0 a1 a2 a3 a4 a5 a6 a7 a8 a9 a10 (ix2 r c)
      = Cert.Spec.lnorm (hrow a0 a1 a2 a3 a4 a5 a6 a7 a8 r) (Cert.Spec.vec a9) (Cert.Spec.vec a10) c := by
  rw [val_main_v56_apply, val_main_v53_apply, val_main_v50_apply, val_main_v45_apply, val_main_v44_apply,
    val_main_v49_apply, val_main_v48_apply, val_main_v47_apply, val_main_v46_apply, val_main_cst_6_apply,
    val_main_v52_apply, val_main_v51_apply, val_main_v55_apply, val_main_v54_apply, v32_at]
  have e1 : idx_main_v44 (ix2 r c) = ix2 r (⟨0, Nat.one_pos⟩ : Fin 1) := funext fun a => by
    match a with | ⟨0, _⟩ => rfl | ⟨1, _⟩ => rfl
  have e2 : idx_main_v49 (ix2 r c) = ix2 r (⟨0, Nat.one_pos⟩ : Fin 1) := funext fun a => by
    match a with | ⟨0, _⟩ => rfl | ⟨1, _⟩ => rfl
  have e3 : idx_main_v51 (idx_main_v52 (ix2 r c)) = ix1 c := funext fun a => by
    match a with | ⟨0, _⟩ => rfl
  have e4 : idx_main_v54 (idx_main_v55 (ix2 r c)) = ix1 c := funext fun a => by
    match a with | ⟨0, _⟩ => rfl
  rw [e1, e2, e3, e4, v36_at, v43_at]
  rfl

end Stages

/-- The normalised edge update, as the reference's operations compose it, is the row function applied to the
    gathered sender rows, the gathered receiver rows and the edge features. -/
theorem new_eq (a0 : (⟨S2x300000, .i32⟩ : BufTy).Contents (Elt Ideal)) (a1 : (⟨S50000x128, .f32⟩ : BufTy).Contents (Elt Ideal)) (a2 : (⟨S300000x128, .f32⟩ : BufTy).Contents (Elt Ideal))
    (a3 : (⟨S384x128, .f32⟩ : BufTy).Contents (Elt Ideal)) (a4 : (⟨S128, .f32⟩ : BufTy).Contents (Elt Ideal)) (a5 : (⟨S128x128, .f32⟩ : BufTy).Contents (Elt Ideal)) (a6 : (⟨S128, .f32⟩ : BufTy).Contents (Elt Ideal))
    (a7 : (⟨S128x128, .f32⟩ : BufTy).Contents (Elt Ideal)) (a8 a9 a10 : (⟨S128, .f32⟩ : BufTy).Contents (Elt Ideal)) :
    val_main_v56 (F := Ideal) a0 a1 a2 a3 a4 a5 a6 a7 a8 a9 a10
      = Cert.Spec.edgeNew (n := 300000) (val_main_v10 (F := Ideal) a0 a1) (val_main_v17 (F := Ideal) a0 a1) a2 a3 a4 a5 a6 a7 a8 a9 a10 := by
  funext i
  obtain ⟨r, c, rfl⟩ : ∃ (r : Fin 300000) (c : Fin 128), i = ix2 r c := ⟨i 0, i 1, eq_ix2 i⟩
  rw [v56_at]
  rfl

/-- The returned edge features add the old ones. -/
theorem final_eq (a0 : (⟨S2x300000, .i32⟩ : BufTy).Contents (Elt Ideal)) (a1 : (⟨S50000x128, .f32⟩ : BufTy).Contents (Elt Ideal)) (a2 : (⟨S300000x128, .f32⟩ : BufTy).Contents (Elt Ideal))
    (a3 : (⟨S384x128, .f32⟩ : BufTy).Contents (Elt Ideal)) (a4 : (⟨S128, .f32⟩ : BufTy).Contents (Elt Ideal)) (a5 : (⟨S128x128, .f32⟩ : BufTy).Contents (Elt Ideal)) (a6 : (⟨S128, .f32⟩ : BufTy).Contents (Elt Ideal))
    (a7 : (⟨S128x128, .f32⟩ : BufTy).Contents (Elt Ideal)) (a8 a9 a10 : (⟨S128, .f32⟩ : BufTy).Contents (Elt Ideal)) :
    val_main_v100 (F := Ideal) a0 a1 a2 a3 a4 a5 a6 a7 a8 a9 a10
      = Cert.Spec.edgeFinal (n := 300000) (val_main_v10 (F := Ideal) a0 a1) (val_main_v17 (F := Ideal) a0 a1) a2 a3 a4 a5 a6 a7 a8 a9 a10 := by
  funext i
  show val_main_v56 (F := Ideal) a0 a1 a2 a3 a4 a5 a6 a7 a8 a9 a10 i + a2 i = _
  rw [new_eq]
  rfl

end Cert.ReferenceIdeal.EdgeRead

end
-- ==== Proof.RNode.lean ====
/-
  The reference's node update, stage by stage, is the row function of whole arrays.

  The reference sums every edge's update into its receiver's row, joins the sums with the node
  features, applies the three layers and the normalisation to the 50000 rows at once, and adds
  the node features back.  The sum over edges is carried as it stands: both programs form it the
  same way from the same edge update, so only what is done to its result is read here.
-/
import proofs.«408019_j31533649887539_3_alg».proof.Proof.Gen.ReferenceIdeal.Read
import proofs.«408019_j31533649887539_3_alg».proof.Proof.Spec

noncomputable section

open scoped BigOperators

namespace Cert.ReferenceIdeal.NodeRead

open Idealize.ShloMosaic Idealize.ShloMosaic.ValueIdx Cert.ReferenceIdeal Cert.ReferenceIdeal.Read

section Stages

variable (a0 : (⟨S2x300000, .i32⟩ : BufTy).Contents (Elt Ideal)) (a1 : (⟨S50000x128, .f32⟩ : BufTy).Contents (Elt Ideal)) (a2 : (⟨S300000x128, .f32⟩ : BufTy).Contents (Elt Ideal))
  (a3 : (⟨S384x128, .f32⟩ : BufTy).Contents (Elt Ideal)) (a4 : (⟨S128, .f32⟩ : BufTy).Contents (Elt Ideal)) (a5 : (⟨S128x128, .f32⟩ : BufTy).Contents (Elt Ideal)) (a6 : (⟨S128, .f32⟩ : BufTy).Contents (Elt Ideal))
  (a7 : (⟨S128x128, .f32⟩ : BufTy).Contents (Elt Ideal)) (a8 a9 a10 : (⟨S128, .f32⟩ : BufTy).Contents (Elt Ideal))
  (a11 : (⟨S256x128, .f32⟩ : BufTy).Contents (Elt Ideal)) (a12 : (⟨S128, .f32⟩ : BufTy).Contents (Elt Ideal)) (a13 : (⟨S128x128, .f32⟩ : BufTy).Contents (Elt Ideal)) (a14 : (⟨S128, .f32⟩ : BufTy).Contents (Elt Ideal))
  (a15 : (⟨S128x128, .f32⟩ : BufTy).Contents (Elt Ideal)) (a16 a17 a18 : (⟨S128, .f32⟩ : BufTy).Contents (Elt Ideal))

/-- The input row of node `r`: its own features beside the sum of the edge updates arriving at it. -/
abbrev xin (r : Fin 50000) : Fin 256 → EReal :=
  Cert.Spec.cat2 (Cert.Spec.row a1 r) (Cert.Spec.row (val_main_v59 (F := Ideal) a0 a1 a2 a3 a4 a5 a6 a7 a8 a9 a10) r)

/-- The joined array at node `r` and lane `k` is the input row at lane `k`. -/
theorem v60_at (r : Fin 50000) (k : Fin 256) :
    val_main_v60 (F := Ideal) a0 a1 a2 a3 a4 a5 a6 a7 a8 a9 a10 (ix2 r k) = xin a0 a1 a2 a3 a4 a5 a6 a7 a8 a9 a10 r k := by
  unfold val_main_v60 xin
  generalize val_main_v59 (F := Ideal) a0 a1 a2 a3 a4 a5 a6 a7 a8 a9 a10 = Agg
  exact Cert.Spec.concat2_apply a1 Agg _ r k

/-- The first layer with its rectifier, at node `r` and lane `c`. -/
theorem v65_at (r : Fin 50000) (c : Fin 128) :
    val_main_v65 (F := Ideal) a0 a1 a2 a3 a4 a5 a6 a7 a8 a9 a10 a11 a12 (ix2 r c)
      = Cert.Spec.relu (Cert.Spec.lin (xin a0 a1 a2 a3 a4 a5 a6 a7 a8 a9 a10 r) (Cert.Spec.mat a11) (Cert.Spec.vec a12)) c := by
  rw [val_main_v65_apply, val_main_v64_apply, val_main_v61_apply, val_main_v63_apply, val_main_v62_apply,
    val_main_call2_v0_apply, val_main_call2_cst_apply]
  have e1 : ∀ k : Fin 256, lidx_main_v61 (ix2 r c) k = ix2 r k := fun k => funext fun a => by
    match a with | ⟨0, _⟩ => rfl | ⟨1, _⟩ => rfl
  have e2 : ∀ k : Fin 256, ridx_main_v61 (ix2 r c) k = ix2 k c := fun k => funext fun a => by
    match a with | ⟨0, _⟩ => rfl | ⟨1, _⟩ => rfl
  have e3 : idx_main_v62 (idx_main_v63 (ix2 r c)) = ix1 c := funext fun a => by
    match a with | ⟨0, _⟩ => rfl
  simp only [e1, e2, e3, v60_at]
  show max (_ + _) (Ideal.ofBits .f32 0x00000000#32) = _
  rw [Ideal.ofBits_zero_f32]
  rfl

/-- The second layer with its rectifier. -/
theorem v70_at (r : Fin 50000) (c : Fin 128) :
    val_main_v70 (F := Ideal) a0 a1 a2 a3 a4 a5 a6 a7 a8 a9 a10 a11 a12 a13 a14 (ix2 r c)
      = Cert.Spec.relu (Cert.Spec.lin (Cert.Spec.relu (Cert.Spec.lin (xin a0 a1 a2 a3 a4 a5 a6 a7 a8 a9 a10 r) (Cert.Spec.mat a11) (Cert.Spec.vec a12)))
          (Cert.Spec.mat a13) (Cert.Spec.vec a14)) c := by
  rw [val_main_v70_apply, val_main_v69_apply, val_main_v66_apply, val_main_v68_apply, val_main_v67_apply,
    val_main_call3_v0_apply, val_main_call3_cst_apply]
  have e1 : ∀ k : Fin 128, lidx_main_v66 (ix2 r c) k = ix2 r k := fun k => funext fun a => by
    match a with | ⟨0, _⟩ => rfl | ⟨1, _⟩ => rfl
  have e2 : ∀ k : Fin 128, ridx_main_v66 (ix2 r c) k = ix2 k c := fun k => funext fun a => by
    match a with | ⟨0, _⟩ => rfl | ⟨1, _⟩ => rfl
  have e3 : idx_main_v67 (idx_main_v68 (ix2 r c)) = ix1 c := funext fun a => by
    match a with | ⟨0, _⟩ => rfl
  simp only [e1, e2, e3, v65_at]
  show max (_ + _) (Ideal.ofBits .f32 0x00000000#32) = _
  rw [Ideal.ofBits_zero_f32]
  rfl

/-- The three layers: the row before normalisation. -/
theorem v74_at (r : Fin 50000) (c : Fin 128) :
    val_main_v74 (F := Ideal) a0 a1 a2 a3 a4 a5 a6 a7 a8 a9 a10 a11 a12 a13 a14 a15 a16 (ix2 r c)
      = Cert.Spec.mlp3 (xin a0 a1 a2 a3 a4 a5 a6 a7 a8 a9 a10 r) (Cert.Spec.mat a11) (Cert.Spec.vec a12) (Cert.Spec.mat a13) (Cert.Spec.vec a14)
          (Cert.Spec.mat a15) (Cert.Spec.vec a16) c := by
  rw [val_main_v74_apply, val_main_v71_apply, val_main_v73_apply, val_main_v72_apply]
  have e1 : ∀ k : Fin 128, lidx_main_v71 (ix2 r c) k = ix2 r k := fun k => funext fun a => by
    match a with | ⟨0, _⟩ => rfl | ⟨1, _⟩ => rfl
  have e2 : ∀ k : Fin 128, ridx_main_v71 (ix2 r c) k = ix2 k c := fun k => funext fun a => by
    match a with | ⟨0, _⟩ => rfl | ⟨1, _⟩ => rfl
  have e3 : idx_main_v72 (idx_main_v73 (ix2 r c)) = ix1 c := funext fun a => by
    match a with | ⟨0, _⟩ => rfl
  simp only [e1, e2, e3, v70_at]
  rfl

/-- The row of node `r` before normalisation. -/
abbrev hrow (r : Fin 50000) : Fin 128 → EReal :=
  Cert.Spec.mlp3 (xin a0 a1 a2 a3 a4 a5 a6 a7 a8 a9 a10 r) (Cert.Spec.mat a11) (Cert.Spec.vec a12) (Cert.Spec.mat a13) (Cert.Spec.vec a14)
    (Cert.Spec.mat a15) (Cert.Spec.vec a16)

/-- The column of means: the sum over the lanes starts from zero and is divided by the lane count. -/
theorem v78_at (r : Fin 50000) (z : Fin 1) :
    val_main_v78 (F := Ideal) a0 a1 a2 a3 a4 a5 a6 a7 a8 a9 a10 a11 a12 a13 a14 a15 a16 (ix2 r z)
      = Cert.Spec.mean (hrow a0 a1 a2 a3 a4 a5 a6 a7 a8 a9 a10 a11 a12 a13 a14 a15 a16 r) := by
  rw [val_main_v78_apply, val_main_v76_apply, val_main_v75_apply, val_main_v77_apply, val_main_cst_9_apply,
    val_main_cst_8_apply]
  have e1 : ∀ k : Fin 128, idx_main_v75 (idx_main_v76 (ix2 r z)) k = ix2 r k := fun k => funext fun a => by
    match a with | ⟨0, _⟩ => rfl | ⟨1, _⟩ => rfl
  simp only [e1, v74_at]
  show Ideal.div (Ideal.ofBits .f32 0x00000000#32 + _) _ = _
  rw [Ideal.ofBits_zero_f32, zero_add]
  rfl

/-- A lane's deviation from its row's mean. -/
theorem v80_at (r : Fin 50000) (c : Fin 128) :
    val_main_v80 (F := Ideal) a0 a1 a2 a3 a4 a5 a6 a7 a8 a9 a10 a11 a12 a13 a14 a15 a16 (ix2 r c)
      = hrow a0 a1 a2 a3 a4 a5 a6 a7 a8 a9 a10 a11 a12 a13 a14 a15 a16 r c - Cert.Spec.mean (hrow a0 a1 a2 a3 a4 a5 a6 a7 a8 a9 a10 a11 a12 a13 a14 a15 a16 r) := by
  rw [val_main_v80_apply, val_main_v79_apply, v74_at]
  have e1 : idx_main_v79 (ix2 r c) = ix2 r (⟨0, Nat.one_pos⟩ : Fin 1) := funext fun a => by
    match a with | ⟨0, _⟩ => rfl | ⟨1, _⟩ => rfl
  rw [e1, v78_at]
  rfl

/-- The column of variances: the mean of the squared deviations. -/
theorem v85_at (r : Fin 50000) (z : Fin 1) :
    val_main_v85 (F := Ideal) a0 a1 a2 a3 a4 a5 a6 a7 a8 a9 a10 a11 a12 a13 a14 a15 a16 (ix2 r z)
      = Cert.Spec.var (hrow a0 a1 a2 a3 a4 a5 a6 a7 a8 a9 a10 a11 a12 a13 a14 a15 a16 r) := by
  rw [val_main_v85_apply, val_main_v83_apply, val_main_v82_apply, val_main_v84_apply, val_main_cst_11_apply,
    val_main_cst_10_apply]
  have e1 : ∀ k : Fin 128, idx_main_v82 (idx_main_v83 (ix2 r z)) k = ix2 r k := fun k => funext fun a => by
    match a with | ⟨0, _⟩ => rfl | ⟨1, _⟩ => rfl
  simp only [e1, val_main_v81_apply, v80_at]
  show Ideal.div (Ideal.ofBits .f32 0x00000000#32 + _) _ = _
  rw [Ideal.ofBits_zero_f32, zero_add]
  rfl

/-- The normalised, scaled and shifted row. -/
theorem v98_at (r : Fin 50000) (c : Fin 128) :
    val_main_v98 (F := Ideal) a0 a1 a2 a3 a4 a5 a6 a7 a8 a9 a10 a11 a12 a13 a14 a15 a16 a17 a18 (ix2 r c)
      = Cert.Spec.lnorm (hrow a0 a1 a2 a3 a4 a5 a6 a7 a8 a9 a10 a11 a12 a13 a14 a15 a16 r) (Cert.Spec.vec a17) (Cert.Spec.vec a18) c := by
  rw [val_main_v98_apply, val_main_v95_apply, val_main_v92_apply, val_main_v87_apply, val_main_v86_apply,
    val_main_v91_apply, val_main_v90_apply, val_main_v89_apply, val_main_v88_apply, val_main_cst_12_apply,
    val_main_v94_apply, val_main_v93_apply, val_main_v97_apply, val_main_v96_apply, v74_at]
  have e1 : idx_main_v86 (ix2 r c) = ix2 r (⟨0, Nat.one_pos⟩ : Fin 1) := funext fun a => by
    match a with | ⟨0, _⟩ => rfl | ⟨1, _⟩ => rfl
  have e2 : idx_main_v91 (ix2 r c) = ix2 r (⟨0, Nat.one_pos⟩ : Fin 1) := funext fun a => by
    match a with | ⟨0, _⟩ => rfl | ⟨1, _⟩ => rfl
  have e3 : idx_main_v93 (idx_main_v94 (ix2 r c)) = ix1 c := funext fun a => by
    match a with | ⟨0, _⟩ => rfl
  have e4 : idx_main_v96 (idx_main_v97 (ix2 r c)) = ix1 c := funext fun a => by
    match a with | ⟨0, _⟩ => rfl
  rw [e1, e2, e3, e4, v78_at, v85_at]
  rfl

end Stages

/-- The returned node features, as the reference's operations compose them, are the row function applied to the node
    features and the per-node sums of the edge update, plus the node features. -/
theorem out_eq (a0 : (⟨S2x300000, .i32⟩ : BufTy).Contents (Elt Ideal)) (a1 : (⟨S50000x128, .f32⟩ : BufTy).Contents (Elt Ideal)) (a2 : (⟨S300000x128, .f32⟩ : BufTy).Contents (Elt Ideal))
    (a3 : (⟨S384x128, .f32⟩ : BufTy).Contents (Elt Ideal)) (a4 : (⟨S128, .f32⟩ : BufTy).Contents (Elt Ideal)) (a5 : (⟨S128x128, .f32⟩ : BufTy).Contents (Elt Ideal)) (a6 : (⟨S128, .f32⟩ : BufTy).Contents (Elt Ideal))
    (a7 : (⟨S128x128, .f32⟩ : BufTy).Contents (Elt Ideal)) (a8 a9 a10 : (⟨S128, .f32⟩ : BufTy).Contents (Elt Ideal))
    (a11 : (⟨S256x128, .f32⟩ : BufTy).Contents (Elt Ideal)) (a12 : (⟨S128, .f32⟩ : BufTy).Contents (Elt Ideal)) (a13 : (⟨S128x128, .f32⟩ : BufTy).Contents (Elt Ideal)) (a14 : (⟨S128, .f32⟩ : BufTy).Contents (Elt Ideal))
    (a15 : (⟨S128x128, .f32⟩ : BufTy).Contents (Elt Ideal)) (a16 a17 a18 : (⟨S128, .f32⟩ : BufTy).Contents (Elt Ideal)) :
    val_main_v99 (F := Ideal) a0 a1 a2 a3 a4 a5 a6 a7 a8 a9 a10 a11 a12 a13 a14 a15 a16 a17 a18
      = Cert.Spec.nodeOut (n := 50000) a1 (val_main_v59 (F := Ideal) a0 a1 a2 a3 a4 a5 a6 a7 a8 a9 a10) a11 a12 a13 a14 a15 a16 a17 a18 := by
  funext i
  obtain ⟨r, c, rfl⟩ : ∃ (r : Fin 50000) (c : Fin 128), i = ix2 r c := ⟨i 0, i 1, eq_ix2 i⟩
  rw [val_main_v99_apply, v98_at]
  rfl

end Cert.ReferenceIdeal.NodeRead

end
-- ==== Proof.KValue.lean ====
/-
  The kernel's two results as functions of the launch memory.

  Where every edge index is a row number of the node array, the kernel's clamp and wrap of the
  indices do nothing, so the rows it gathers are the rows the reference gathers and the rows it
  sums the edge update into are the rows the reference sums it into.  The edge region then leaves
  the row function of those gathered rows in its two output arrays, the host sums the first of
  them over the receivers, and the node region leaves the row function of the node features and
  those sums in its output array.  Written with the reference's own operations applied to the
  kernel's arguments, these are exactly the two values the reference returns.
-/
import proofs.«408019_j31533649887539_3_alg».proof.Proof.KRun
import proofs.«408019_j31533649887539_3_alg».proof.Proof.KHostRaw
import proofs.«408019_j31533649887539_3_alg».proof.Proof.KEdgeArr
import proofs.«408019_j31533649887539_3_alg».proof.Proof.KNodeArr
import proofs.«408019_j31533649887539_3_alg».proof.Proof.IdxArr
import proofs.«408019_j31533649887539_3_alg».proof.Proof.REdge
import proofs.«408019_j31533649887539_3_alg».proof.Proof.RNode

set_option maxRecDepth 16384

noncomputable section

namespace Cert.KernelIdeal.Value

open Idealize.ShloMosaic Idealize.ShloMosaic.TcCoe Idealize.SL.Sem
open Cert.KernelIdeal Cert.KernelIdeal.Gen
open Cert.ReferenceIdeal.Read (val_main_v1 val_main_v3 val_main_v9 val_main_v10 val_main_v16 val_main_v17 val_main_v56 val_main_v57 val_main_v58 val_main_v59 val_main_v99 val_main_v100)

variable (m : (ℓ : Loc nD τ sig) → Buf (Elt Ideal) ℓ) (ρ : Dev nD → PrngReg)

/-- The edge index array on core `c`, as launched. -/
abbrev idx (c : Dev nD) : IVec S2x300000 32 := m ((c : Thread nD τ).loc main_arg0)

/-- Every entry of the edge index array on core `c` is a row number of the node array. -/
def InRange (c : Dev nD) : Prop := ∀ j : S2x300000.Idx, 0 ≤ (idx m c j).toInt ∧ (idx m c j).toInt < 50000

/-! ## The edge region's inputs -/

/-- The sender rows the kernel gathers are the sender rows the reference gathers. -/
theorem sent_eq (c : Dev nD) (hr : InRange m c) :
    V5 m ρ c main_v12 = val_main_v10 (F := Ideal) (idx m c) (m ((c : Thread nD τ).loc main_arg1)) := by
  have hidx : HostRaw.wrapK (HostRaw.clampK (HostRaw.sendK (idx m c))) = val_main_v1 (F := Ideal) (idx m c) :=
    Cert.IdxArr.clamp_wrap (val_main_v1 (F := Ideal) (idx m c)) _ _ _ _ (fun _ => rfl) (fun _ => rfl) (fun _ => rfl)
      (Cert.IdxArr.send_range _ hr)
  rw [HostRaw.V5_sent, hidx]
  unfold val_main_v10 val_main_v9
  rw [Cert.IdxArr.ref_send _ hr]
  rfl

/-- The receiver rows the kernel gathers are the receiver rows the reference gathers. -/
theorem recv_eq (c : Dev nD) (hr : InRange m c) :
    V5 m ρ c main_v19 = val_main_v17 (F := Ideal) (idx m c) (m ((c : Thread nD τ).loc main_arg1)) := by
  have hidx : HostRaw.wrapK (HostRaw.clampK (HostRaw.recvK (idx m c))) = val_main_v3 (F := Ideal) (idx m c) :=
    Cert.IdxArr.clamp_wrap (val_main_v3 (F := Ideal) (idx m c)) _ _ _ _ (fun _ => rfl) (fun _ => rfl) (fun _ => rfl)
      (Cert.IdxArr.recv_range _ hr)
  rw [HostRaw.V5_recv, hidx]
  unfold val_main_v17 val_main_v16
  rw [Cert.IdxArr.ref_recv _ hr]
  rfl

/-! ## The edge region's outputs -/

/-- The edge update the region leaves is the reference's edge update of the kernel's arguments. -/
theorem new_value (c : Dev nD) (hr : InRange m c) :
    W6 m ρ c (Proc.devRef .tc main_v20_0) = val_main_v56 (F := Ideal) (idx m c) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W6_arr m ρ c 11).trans ?_
  rw [EdgeArr.new_arr (V5 m ρ) c, Cert.ReferenceIdeal.EdgeRead.new_eq]
  show Cert.Spec.edgeNew (V5 m ρ c main_v12) (V5 m ρ c main_v19) (W5 m ρ c (Proc.devRef .tc main_arg2)) (W5 m ρ c (Proc.devRef .tc main_arg3)) (W5 m ρ c (Proc.devRef .tc main_arg4)) (W5 m ρ c (Proc.devRef .tc main_arg5)) (W5 m ρ c (Proc.devRef .tc main_arg6)) (W5 m ρ c (Proc.devRef .tc main_arg7)) (W5 m ρ c (Proc.devRef .tc main_arg8)) (W5 m ρ c (Proc.devRef .tc main_arg9)) (W5 m ρ c (Proc.devRef .tc main_arg10)) = _
  rw [sent_eq m ρ c hr, recv_eq m ρ c hr, HostRaw.W5_arg2, HostRaw.W5_arg3, HostRaw.W5_arg4, HostRaw.W5_arg5, HostRaw.W5_arg6,
    HostRaw.W5_arg7, HostRaw.W5_arg8, HostRaw.W5_arg9, HostRaw.W5_arg10]

/-- The edge features the kernel returns are the edge features the reference returns, of the kernel's arguments. -/
theorem final_value (c : Dev nD) (hr : InRange m c) :
    W8 m ρ c (Proc.devRef .tc main_v20_1) = val_main_v100 (F := Ideal) (idx m c) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [HostRaw.W8_final]
  refine (W6_arr m ρ c 12).trans ?_
  rw [EdgeArr.final_arr (V5 m ρ) c, Cert.ReferenceIdeal.EdgeRead.final_eq]
  show Cert.Spec.edgeFinal (V5 m ρ c main_v12) (V5 m ρ c main_v19) (W5 m ρ c (Proc.devRef .tc main_arg2)) (W5 m ρ c (Proc.devRef .tc main_arg3)) (W5 m ρ c (Proc.devRef .tc main_arg4)) (W5 m ρ c (Proc.devRef .tc main_arg5)) (W5 m ρ c (Proc.devRef .tc main_arg6)) (W5 m ρ c (Proc.devRef .tc main_arg7)) (W5 m ρ c (Proc.devRef .tc main_arg8)) (W5 m ρ c (Proc.devRef .tc main_arg9)) (W5 m ρ c (Proc.devRef .tc main_arg10)) = _
  rw [sent_eq m ρ c hr, recv_eq m ρ c hr, HostRaw.W5_arg2, HostRaw.W5_arg3, HostRaw.W5_arg4, HostRaw.W5_arg5, HostRaw.W5_arg6,
    HostRaw.W5_arg7, HostRaw.W5_arg8, HostRaw.W5_arg9, HostRaw.W5_arg10]

/-! ## The node region -/

/-- The per-node sums the kernel forms are the per-node sums the reference forms. -/
theorem agg_eq (c : Dev nD) (hr : InRange m c) :
    V7 m ρ c main_v23 = val_main_v59 (F := Ideal) (idx m c) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  have hidx : HostRaw.clampK (HostRaw.recvK (idx m c)) = val_main_v3 (F := Ideal) (idx m c) :=
    Cert.IdxArr.clamp_arr (val_main_v3 (F := Ideal) (idx m c)) _ _ (fun _ => rfl) (fun _ => rfl) (Cert.IdxArr.recv_range _ hr)
  rw [HostRaw.V7_agg, hidx, new_value m ρ c hr]
  rfl

/-- The node features the kernel returns are the node features the reference returns, of the kernel's arguments. -/
theorem node_value (c : Dev nD) (hr : InRange m c) :
    W8 m ρ c (Proc.devRef .tc main_v24) = val_main_v99 (F := Ideal) (idx m c) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  refine (W8_arr m ρ c 10).trans ?_
  rw [NodeArr.out_arr (V7 m ρ) c, Cert.ReferenceIdeal.NodeRead.out_eq]
  show Cert.Spec.nodeOut (V7 m ρ c main_arg1) (V7 m ρ c main_v23) (V7 m ρ c main_arg11) (V7 m ρ c main_arg12) (V7 m ρ c main_arg13) (V7 m ρ c main_arg14) (V7 m ρ c main_arg15) (V7 m ρ c main_arg16) (V7 m ρ c main_arg17) (V7 m ρ c main_arg18) = _
  rw [HostRaw.V7_arg1, agg_eq m ρ c hr, HostRaw.V7_arg11, HostRaw.V7_arg12, HostRaw.V7_arg13, HostRaw.V7_arg14, HostRaw.V7_arg15,
    HostRaw.V7_arg16, HostRaw.V7_arg17, HostRaw.V7_arg18]

/-! ## The run -/

/-- Where every edge index is a row number, every weakly fair execution of the kernel's program terminates with its two
    result arrays at the reference's two result functions of the kernel's arguments, and the arguments as launched. -/
theorem run (hr : ∀ c, InRange m c) : θ_run defs (onTc (τ := τ) (main (F := Ideal))) ⟨m, fun _ => 0, ρ⟩ (fun r => ∀ c : Dev nD,
      r.2.mem ((c.tc : Thread nD τ).loc main_v24) = val_main_v99 (F := Ideal) (idx m c) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))
      ∧ r.2.mem ((c.tc : Thread nD τ).loc main_v20_1) = val_main_v100 (F := Ideal) (idx m c) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨(h c).1.trans (node_value m ρ c (hr c)), (h c).2.1.trans (final_value m ρ c (hr c)), (h c).2.2⟩)
    (Cert.KernelIdeal.RunValues.run_values m ρ)

end Cert.KernelIdeal.Value

end
-- ==== Proof.lean ====
/-
  The certificate: the kernel's program, its idealization and the reference's idealization each run
  without a fault and leave their arguments as launched; the idealization rewrote nothing; and at the
  extended reals the kernel and the reference, started from memories that agree on the arguments and
  in which every edge index is a row number of the node array, end with the same two results.

  The kernel clamps the edge indices into the node array before it gathers node rows and before it
  sums edge updates into node rows; the reference wraps negative indices and otherwise uses them as
  they are.  On indices that are row numbers both are the identity, so both programs gather the same
  rows and sum into the same rows.  Everything else is one row function applied twice: three affine
  layers with a rectifier after the first two and a normalisation of the 128 lanes.  The kernel
  applies it to blocks of 3000 edge rows and of 5000 node rows, the reference to the whole arrays, and
  a block of rows computes what the whole array computes on those rows.  The kernel's matrix products
  round their operands to a shorter float format first, which is the identity on the extended reals.
-/
import proofs.«408019_j31533649887539_3_alg».proof.Defs
import proofs.«408019_j31533649887539_3_alg».proof.Proof.Gen.Kernel
import proofs.«408019_j31533649887539_3_alg».proof.Proof.Gen.Kernel.Frame
import proofs.«408019_j31533649887539_3_alg».proof.Proof.Gen.KernelIdeal
import proofs.«408019_j31533649887539_3_alg».proof.Proof.Gen.KernelIdeal.Frame
import proofs.«408019_j31533649887539_3_alg».proof.Proof.Gen.ReferenceIdeal
import proofs.«408019_j31533649887539_3_alg».proof.Proof.Gen.Pre_finite_inputs
import proofs.«408019_j31533649887539_3_alg».proof.Proof.Pre
import proofs.«408019_j31533649887539_3_alg».proof.Proof.KValue
import proofs.«408019_j31533649887539_3_alg».proof.Proof.Gen.ReferenceIdeal.Run
import proofs.«408019_j31533649887539_3_alg».proof.Proof.Gen.ReferenceIdeal.Read
import Idealize.ShloMosaic.Adequacy
import Idealize.ShloMosaic.Init

set_option maxRecDepth 16384

noncomputable section

namespace Cert.Proof

open Idealize.ShloMosaic Idealize.SL.Sem

/-- The kernel's program as printed runs and keeps its arguments. -/
theorem frame_kernel : Cert.frame_Kernel := fun m ρ _ => Cert.Kernel.Gen.frame m ρ

/-- The kernel's idealization runs and keeps its arguments. -/
theorem frame_kernelIdeal : Cert.frame_KernelIdeal := fun m ρ _ => Cert.KernelIdeal.Gen.frame m ρ

/-- The reference's idealization runs and keeps its arguments: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both idealized programs, from memories agreeing on the arguments, end with the reference's two result functions of
    the kernel's arguments. -/
theorem algebraic : Cert.algebraic_KernelIdeal_ReferenceIdeal := by
  intro m ρ m' ρ' hpre hagree
  have hr : ∀ c, Cert.KernelIdeal.Value.InRange m c := fun c j =>
    Cert.PreRead.idx_in_range _ _ _ _ _ _ _ _ _ _ _ _ _ _ _ _ _ _ _ (hpre c) j
  refine ⟨_, _, Cert.KernelIdeal.Value.run m ρ hr, ?_⟩
  refine (θ_run Cert.ReferenceIdeal.defs _ _).mono (fun r h c => ?_) (Cert.ReferenceIdeal.Value.run (F := Ideal) m' ρ')
  obtain ⟨e0, e1, e2, e3, e4, e5, e6, e7, e8, e9, e10, e11, e12, e13, e14, e15, e16, e17, e18⟩ := hagree c
  refine ⟨(h c).1.trans ?_, (h c).2.1.trans ?_, (h c).2.2⟩
  · rw [Cert.ReferenceIdeal.Read.val_main_v99_eq, e0, e1, e2, e3, e4, e5, e6, e7, e8, e9, e10, e11, e12, e13, e14, e15, e16, e17, e18]
  · rw [Cert.ReferenceIdeal.Read.val_main_v100_eq, e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
